-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S32000x2048 : Shape := ⟨2, ![32000, 2048]⟩
abbrev S4 : Shape := ⟨1, ![4]⟩
abbrev S4x1024 : Shape := ⟨2, ![4, 1024]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4 : S_.BroadcastsInDim S4 (![] : Fin 0 → Fin S4.rank)
  reducesTo_S4_S_d0 : S4.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_v28 : IVec S_ 1) (main_v33 : IVec S4x1024 1) : IVec S_ 1 :=
  let main_c_12 : IVec S_ 1 := constantI S_ 1 1#1
  let main_v34 : IVec S_ 1 := (fun x v => Host.reduce IntOp.andi x v reducesTo_S4x1024_S_d0_1 h_S_) main_v33 main_c_12
  let main_v35 : IVec S_ 1 := andi main_v28 main_v34
  main_v35

def fn_part1 {F : FTy → Type} [FloatOps F] (main_arg4 : FVec F S4 .f32) (main_arg5 : FVec F S4x1024 .f32) (main_arg6 : IVec S4x1024 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_c_10 : IVec S_ 32 := constantI S_ 32 0#32
  let main_v29 : IVec S4x1024 32 := broadcastInDim S4x1024 ![] bcast_S_S4x1024 main_c_10
  let main_v30 : IVec S4x1024 1 := cmpi .sge main_arg6 main_v29
  let main_c_11 : IVec S_ 32 := constantI S_ 32 32000#32
  let main_v31 : IVec S4x1024 32 := broadcastInDim S4x1024 ![] bcast_S_S4x1024 main_c_11
  let main_v32 : IVec S4x1024 1 := cmpi .slt main_arg6 main_v31
  let main_v33 : IVec S4x1024 1 := andi main_v30 main_v32
  fn_part2 (F := F) main_v28 main_v33

def fn {F : FTy → Type} [FloatOps F] (main_arg0 : FVec F S4x1024x2048 .f32) (main_arg1 : FVec F S4x1024x2048 .f32) (main_arg2 : FVec F S32000x2048 .f32) (main_arg3 : FVec F S32000x2048 .f32) (main_arg4 : FVec F S4 .f32) (main_arg5 : FVec F S4x1024 .f32) (main_arg6 : IVec S4x1024 32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S4x1024x2048 .f32 := Host.absf main_arg1
  let main_cst_0 : FVec F S_ .f32 := constant S_ .f32 0x7F800000#32
  let main_v5 : FVec F S4x1024x2048 .f32 := broadcastInDim S4x1024x2048 ![] bcast_S_S4x1024x2048 main_cst_0
  let main_v6 : IVec S4x1024x2048 1 := cmpf .olt main_v4 main_v5
  let main_c_1 : IVec S_ 1 := constantI S_ 1 1#1
  let main_v7 : IVec S_ 1 := (fun x v => Host.reduce IntOp.andi x v reducesTo_S4x1024x2048_S_d0_1_2 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg3
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg4 main_arg5 main_arg6 main_v13 main_v16
-- ==== Kernel.lean ====
abbrev S4x1024x2048 : Shape := ⟨3, ![4, 1024, 2048]⟩
abbrev S32000x2048 : Shape := ⟨2, ![32000, 2048]⟩
abbrev S4 : Shape := ⟨1, ![4]⟩
abbrev S4x1024 : Shape := ⟨2, ![4, 1024]⟩
abbrev S4096x2048 : Shape := ⟨2, ![4096, 2048]⟩
abbrev S4096x1 : Shape := ⟨2, ![4096, 1]⟩
abbrev S_ : Shape := ⟨0, ![]⟩
abbrev S1024x2048 : Shape := ⟨2, ![1024, 2048]⟩
abbrev S640x2048 : Shape := ⟨2, ![640, 2048]⟩
abbrev S1024x1 : Shape := ⟨2, ![1024, 1]⟩
abbrev S1024x640 : Shape := ⟨2, ![1024, 640]⟩
abbrev S1024 : Shape := ⟨1, ![1024]⟩
abbrev S4x1 : Shape := ⟨2, ![4, 1]⟩

abbrev nBuf : Space → Nat
  | .hbm => 87
  | .vmem => 20
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S32000x2048, .f32⟩
  | .hbm, ⟨3, _⟩ => ⟨S32000x2048, .f32⟩
  | .hbm, ⟨4, _⟩ => ⟨S4, .f32⟩
  | .hbm, ⟨5, _⟩ => ⟨S4x1024, .f32⟩
  | .hbm, ⟨6, _⟩ => ⟨S4x1024, .i32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .bf16⟩
  | .hbm, ⟨11, _⟩ => ⟨S32000x2048, .bf16⟩
  | .hbm, ⟨12, _⟩ => ⟨S32000x2048, .bf16⟩
  | .hbm, ⟨13, _⟩ => ⟨S4096x1, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x1, .f32⟩
  | .hbm, ⟨23, _⟩ => ⟨S4096x1, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S_, .f32⟩
  | .hbm, ⟨34, _⟩ => ⟨S4x1024, .f32⟩
  | .hbm, ⟨35, _⟩ => ⟨S4x1024, .f32⟩
  | .hbm, ⟨36, _⟩ => ⟨S4x1, .f32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S4x1024, .f32⟩
  | .hbm, ⟨45, _⟩ => ⟨S4x1024, .f32⟩
  | .hbm, ⟨46, _⟩ => ⟨S_, .f32⟩
  | .hbm, ⟨47, _⟩ => ⟨S4x1024, .f32⟩
  | .hbm, ⟨48, _⟩ => ⟨S4x1024, .f32⟩
  | .hbm, ⟨49, _⟩ => ⟨S_, .f32⟩
  | .hbm, ⟨50, _⟩ => ⟨S4x1024, .f32⟩
  | .hbm, ⟨51, _⟩ => ⟨S4x1024, .f32⟩
  | .hbm, ⟨52, _⟩ => ⟨S4x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4x1024, .f32⟩
  | .hbm, ⟨67, _⟩ => ⟨S4x1024, .i1⟩
  | .hbm, ⟨68, _⟩ => ⟨S_, .f32⟩
  | .hbm, ⟨69, _⟩ => ⟨S4x1, .f32⟩
  | .hbm, ⟨70, _⟩ => ⟨S4x1, .i1⟩
  | .hbm, ⟨71, _⟩ => ⟨S4x1024, .i1⟩
  | .hbm, ⟨72, _⟩ => ⟨S4x1024, .i1⟩
  | .hbm, ⟨73, _⟩ => ⟨S_, .f32⟩
  | .hbm, ⟨74, _⟩ => ⟨S4x1024, .f32⟩
  | .hbm, ⟨75, _⟩ => ⟨S4x1024, .i1⟩
  | .hbm, ⟨76, _⟩ => ⟨S_, .f32⟩
  | .hbm, ⟨77, _⟩ => ⟨S4x1, .f32⟩
  | .hbm, ⟨78, _⟩ => ⟨S4x1, .i1⟩
  | .hbm, ⟨79, _⟩ => ⟨S4x1024, .i1⟩
  | .hbm, ⟨80, _⟩ => ⟨S4x1024, .i1⟩
  | .hbm, ⟨81, _⟩ => ⟨S4x1024, .i1⟩
  | .hbm, ⟨82, _⟩ => ⟨S4x1024, .f32⟩
  | .hbm, ⟨83, _⟩ => ⟨S4x1024, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .bf16⟩
  | .local _ .vmem, ⟨7, _⟩ => ⟨S640x2048, .bf16⟩
  | .local _ .vmem, ⟨8, _⟩ => ⟨S1024x1, .i32⟩
  | .local _ .vmem, ⟨9, _⟩ => ⟨S1024x1, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v81 : BitVec 1 := Scalar.cmpi .eq arg1 c49_i32
  let v82 : BitVec 32 := Scalar.extui v81
  let c0_i32_47 : BitVec 32 := 0#32
  let v83 : BitVec 1 := Scalar.cmpi .ne v82 c0_i32_47
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4x1024x2048_S4096x2048 : S4x1024x2048.ShapeCasts S4096x2048
  bitsLt_bf16_f32 : FTy.bits .bf16 < FTy.bits .f32
  shapeCasts_S4x1024_S4096x1 : S4x1024.ShapeCasts S4096x1
  bcast_S_S4096x1 : S_.BroadcastsInDim S4096x1 (![] : Fin 0 → Fin S4096x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x640_d1_w32 : S1024x640.Iotas .tc 32 [1]
  broadcasts_S1024x1_S1024x640 : S1024x1.Broadcasts S1024x640
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  reduces_S1024x640_S1024 : S1024x640.Reduces [1] S1024
  shapeCasts_S1024_S1024x1 : S1024.ShapeCasts S1024x1
  shapeCasts_S4096x1_S4x1024 : S4096x1.ShapeCasts S4x1024
  bcast_S_S4x1024 : S_.BroadcastsInDim S4x1024 (![] : Fin 0 → Fin S4x1024.rank)
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  reducesTo_S4x1024_S_d0_1 : S4x1024.ReducesTo [0, 1] S_
  h_S_ : 0 < S_.numel
  bcast_S_S4x1 : S_.BroadcastsInDim S4x1 (![] : Fin 0 → Fin S4x1.rank)
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x2048.size a ≤ S32000x2048.size a
  hwx0_2 : ∀ i : grid0.Coords, EltTy.bits .bf16 = 32 ∨ (Rect.block (s := S32000x2048) S640x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x2048.size a ≤ S32000x2048.size a
  hwx0_3 : ∀ i : grid0.Coords, EltTy.bits .bf16 = 32 ∨ (Rect.block (s := S32000x2048) S640x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S640x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S640x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S32000x2048 : Shape := ⟨2, ![32000, 2048]⟩
abbrev S4 : Shape := ⟨1, ![4]⟩
abbrev S4x1024 : Shape := ⟨2, ![4, 1024]⟩
abbrev S4x1024x32000 : Shape := ⟨3, ![4, 1024, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 154
  | .vmem => 0
  | .smem => 0
  | _ => 0

abbrev hbmTy0_0 (i : Nat) : BufTy := match i % 128 with
  | 0 => ⟨S4x1024x2048, .f32⟩
  | 1 => ⟨S4x1024x2048, .f32⟩
  | 2 => ⟨S32000x2048, .f32⟩
  | 3 => ⟨S32000x2048, .f32⟩
  | 4 => ⟨S4, .f32⟩
  | 5 => ⟨S4x1024, .f32⟩
  | 6 => ⟨S4x1024, .i32⟩
  | 7 => ⟨S4x1024x32000, .f32⟩
  | 8 => ⟨S_, .f32⟩
  | 9 => ⟨S4x1024x32000, .f32⟩
  | 10 => ⟨S4x1024x32000, .f32⟩
  | 11 => ⟨S_, .f32⟩
  | 12 => ⟨S4x1024, .f32⟩
  | 13 => ⟨S_, .f32⟩
  | 14 => ⟨S4x1024, .f32⟩
  | 15 => ⟨S4x1024, .f32⟩
  | 16 => ⟨S4x1024x1, .f32⟩
  | 17 => ⟨S4x1024x32000, .f32⟩
  | 18 => ⟨S4x1024x32000, .f32⟩
  | 19 => ⟨S4x1024x32000, .f32⟩
  | 20 => ⟨S_, .f32⟩
  | 21 => ⟨S4x1024, .f32⟩
  | 22 => ⟨S4x1024x1, .f32⟩
  | 23 => ⟨S4x1024x1, .f32⟩
  | 24 => ⟨S4x1024x32000, .f32⟩
  | 25 => ⟨S4x1024x32000, .f32⟩
  | 26 => ⟨S4x1024x1, .i32⟩
  | 27 => ⟨S_, .i32⟩
  | 28 => ⟨S4x1024x1, .i32⟩
  | 29 => ⟨S4x1024x1, .i1⟩
  | 30 => ⟨S_, .i32⟩
  | 31 => ⟨S4x1024x1, .i32⟩
  | 32 => ⟨S4x1024x1, .i32⟩
  | 33 => ⟨S4x1024x1, .i32⟩
  | 34 => ⟨S4x1024x1x1, .i32⟩
  | 35 => ⟨S1, .i32⟩
  | 36 => ⟨S_, .i32⟩
  | 37 => ⟨S4x1024x1x1, .i32⟩
  | 38 => ⟨S4x1024x1x1, .i1⟩
  | 39 => ⟨S1x1x1x1, .i32⟩
  | 40 => ⟨S4x1024x1x1, .i32⟩
  | 41 => ⟨S4x1024x1x1, .i1⟩
  | 42 => ⟨S4x1024x1x1, .i1⟩
  | 43 => ⟨S_, .i1⟩
  | 44 => ⟨S4x1024x1, .i1⟩
  | 45 => ⟨S4x1024x1, .f32⟩
  | 46 => ⟨S_, .f32⟩
  | 47 => ⟨S4x1024x1, .f32⟩
  | 48 => ⟨S4x1024x1, .f32⟩
  | 49 => ⟨S4x1024, .f32⟩
  | 50 => ⟨S4x1024x32000, .f32⟩
  | 51 => ⟨S_, .f32⟩
  | 52 => ⟨S4x1024x32000, .f32⟩
  | 53 => ⟨S4x1024x32000, .f32⟩
  | 54 => ⟨S_, .f32⟩
  | 55 => ⟨S4x1024, .f32⟩
  | 56 => ⟨S_, .f32⟩
  | 57 => ⟨S4x1024, .f32⟩
  | 58 => ⟨S4x1024, .f32⟩
  | 59 => ⟨S4x1024x1, .f32⟩
  | 60 => ⟨S4x1024x32000, .f32⟩
  | 61 => ⟨S4x1024x32000, .f32⟩
  | 62 => ⟨S4x1024x32000, .f32⟩
  | 63 => ⟨S_, .f32⟩
  | 64 => ⟨S4x1024, .f32⟩
  | 65 => ⟨S4x1024x1, .f32⟩
  | 66 => ⟨S4x1024x1, .f32⟩
  | 67 => ⟨S4x1024x32000, .f32⟩
  | 68 => ⟨S4x1024x32000, .f32⟩
  | 69 => ⟨S4x1024x1, .i32⟩
  | 70 => ⟨S_, .i32⟩
  | 71 => ⟨S4x1024x1, .i32⟩
  | 72 => ⟨S4x1024x1, .i1⟩
  | 73 => ⟨S_, .i32⟩
  | 74 => ⟨S4x1024x1, .i32⟩
  | 75 => ⟨S4x1024x1, .i32⟩
  | 76 => ⟨S4x1024x1, .i32⟩
  | 77 => ⟨S4x1024x1x1, .i32⟩
  | 78 => ⟨S1, .i32⟩
  | 79 => ⟨S_, .i32⟩
  | 80 => ⟨S4x1024x1x1, .i32⟩
  | 81 => ⟨S4x1024x1x1, .i1⟩
  | 82 => ⟨S1x1x1x1, .i32⟩
  | 83 => ⟨S4x1024x1x1, .i32⟩
  | 84 => ⟨S4x1024x1x1, .i1⟩
  | 85 => ⟨S4x1024x1x1, .i1⟩
  | 86 => ⟨S_, .i1⟩
  | 87 => ⟨S4x1024x1, .i1⟩
  | 88 => ⟨S4x1024x1, .f32⟩
  | 89 => ⟨S_, .f32⟩
  | 90 => ⟨S4x1024x1, .f32⟩
  | 91 => ⟨S4x1024x1, .f32⟩
  | 92 => ⟨S4x1024, .f32⟩
  | 93 => ⟨S4x1024, .f32⟩
  | 94 => ⟨S4x1024, .f32⟩
  | 95 => ⟨S_, .f32⟩
  | 96 => ⟨S_, .f32⟩
  | 97 => ⟨S_, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S4x1, .f32⟩
  | 104 => ⟨S4x1024, .f32⟩
  | 105 => ⟨S4x1024, .f32⟩
  | 106 => ⟨S4x1024, .f32⟩
  | 107 => ⟨S4x1024, .f32⟩
  | 108 => ⟨S4x1024, .f32⟩
  | 109 => ⟨S4x1024, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S_, .f32⟩
  | 122 => ⟨S_, .f32⟩
  | 123 => ⟨S_, .f32⟩
  | 124 => ⟨S4x1024, .f32⟩
  | 125 => ⟨S_, .f32⟩
  | 126 => ⟨S_, .f32⟩
  | 127 => ⟨S_, .f32⟩
  | _ => ⟨S4x1024x2048, .f32⟩

abbrev hbmTy0_1 (i : Nat) : BufTy := match i % 128 with
  | 0 => ⟨S4x1024, .f32⟩
  | 1 => ⟨S_, .f32⟩
  | 2 => ⟨S_, .f32⟩
  | 3 => ⟨S_, .f32⟩
  | 4 => ⟨S_, .f32⟩
  | 5 => ⟨S4x1024, .f32⟩
  | 6 => ⟨S4x1024, .i1⟩
  | 7 => ⟨S_, .f32⟩
  | 8 => ⟨S4x1, .f32⟩
  | 9 => ⟨S4x1, .i1⟩
  | 10 => ⟨S4x1024, .i1⟩
  | 11 => ⟨S4x1024, .i1⟩
  | 12 => ⟨S_, .f32⟩
  | 13 => ⟨S4x1024, .f32⟩
  | 14 => ⟨S4x1024, .i1⟩
  | 15 => ⟨S_, .f32⟩
  | 16 => ⟨S4x1, .f32⟩
  | 17 => ⟨S4x1, .i1⟩
  | 18 => ⟨S4x1024, .i1⟩
  | 19 => ⟨S4x1024, .i1⟩
  | 20 => ⟨S4x1024, .i1⟩
  | 21 => ⟨S4x1024, .f32⟩
  | 22 => ⟨S4x1024, .f32⟩
  | 23 => ⟨S_, .f32⟩
  | 24 => ⟨S_, .f32⟩
  | 25 => ⟨S_, .f32⟩
  | _ => ⟨S4x1024x2048, .f32⟩

abbrev hbmTy (i : Nat) : BufTy := match i / 128 with
  | 0 => hbmTy0_0 i
  | 1 => hbmTy0_1 i
  | _ => ⟨S4x1024x2048, .f32⟩

abbrev bufTy : (tb : Table) → Fin (tcTables nBuf tb) → BufTy
  | .hbm, ⟨i, _⟩ => hbmTy i
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v3 : Ref sig .tc := ⟨.hbm, 25, rfl⟩
abbrev main_v4 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_0 : Ref sig .tc := ⟨.hbm, 51, rfl⟩
abbrev main_v8 : Ref sig .tc := ⟨.hbm, 52, rfl⟩
abbrev main_v9 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v10 : Ref sig .tc := ⟨.hbm, 68, rfl⟩
abbrev main_v11 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_cst_1 : Ref sig .tc := ⟨.hbm, 95, rfl⟩
abbrev main_cst_2 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_cst_3 : Ref sig .tc := ⟨.hbm, 113, rfl⟩
abbrev main_v27 : Ref sig .tc := ⟨.hbm, 114, rfl⟩
abbrev main_v28 : Ref sig .tc := ⟨.hbm, 115, rfl⟩
abbrev main_cst_4 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_cst_5 : Ref sig .tc := ⟨.hbm, 120, rfl⟩
abbrev main_v32 : Ref sig .tc := ⟨.hbm, 121, rfl⟩
abbrev main_cst_6 : Ref sig .tc := ⟨.hbm, 122, rfl⟩
abbrev main_v33 : Ref sig .tc := ⟨.hbm, 123, rfl⟩
abbrev main_v34 : Ref sig .tc := ⟨.hbm, 124, rfl⟩
abbrev main_cst_7 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_cst_8 : Ref sig .tc := ⟨.hbm, 129, rfl⟩
abbrev main_v38 : Ref sig .tc := ⟨.hbm, 130, rfl⟩
abbrev main_v39 : Ref sig .tc := ⟨.hbm, 131, rfl⟩
abbrev main_cst_9 : Ref sig .tc := ⟨.hbm, 132, rfl⟩
abbrev main_v40 : Ref sig .tc := ⟨.hbm, 133, rfl⟩
abbrev main_v41 : Ref sig .tc := ⟨.hbm, 134, rfl⟩
abbrev main_cst_10 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_cst_11 : Ref sig .tc := ⟨.hbm, 140, rfl⟩
abbrev main_v46 : Ref sig .tc := ⟨.hbm, 141, rfl⟩
abbrev main_v47 : Ref sig .tc := ⟨.hbm, 142, rfl⟩
abbrev main_cst_12 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_cst_13 : Ref sig .tc := ⟨.hbm, 151, rfl⟩
abbrev main_v55 : Ref sig .tc := ⟨.hbm, 152, rfl⟩
abbrev main_v56 : Ref sig .tc := ⟨.hbm, 153, rfl⟩

abbrev nD : Nat := 1
abbrev τ : Topo := Topo.v7x

variable {F : FTy → Type} [FloatOps F]

class Facts₀ : Prop where
  bcast_S_S4x1024x32000 : S_.BroadcastsInDim S4x1024x32000 (![] : Fin 0 → Fin S4x1024x32000.rank)
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  reducesTo_S4x1024_S_d0_1 : S4x1024.ReducesTo [0, 1] S_
  bcast_S_S4x1 : S_.BroadcastsInDim S4x1 (![] : Fin 0 → Fin S4x1.rank)
  dot_S4x1024x2048_S32000x2048_S4x1024x32000_2_1_01_0_n_n_wf : DotDims.WF S4x1024x2048 S32000x2048 S4x1024x32000 [2] [1] [0, 1] [0] [] []
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def dot_S4x1024x2048_S32000x2048_S4x1024x32000_2_1_01_0_n_n : DotDims S4x1024x2048 S32000x2048 S4x1024x32000 where
  lhsContracting := [2]
  rhsContracting := [1]
  lhsNonContracting := [0, 1]
  rhsNonContracting := [0]
  lhsBatch := []
  rhsBatch := []
  wf := dot_S4x1024x2048_S32000x2048_S4x1024x32000_2_1_01_0_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.PreDecode.lean ====
/-
  What the precondition says, read off its printed form: every entry of the two hidden-state arrays and of the two
  weight matrices is a real number (not an infinity), and every selected token id is the 32-bit word of a number
  below 32000.
-/
import proofs.«407823_j13554916786396_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreDecode

open Idealize.ShloMosaic Cert.Pre_finite_inputs

variable [Cert.Pre_finite_inputs.Facts]

/-- The scalar shape has one index. -/
private instance subsingleton_scalar_idx : Subsingleton S_.Idx := ⟨fun a b => funext fun d => d.elim0⟩

/-- The word 0x7F800000 denotes +∞. -/
private theorem inf_word : Ideal.ofBits .f32 0x7F800000#32 = (⊤ : EReal) := by simp [Ideal.ofBits, Ideal.ieee]

/-- One value: |x| < +∞ holds only of a real number: at either infinity max x (-x) is +∞. -/
private theorem real_of_abs_lt_inf (x : Ideal .f32)
    (e : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at e
  rw [inf_word] at e
  unfold Ideal.cmp at e
  induction x using EReal.rec with
  | bot => simp at e
  | coe r => exact ⟨r, rfl⟩
  | top => simp at e

/-- One array: the all-axes conjunction of |x| < +∞, being 1, makes every entry a real number. -/
private theorem real_of_all {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
          (cmpf .olt (Host.absf x) (broadcastInDim s ![] hb (constant (F := Ideal) S_ .f32 0x7F800000#32))) init hr h0 j = 1#1) :
    ∀ i, ∃ r : ℝ, x i = (r : EReal) := fun i =>
  real_of_abs_lt_inf (x i) (Host.reduce_andi_all _ init hr h0 j e i)

/-- One word: 0 ≤ w and w < 32000 as signed words make w the word of a number below 32000. -/
private theorem small_of_signed_range (w : BitVec 32)
    (e : IntOp.andi (IntOp.cmpi .sge w 0#32) (IntOp.cmpi .slt w 32000#32) = 1#1) :
    ∃ n : ℕ, n < 32000 ∧ w = BitVec.ofNat 32 n := by
  obtain ⟨hge, hlt⟩ := IntOp.andi_eq_one.1 e
  unfold IntOp.cmpi at hge hlt
  rw [StableHlo.Predicate.ofBool_eq_one_iff] at hge hlt
  have h0 : (0#32 : BitVec 32).toInt = 0 := by decide
  have h32 : (32000#32 : BitVec 32).toInt = 32000 := by decide
  simp only [BitVec.sle, BitVec.slt, h0, h32, decide_eq_true_eq] at hge hlt
  have hw := w.isLt
  rw [BitVec.toInt_eq_toNat_cond] at hge hlt
  refine ⟨w.toNat, ?_, ?_⟩
  · split at hge <;> split at hlt <;> omega
  · apply BitVec.eq_of_toNat_eq
    rw [BitVec.toNat_ofNat]
    exact (Nat.mod_eq_of_lt hw).symm

/-- The ids: the all-axes conjunction of (0 ≤ id) ∧ (id < 32000), being 1, bounds every id. -/
private theorem small_of_all (a : IVec S4x1024 32) (hb : S_.BroadcastsInDim S4x1024 (![] : Fin 0 → Fin S4x1024.rank))
    {axes : List (Fin S4x1024.rank)} (hr : S4x1024.ReducesTo axes S_) (h0 : 0 < S_.numel) (init : IVec S_ 1) (j : S_.Idx)
    (e : Host.reduce IntOp.andi
          (andi (cmpi .sge a (broadcastInDim S4x1024 ![] hb (constantI S_ 32 0#32)))
                (cmpi .slt a (broadcastInDim S4x1024 ![] hb (constantI S_ 32 32000#32)))) init hr h0 j = 1#1) :
    ∀ i, ∃ n : ℕ, n < 32000 ∧ a i = BitVec.ofNat 32 n := fun i =>
  small_of_signed_range (a i) (Host.reduce_andi_all _ init hr h0 j e i)

/-- The precondition, all ones, gives: the four float arrays the logits are made of hold real numbers, and each
    selected id is a number below 32000. -/
theorem decode (a0 a1 : FVec Ideal S4x1024x2048 .f32) (a2 a3 : FVec Ideal S32000x2048 .f32) (a4 : FVec Ideal S4 .f32)
    (a5 : FVec Ideal S4x1024 .f32) (a6 : IVec S4x1024 32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal))
    ∧ (∀ i, ∃ r : ℝ, a2 i = (r : EReal)) ∧ (∀ i, ∃ r : ℝ, a3 i = (r : EReal))
    ∧ (∀ i, ∃ n : ℕ, n < 32000 ∧ a6 i = BitVec.ofNat 32 n) := by
  have h1 := congrFun h ValueIdx.ix0
  dsimp only [Cert.Pre_finite_inputs.fn, fn_part1, fn_part2] at h1
  -- the seven conjuncts, joined from the left: (((((a0 ∧ a1) ∧ a2) ∧ a3) ∧ a4) ∧ a5) ∧ ids
  obtain ⟨h28, h34⟩ := IntOp.andi_eq_one.1 h1
  obtain ⟨h23, _⟩ := IntOp.andi_eq_one.1 h28
  obtain ⟨h18, _⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all a0 _ _ _ _ _ h3, real_of_all a1 _ _ _ _ _ h7, real_of_all a2 _ _ _ _ _ h12,
    real_of_all a3 _ _ _ _ _ h17, small_of_all a6 _ _ _ _ _ h34⟩

end Cert.PreDecode

end
-- ==== Proof.Steps.lean ====
/-
  The body's updates of its six accumulators, and its two results, as functions of the blocks it reads.

  Per row tile the body keeps, for each of the two models, a running maximum, a running sum of exponentials and the
  selected logit. One block of the vocabulary moves each of them by one of the functions below (the pure terms the
  body stores, composed in the order the body computes them); at a row tile's last block the two results are read
  off the accumulators.
-/
import proofs.«407823_j13554916786396_3_alg».proof.Proof.Gen.KernelIdeal.Skeleton

noncomputable section

namespace Cert.KernelIdeal.Steps

open Idealize.ShloMosaic Cert.KernelIdeal Cert.KernelIdeal.Gen

variable {F : FTy → Type} [FloatOps F]

/-- The first model's running maximum after a block. -/
def stepM (x0 : Vec F S1024x2048 .bf16) (x2 : Vec F S640x2048 .bf16) (s0 : Vec F S1024x1 .f32) : Vec F S1024x1 .f32 :=
  k0_pay18 (k0_pay14 x0 x2 s0)

/-- The first model's running sum of exponentials after a block. -/
def stepL (x0 : Vec F S1024x2048 .bf16) (x2 : Vec F S640x2048 .bf16) (s0 s1 : Vec F S1024x1 .f32) : Vec F S1024x1 .f32 :=
  k0_pay17 (k0_pay15 x0 x2 s0 s0) (k0_pay16 x0 x2 s0) s1

/-- The first model's selected logit after a block. -/
def stepS (i : grid0.Coords) (x4 : Vec F S1024x1 .i32) (x0 : Vec F S1024x2048 .bf16) (x2 : Vec F S640x2048 .bf16)
    (s2 : Vec F S1024x1 .f32) : Vec F S1024x1 .f32 :=
  k0_pay13 i x4 x0 x2 s2

/-- The second model's running maximum after a block. -/
def stepM' (x1 : Vec F S1024x2048 .bf16) (x3 : Vec F S640x2048 .bf16) (s3 : Vec F S1024x1 .f32) : Vec F S1024x1 .f32 :=
  k0_pay2 (k0_pay21 x1 x3 s3)

/-- The second model's running sum of exponentials after a block. -/
def stepL' (x1 : Vec F S1024x2048 .bf16) (x3 : Vec F S640x2048 .bf16) (s3 s4 : Vec F S1024x1 .f32) : Vec F S1024x1 .f32 :=
  k0_pay1 (k0_pay22 x1 x3 s3 s3) (k0_pay23 x1 x3 s3) s4

/-- The second model's selected logit after a block. -/
def stepS' (i : grid0.Coords) (x4 : Vec F S1024x1 .i32) (x1 : Vec F S1024x2048 .bf16) (x3 : Vec F S640x2048 .bf16)
    (s5 : Vec F S1024x1 .f32) : Vec F S1024x1 .f32 :=
  k0_pay20 (k0_pay11 i x4) x1 x3 s5

/-- The first result, from the first model's selected logit, maximum and sum. -/
def outCur (s2 s0 s1 : Vec F S1024x1 .f32) : Vec F S1024x1 .f32 := k0_pay3 s2 s0 s1

/-- The second result, from the second model's selected logit, maximum and sum. -/
def outRef (s5 s3 s4 : Vec F S1024x1 .f32) : Vec F S1024x1 .f32 := k0_pay4 s5 s3 s4

end Cert.KernelIdeal.Steps

end
-- ==== Proof.Pieces.lean ====
/-
  What each case of the body leaves behind, as the update functions of the blocks it read.

  The body runs in one of three cases: a row tile's first block of the vocabulary (it resets the six accumulators,
  then updates them), a block in the middle (it updates them from what the block before left), and the last block
  (it updates them and stores the two results). In every case each accumulator ends at its update function applied to
  the blocks read and to the values it started from; in the last case each result is read off the three accumulators of
  its model as just updated.
-/
import proofs.«407823_j13554916786396_3_alg».proof.Proof.PatchKI.Frame
import proofs.«407823_j13554916786396_3_alg».proof.Proof.Steps
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen Cert.KernelIdeal.Steps

variable {F : FTy → Type} [FloatOps F]

/-- The offsets of a whole block: zero along both axes. -/
theorem offsets_zero : (![0, 0] : Fin 2 → Nat) = fun _ => 0 := funext fun a => by fin_cases a <;> rfl

/-- What the body leaves in the accumulator of the first model's running maximum at a row tile's first block (the accumulators start from their resets). -/
theorem sout0_A_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepM x0 x2 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepM
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's running sum of exponentials at a row tile's first block (the accumulators start from their resets). -/
theorem sout0_A_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepL x0 x2 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepL
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's selected logit at a row tile's first block (the accumulators start from their resets). -/
theorem sout0_A_2_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepS i x4 x0 x2 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepS
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running maximum at a row tile's first block (the accumulators start from their resets). -/
theorem sout0_A_3_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepM' x1 x3 k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepM'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running sum of exponentials at a row tile's first block (the accumulators start from their resets). -/
theorem sout0_A_4_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepL' x1 x3 k0_pay8 k0_pay9 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepL'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's selected logit at a row tile's first block (the accumulators start from their resets). -/
theorem sout0_A_5_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) :
    sout0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = stepS' i x4 x1 x3 k0_pay10 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_A
  dsimp only
  sl_unfold_words
  rw [View.canon_cons_unit_zero (S := S1024x1) offsets_zero]
  unfold stepS'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's running maximum at a block in the middle of a row tile's sweep (the accumulators start from what the block before left). -/
theorem sout0_B_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepM x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepM
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's running sum of exponentials at a block in the middle of a row tile's sweep (the accumulators start from what the block before left). -/
theorem sout0_B_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepL x0 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepL
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's selected logit at a block in the middle of a row tile's sweep (the accumulators start from what the block before left). -/
theorem sout0_B_2_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepS i x4 x0 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepS
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running maximum at a block in the middle of a row tile's sweep (the accumulators start from what the block before left). -/
theorem sout0_B_3_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepM' x1 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepM'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running sum of exponentials at a block in the middle of a row tile's sweep (the accumulators start from what the block before left). -/
theorem sout0_B_4_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepL' x1 x3 xs3 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepL'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's selected logit at a block in the middle of a row tile's sweep (the accumulators start from what the block before left). -/
theorem sout0_B_5_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepS' i x4 x1 x3 xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_B
  dsimp only
  sl_unfold_words
  rw [View.canon_unit_zero offsets_zero]
  unfold stepS'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's running maximum at a row tile's last block (the accumulators start from what the block before left). -/
theorem sout0_C_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepM x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepM
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's running sum of exponentials at a row tile's last block (the accumulators start from what the block before left). -/
theorem sout0_C_1_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepL x0 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepL
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the first model's selected logit at a row tile's last block (the accumulators start from what the block before left). -/
theorem sout0_C_2_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepS i x4 x0 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepS
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running maximum at a row tile's last block (the accumulators start from what the block before left). -/
theorem sout0_C_3_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepM' x1 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepM'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's running sum of exponentials at a row tile's last block (the accumulators start from what the block before left). -/
theorem sout0_C_4_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepL' x1 x3 xs3 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepL'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body leaves in the accumulator of the second model's selected logit at a row tile's last block (the accumulators start from what the block before left). -/
theorem sout0_C_5_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    sout0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = stepS' i x4 x1 x3 xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold stepS'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body stores into result one's block at a row tile's last block: the result read off the accumulators it has just updated. -/
theorem out0_C_5_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = outCur (stepS i x4 x0 x2 xs2) (stepM x0 x2 xs0) (stepL x0 x2 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold outCur stepS stepM stepL
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

/-- What the body stores into result two's block at a row tile's last block: the result read off the accumulators it has just updated. -/
theorem out0_C_6_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S640x2048 .bf16) (harg4 : arg4.IsWhole) (arg5 : Memref sig .tc .vmem S640x2048 .bf16) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x2048 .bf16) (x1 : Vec F S1024x2048 .bf16) (x2 : Vec F S640x2048 .bf16) (x3 : Vec F S640x2048 .bf16) (x4 : Vec F S1024x1 .i32) (xs0 : Vec F S1024x1 .f32) (xs1 : Vec F S1024x1 .f32) (xs2 : Vec F S1024x1 .f32) (xs3 : Vec F S1024x1 .f32) (xs4 : Vec F S1024x1 .f32) (xs5 : Vec F S1024x1 .f32) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5
      = outRef (stepS' i x4 x1 x3 xs5) (stepM' x1 x3 xs3) (stepL' x1 x3 xs3 xs4) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2 xs3 xs4 xs5)]
  unfold kernelRun0_C
  dsimp only
  sl_unfold_words
  rw [View.canon_unit_zero offsets_zero]
  unfold outRef stepS' stepM' stepL'
  simp only [View.readAt_eq_ld, harg2.read_unread, harg3.read_unread, harg4.read_unread, harg5.read_unread, harg6.read_unread, harg9.read_unread, harg10.read_unread, harg11.read_unread, harg12.read_unread, harg13.read_unread, harg14.read_unread, View.ld_unit_zero (S := S1024x2048) offsets_zero, View.ld_unit_zero (S := S640x2048) offsets_zero, View.ld_unit_zero (S := S1024x1) offsets_zero, View.readCov_unit_zero (S := S1024x1) _ offsets_zero]

end Cert.KernelIdeal.Pieces

end
-- ==== Proof.LibRow.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibRow

open Idealize.ShloMosaic Idealize.ShloMosaic.ValueIdx

/-! ## A product with the right operand transposed, read at an index

For dimension numbers that contract axis 1 of BOTH operands, keep axis 0 of each and batch nothing, the operand
indices at output index (p, q) and contraction position k are (p, k) and (q, k): the product at (p, q) is the sum
over k of lhs (p, k) * rhs (q, k), the inner product of row p of the left operand with row q of the right one. -/

section MatmulNT
variable {M K N : ℕ} (d : DotDims ⟨2, ![M, K]⟩ ⟨2, ![N, K]⟩ ⟨2, ![M, N]⟩)

/-- The contracted shape has one axis. -/
theorem contr_rank (hlc : d.lhsContracting = [1]) : d.contr.rank = 1 := by
  rw [d.rank_contr, hlc]; rfl

/-- The contracted shape's one axis has the left operand's column count. -/
theorem contr_size (hlc : d.lhsContracting = [1]) :
    d.contr.size ⟨0, by rw [contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (kept): the output's row coordinate. -/
theorem lhsIdx_axis0 (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- Left operand, axis 1 (contracted): the contraction position's one coordinate. -/
theorem lhsIdx_axis1 (hlc : d.lhsContracting = [1])
    (j : (⟨2, ![M, N]⟩ : Shape).Idx) (k : d.contr.Idx) :
    (d.lhsIdx j k 1).val = (k ⟨0, by rw [contr_rank d hlc]; exact Nat.one_pos⟩).val :=
  d.lhsIdx_val_of_single hlc j k

/-- Right operand, axis 0 (kept): the output's column coordinate. -/
theorem rhsIdx_axis0 (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- Right operand, axis 1 (contracted): the contraction position's one coordinate. -/
theorem rhsIdx_axis1 (hlc : d.lhsContracting = [1]) (hrc : d.rhsContracting = [1])
    (j : (⟨2, ![M, N]⟩ : Shape).Idx) (k : d.contr.Idx) :
    (d.rhsIdx j k 1).val = (k ⟨0, by rw [contr_rank d hlc]; exact Nat.one_pos⟩).val :=
  d.rhsIdx_val_of_single hrc j k

/-- An [M,K]·[N,K]ᵀ product into the zero accumulator reads, at (p, q), the sum over k of lhs (p, k) * rhs (q, k). -/
theorem matmul_nt_zero_ix2 {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (lhs : FVec Ideal ⟨2, ![M, K]⟩ φ₁) (rhs : FVec Ideal ⟨2, ![N, K]⟩ φ₂)
    (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have hl : d.lhsIdx (ix2 p q) ((contrEquiv1 d K (contr_rank d hlc) (contr_size d hlc)).symm k) = ix2 p k := by
    funext a
    refine Fin.ext ?_
    match a with
    | ⟨0, _⟩ => exact lhsIdx_axis0 d hln hlb _ _
    | ⟨1, _⟩ => exact (lhsIdx_axis1 d hlc _ _).trans hk
  have hr : d.rhsIdx (ix2 p q) ((contrEquiv1 d K (contr_rank d hlc) (contr_size d hlc)).symm k) = ix2 q k := by
    funext a
    refine Fin.ext ?_
    match a with
    | ⟨0, _⟩ => exact rhsIdx_axis0 d hln hrn hlb hrb _ _
    | ⟨1, _⟩ => exact (rhsIdx_axis1 d hlc hrc _ _).trans hk
  rw [hl, hr]

end MatmulNT

/-! ## A column over many columns, and two blocks side by side -/

section Layout
variable {α : Type}

/-- An [m, 1] column broadcast to [m, n] reads, at (p, q), the column at p. -/
theorem broadcastTo_col_apply {m n : ℕ} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-- [m, a] and [m, b] joined along axis 1 into [m, c] read, at a column q below a, the first block at (p, q). -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin a)
    (hq : q'.val = q.val) :
    concatenate ⟨2, ![m, c]⟩ 1 [⟨⟨2, ![m, a]⟩, x₁⟩, ⟨⟨2, ![m, b]⟩, x₂⟩] h (ix2 p q) = x₁ (ix2 p q') :=
  concatenate_pair_apply_left 1 x₁ x₂ h (ix2 p q) rfl (ix2 p q') (fun bx => by
    match bx with
    | ⟨0, _⟩ => rfl
    | ⟨1, _⟩ => exact hq)

/-- … and, at a column q from a on, the second block at (p, q - a). -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (q : Fin c) (q' : Fin b)
    (hq : q'.val + a = q.val) :
    concatenate ⟨2, ![m, c]⟩ 1 [⟨⟨2, ![m, a]⟩, x₁⟩, ⟨⟨2, ![m, b]⟩, x₂⟩] h (ix2 p q) = x₂ (ix2 p q') :=
  concatenate_pair_apply_right 1 x₁ x₂ h (ix2 p q) rfl rfl (ix2 p q') (fun bx hbx => by
    match bx with
    | ⟨0, _⟩ => rfl
    | ⟨1, _⟩ => exact absurd rfl hbx) hq

end Layout

/-! ## Two readings at the extended reals -/

/-- A square root of an array reads, at an index, the extended reals' square root of the entry. -/
theorem sqrt_apply {s : Shape} {φ : FTy} (v : FVec Ideal s φ) (i : s.Idx) : sqrt v i = Ideal.sqrt (v i) := rfl

/-- A scalar literal is the extended real its word encodes. -/
theorem scalar_ofBits (φ : FTy) (w : BitVec φ.bits) : Scalar.ofBits (F := Ideal) φ w = Ideal.ofBits φ w := rfl

/-! ## A row's sum of squares through a lane reduction kept as a column -/

/-- The add-reduction over axis 1 of the elementwise square of an [m, n] array, cast to an [m, 1] column, reads at
    (p, u) the sum over k of the square of the array at (p, k). -/
theorem rowsq_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ (mulf v v) acc h hφ hacc) hc (ix2 p u)
      = ∑ k : Fin n, v (ix2 p k) * v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

/-- The add-reduction over axis 1 of an [m, n] array, cast to an [m, 1] column, reads at (p, u) the sum over k of the
    array at (p, k). -/
theorem rowsum_col_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![m, 1]⟩) (p : Fin m) (u : Fin 1) :
    shapeCast ⟨2, ![m, 1]⟩ (multiReduction .add [1] ⟨1, ![m]⟩ v acc h hφ hacc) hc (ix2 p u)
      = ∑ k : Fin n, v (ix2 p k) := by
  refine (shapeCast_apply _ hc (ix2 p u) (ix1 p) (by
    have hu : u.val = 0 := by omega
    rw [Shape.rowMajor_val_two, Shape.rowMajor_val_one]
    show p.val = p.val * 1 + u.val
    rw [hu, Nat.mul_one, Nat.add_zero])).trans ?_
  rw [Ideal.multiReduction_add_single]
  refine Finset.sum_congr rfl fun k _ => ?_
  exact congrArg v (funext fun e => Fin.ext (by
    match e with
    | ⟨0, _⟩ => rfl
    | ⟨1, _⟩ => rfl))

/-- The add-reduction over axis 1 of the elementwise square of an [m, n] array, cast to a [1, m] row, reads at
    (u, p) the sum over k of the square of the array at (p, k). -/
theorem rowsq_row_apply {φ : FTy} {m n : ℕ} (v : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hc : (⟨1, ![m]⟩ : Shape).ShapeCasts ⟨2, ![1, m]⟩) (u : Fin 1) (p : Fin m) :
    shapeCast ⟨2, ![1, m]⟩ (multiReduction .add [1] ⟨1, ![m]⟩ (mulf v v) acc h hφ hacc) hc (ix2 u p)
      = ∑ k : Fin n, v (ix2 p k) * v (ix2 p k) := by
  refine (shapeCast_a_1a_apply _ hc u p).trans ?_
  rw [Ideal.multiReduction_add_single]
  refine Finset.sum_congr rfl fun k _ => ?_
  have e : h.lift (ix1 p) k = ix2 p k := funext fun e => Fin.ext (by
    match e with
    | ⟨0, _⟩ => rfl
    | ⟨1, _⟩ => rfl)
  rw [e]
  rfl

end Cert.LibRow

end
-- ==== Proof.LibBatch.lean ====
/-
  Reading rank-three arrays with a leading batch axis at an index, on the extended reals, for any extents.

  Layout: an [a, b] array cast to [a, b, 1] or to [a, 1, b]; an [a, b, 1] or [a, 1, c] array broadcast to
  [a, b, c]. Reductions: the sum and the maximum over the last axis of an [a, b, c] array, the sum over its
  middle axis, the maximum over the last axis of an [a, b] array; the maxima the same on the host. Products: with a shared leading batch axis, lhs [B, M, K] against rhs [B, N, K]
  contracted over the last axis of both, and lhs [B, M, K] against rhs [B, K, N] contracted over the last axis of
  the first and the middle axis of the second; each entry of the result is the sum over the contracted
  coordinate of the operands' products, within one batch.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibBatch

open Idealize.ShloMosaic Idealize.ShloMosaic.ValueIdx

/-! ## Unit axes and broadcasts -/

section Layout
variable {α : Type}

/-- An [a, b] array cast to [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a] vector cast to an [a, 1] column reads, at (p, u), the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, q, r), the operand at (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An [a, 1] column broadcast to [a, b] reads, at (p, q), the column at (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## Sums and maxima along an axis, in a kernel -/

section Reduce
variable {φ : FTy}

/-- The sum over the last axis of an [a, b, c] array reads, at (p, q), the sum over k of the array at (p, q, k). -/
theorem multiReduction_add_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over the middle axis of an [a, b, c] array reads, at (p, r), the sum over k of the array at (p, k, r). -/
theorem multiReduction_add_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over axis 1 of an [a, b] array reads, at p, the sum over k of the array at (p, k). -/
theorem multiReduction_add_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun e => Fin.ext ?_)
  match e with
  | ⟨0, _⟩ => rfl
  | ⟨1, _⟩ => rfl

/-- The maximum over the last axis of an [a, b, c] array reads, at (p, q), the maximum from the accumulator's value
    over k of the array at (p, q, k). -/
theorem multiReduction_max_last3 {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) (fun k => src (ix3 p q k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl
  | ⟨2, _⟩ => rfl

/-- The maximum over axis 1 of an [a, b] array reads, at p, the maximum from the accumulator's value over k of the
    array at (p, k). -/
theorem multiReduction_max_last2 {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl

end Reduce

/-! ## The same on the host -/

section HostReduce
variable {φ : FTy}

/-- The host's maximum over the last axis of an [a, b, c] array reads, at (p, q), the maximum from the initial value
    over k of the array at (p, q, k). -/
theorem hostReduceMax_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  show (Finset.univ : Finset (Fin c)).fold max (init (Shape.Idx.first hu)) (x ∘ h.lift (ix2 p q)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl
  | ⟨2, _⟩ => rfl

/-- The host's maximum over axis 1 of an [a, b] array reads, at p, the maximum from the initial value over k of the
    array at (p, k). -/
theorem hostReduceMax_last2 {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  show (Finset.univ : Finset (Fin b)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

end HostReduce

/-! ## Products with a shared leading batch axis -/

section BatchNT
variable {B M K N : ℕ} (d : DotDims ⟨3, ![B, M, K]⟩ ⟨3, ![B, N, K]⟩ ⟨3, ![B, M, N]⟩)

/-- The contracted shape has one axis. -/
theorem nt_contr_rank (hlc : d.lhsContracting = [2]) : d.contr.rank = 1 := by
  rw [d.rank_contr, hlc]; rfl

/-- The contracted shape's one axis has the operands' last extent. -/
theorem nt_contr_size (hlc : d.lhsContracting = [2]) :
    d.contr.size ⟨0, by rw [nt_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nt_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nt_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nt_lhsIdx_axis2 (hlc : d.lhsContracting = [2])
    (j : (⟨3, ![B, M, N]⟩ : Shape).Idx) (k : d.contr.Idx) :
    (d.lhsIdx j k 2).val = (k ⟨0, by rw [nt_contr_rank d hlc]; exact Nat.one_pos⟩).val :=
  d.lhsIdx_val_of_single hlc j k

/-- Right operand, axis 0 (batch): the output's batch coordinate. -/
theorem nt_rhsIdx_axis0 (hrb : d.rhsBatch = [0])
    (j : (⟨3, ![B, M, N]⟩ : Shape).Idx) (k : d.contr.Idx) : (d.rhsIdx j k 0).val = (j 0).val := by
  have hb : (0 : Fin (⟨3, ![B, N, K]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (kept): the output's column coordinate. -/
theorem nt_rhsIdx_axis1 (hln : d.lhsNonContracting = [1]) (hrn : d.rhsNonContracting = [1]) (hlb : d.lhsBatch = [0])
    (hrb : d.rhsBatch = [0]) (j : (⟨3, ![B, M, N]⟩ : Shape).Idx) (k : d.contr.Idx) : (d.rhsIdx j k 1).val = (j 2).val := by
  have hb : (1 : Fin (⟨3, ![B, N, K]⟩ : Shape).rank) ∉ d.rhsBatch := by
    rw [hrb]; intro h; exact Nat.one_ne_zero (congrArg Fin.val (List.mem_singleton.mp h))
  have hn : (1 : Fin (⟨3, ![B, N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- Right operand, axis 2 (contracted): the contraction position's one coordinate. -/
theorem nt_rhsIdx_axis2 (hlc : d.lhsContracting = [2]) (hrc : d.rhsContracting = [2])
    (j : (⟨3, ![B, M, N]⟩ : Shape).Idx) (k : d.contr.Idx) :
    (d.rhsIdx j k 2).val = (k ⟨0, by rw [nt_contr_rank d hlc]; exact Nat.one_pos⟩).val :=
  d.rhsIdx_val_of_single hrc j k

/-- lhs [B, M, K] against rhs [B, N, K], contracted over the last axis of both within each batch: the entry at
    (p, i, j) is the sum over k of lhs (p, i, k) * rhs (p, j, k). -/
theorem bmm_nt_zero_ix3 {φ₁ φ₂ : FTy} (hlc : d.lhsContracting = [2]) (hrc : d.rhsContracting = [2])
    (hln : d.lhsNonContracting = [1]) (hrn : d.rhsNonContracting = [1]) (hlb : d.lhsBatch = [0]) (hrb : d.rhsBatch = [0])
    (prec : Option ContractPrecision) (lhs : FVec Ideal ⟨3, ![B, M, K]⟩ φ₁) (rhs : FVec Ideal ⟨3, ![B, N, K]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p j k) := by
  rw [Ideal.matmul_constant_zero_apply]
  rw [← Equiv.sum_comp (contrEquiv1 d K (nt_contr_rank d hlc) (nt_contr_size d hlc)).symm]
  refine Finset.sum_congr rfl fun k _ => ?_
  have hk := contrEquiv1_symm_val d K (nt_contr_rank d hlc) (nt_contr_size d hlc) k
  have hl : d.lhsIdx (ix3 p i j) ((contrEquiv1 d K (nt_contr_rank d hlc) (nt_contr_size d hlc)).symm k) = ix3 p i k := by
    funext a
    refine Fin.ext ?_
    match a with
    | ⟨0, _⟩ => exact nt_lhsIdx_axis0 d hlb _ _
    | ⟨1, _⟩ => exact nt_lhsIdx_axis1 d hln hlb _ _
    | ⟨2, _⟩ => exact (nt_lhsIdx_axis2 d hlc _ _).trans hk
  have hr : d.rhsIdx (ix3 p i j) ((contrEquiv1 d K (nt_contr_rank d hlc) (nt_contr_size d hlc)).symm k) = ix3 p j k := by
    funext a
    refine Fin.ext ?_
    match a with
    | ⟨0, _⟩ => exact nt_rhsIdx_axis0 d hrb _ _
    | ⟨1, _⟩ => exact nt_rhsIdx_axis1 d hln hrn hlb hrb _ _
    | ⟨2, _⟩ => exact (nt_rhsIdx_axis2 d hlc hrc _ _).trans hk
  rw [hl, hr]

end BatchNT

section BatchNN
variable {B M K N : ℕ} (d : DotDims ⟨3, ![B, M, K]⟩ ⟨3, ![B, K, N]⟩ ⟨3, ![B, M, N]⟩)

/-- The contracted shape has one axis. -/
theorem nn_contr_rank (hlc : d.lhsContracting = [2]) : d.contr.rank = 1 := by
  rw [d.rank_contr, hlc]; rfl

/-- The contracted shape's one axis has the left operand's last extent. -/
theorem nn_contr_size (hlc : d.lhsContracting = [2]) :
    d.contr.size ⟨0, by rw [nn_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nn_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nn_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nn_lhsIdx_axis2 (hlc : d.lhsContracting = [2])
    (j : (⟨3, ![B, M, N]⟩ : Shape).Idx) (k : d.contr.Idx) :
    (d.lhsIdx j k 2).val = (k ⟨0, by rw [nn_contr_rank d hlc]; exact Nat.one_pos⟩).val :=
  d.lhsIdx_val_of_single hlc j k

/-- Right operand, axis 0 (batch): the output's batch coordinate. -/
theorem nn_rhsIdx_axis0 (hrb : d.rhsBatch = [0])
    (j : (⟨3, ![B, M, N]⟩ : Shape).Idx) (k : d.contr.Idx) : (d.rhsIdx j k 0).val = (j 0).val := by
  have hb : (0 : Fin (⟨3, ![B, K, N]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (contracted): the contraction position's one coordinate. -/
theorem nn_rhsIdx_axis1 (hlc : d.lhsContracting = [2]) (hrc : d.rhsContracting = [1])
    (j : (⟨3, ![B, M, N]⟩ : Shape).Idx) (k : d.contr.Idx) :
    (d.rhsIdx j k 1).val = (k ⟨0, by rw [nn_contr_rank d hlc]; exact Nat.one_pos⟩).val :=
  d.rhsIdx_val_of_single hrc j k

/-- Right operand, axis 2 (kept): the output's column coordinate. -/
theorem nn_rhsIdx_axis2 (hln : d.lhsNonContracting = [1]) (hrn : d.rhsNonContracting = [2]) (hlb : d.lhsBatch = [0])
    (hrb : d.rhsBatch = [0]) (j : (⟨3, ![B, M, N]⟩ : Shape).Idx) (k : d.contr.Idx) : (d.rhsIdx j k 2).val = (j 2).val := by
  have hb : (2 : Fin (⟨3, ![B, K, N]⟩ : Shape).rank) ∉ d.rhsBatch := by
    rw [hrb]; intro h; exact Nat.succ_ne_zero 1 (congrArg Fin.val (List.mem_singleton.mp h))
  have hn : (2 : Fin (⟨3, ![B, K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- lhs [B, M, K] against rhs [B, K, N], contracted over the last axis of the first and the middle axis of the
    second within each batch: the entry at (p, i, j) is the sum over k of lhs (p, i, k) * rhs (p, k, j). -/
theorem bmm_nn_zero_ix3 {φ₁ φ₂ : FTy} (hlc : d.lhsContracting = [2]) (hrc : d.rhsContracting = [1])
    (hln : d.lhsNonContracting = [1]) (hrn : d.rhsNonContracting = [2]) (hlb : d.lhsBatch = [0]) (hrb : d.rhsBatch = [0])
    (prec : Option ContractPrecision) (lhs : FVec Ideal ⟨3, ![B, M, K]⟩ φ₁) (rhs : FVec Ideal ⟨3, ![B, K, N]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p k j) := by
  rw [Ideal.matmul_constant_zero_apply]
  rw [← Equiv.sum_comp (contrEquiv1 d K (nn_contr_rank d hlc) (nn_contr_size d hlc)).symm]
  refine Finset.sum_congr rfl fun k _ => ?_
  have hk := contrEquiv1_symm_val d K (nn_contr_rank d hlc) (nn_contr_size d hlc) k
  have hl : d.lhsIdx (ix3 p i j) ((contrEquiv1 d K (nn_contr_rank d hlc) (nn_contr_size d hlc)).symm k) = ix3 p i k := by
    funext a
    refine Fin.ext ?_
    match a with
    | ⟨0, _⟩ => exact nn_lhsIdx_axis0 d hlb _ _
    | ⟨1, _⟩ => exact nn_lhsIdx_axis1 d hln hlb _ _
    | ⟨2, _⟩ => exact (nn_lhsIdx_axis2 d hlc _ _).trans hk
  have hr : d.rhsIdx (ix3 p i j) ((contrEquiv1 d K (nn_contr_rank d hlc) (nn_contr_size d hlc)).symm k) = ix3 p k j := by
    funext a
    refine Fin.ext ?_
    match a with
    | ⟨0, _⟩ => exact nn_rhsIdx_axis0 d hrb _ _
    | ⟨1, _⟩ => exact (nn_rhsIdx_axis1 d hlc hrc _ _).trans hk
    | ⟨2, _⟩ => exact nn_rhsIdx_axis2 d hln hrn hlb hrb _ _
  rw [hl, hr]

end BatchNN

end Cert.LibBatch

end
-- ==== Proof.PayRows.lean ====
/-
  The body's arithmetic, one row at a time, on the extended reals.

  The body works on a block X of 1024 rows of hidden vectors and a block Wt of 640 rows of weights. Row p of the
  block's logits is  z_q = sum_k X[p,k] * Wt[q,k]  for the 640 columns q (`blkLogit`), and `blkMax` is their
  maximum from minus infinity. Each stored value of the body, read at row p, is a formula in these:
  the new running maximum is max (old maximum) (block maximum); the rescaling factor is exp (old maximum - new
  maximum); the block's contribution to the sum of exponentials is the sum over q of exp (z_q - new maximum); the
  selected logit gains the sum over q of z_q where column 640 * j + q is the selected column (j the block's position
  along the vocabulary axis) and 0 elsewhere; the two results are  sel - (maximum + log sum).
-/
import proofs.«407823_j13554916786396_3_alg».proof.Proof.Gen.KernelIdeal.Skeleton
import proofs.«407823_j13554916786396_3_alg».proof.Proof.LibRow
import proofs.«407823_j13554916786396_3_alg».proof.Proof.LibBatch
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayRows

open Idealize.ShloMosaic Idealize.ShloMosaic.ValueIdx Cert.KernelIdeal Cert.KernelIdeal.Gen

/-- The logit of row p of the block X against row q of the block Wt. -/
def blkLogit (X : FVec Ideal S1024x2048 .bf16) (Wt : FVec Ideal S640x2048 .bf16) (p : Fin 1024) (q : Fin 640) : EReal :=
  ∑ k : Fin 2048, X (ix2 p k) * Wt (ix2 q k)

/-- The maximum of row p's 640 logits, from minus infinity. -/
def blkMax (X : FVec Ideal S1024x2048 .bf16) (Wt : FVec Ideal S640x2048 .bf16) (p : Fin 1024) : EReal :=
  (Finset.univ : Finset (Fin 640)).fold max ⊥ (fun q => blkLogit X Wt p q)

/-- A cast of an array to its own shape reads, at an index, the array there. -/
private theorem cast_self_apply {s : Shape} {α : Type} (v : s.Idx → α) (h : s.ShapeCasts s) (i : s.Idx) :
    shapeCast s v h i = v i :=
  congrFun (shapeCast_self v h) i

/-- The word with the sign bit and all eight exponent bits set and a zero fraction is minus infinity. -/
private theorem word_neg_inf : Ideal.ofBits .f32 0xFF800000#32 = ⊥ := by
  simp [Ideal.ofBits, Ideal.ieee]

/-- A word compare for equality gives the bit 1 exactly when the two words are equal. -/
private theorem cmpi_eq_one_iff {w : ℕ} (a b : BitVec w) : IntOp.cmpi .eq a b = 1#1 ↔ a = b := by
  show BitVec.ofBool (a == b) = 1#1 ↔ a = b
  cases hb : (a == b) with
  | true => exact ⟨fun _ => eq_of_beq hb, fun _ => by decide⟩
  | false => exact ⟨fun h => absurd h (by decide), fun h => absurd h (ne_of_beq_false hb)⟩

/-- With j < 50, q < 640 and n < 32000 both sides of the word equation j * 640 + q = n are below 2^32, so it is the
    equation 640 * j + q = n of naturals. -/
private theorem word_eq_iff (j q n : ℕ) (hj : j < 50) (hq : q < 640) (hn : n < 32000) :
    BitVec.ofNat 32 j * 640#32 + BitVec.ofNat 32 q = BitVec.ofNat 32 n ↔ 640 * j + q = n := by
  constructor
  · intro h
    have h' := congrArg BitVec.toNat h
    simp only [BitVec.toNat_add, BitVec.toNat_mul, BitVec.toNat_ofNat, Nat.reducePow, Nat.reduceMod] at h'
    omega
  · intro h
    subst h
    apply BitVec.eq_of_toNat_eq
    simp only [BitVec.toNat_add, BitVec.toNat_mul, BitVec.toNat_ofNat, Nat.reducePow, Nat.reduceMod]
    omega

/-- The selection mask at (p, q): its bit is 1 exactly when column 640 * j + q is row p's selected column n. -/
private theorem mask_iff (i : grid0.Coords) (ids : IVec S1024x1 32) (p : Fin 1024) (q : Fin 640) (j n : ℕ)
    (hj : (i 1).val = j) (hj50 : j < 50) (hn : n < 32000) (hid : ids (ix2 p (0 : Fin 1)) = BitVec.ofNat 32 n) :
    k0_pay11 (F := Ideal) i ids (ix2 p q) = 1#1 ↔ 640 * j + q.val = n := by
  subst hj
  have e1 : iota .tc S1024x640 32 [1] iota_S1024x640_d1_w32 (ix2 p q) = BitVec.ofNat 32 q.val :=
    iota_single_apply .tc S1024x640 32 1 iota_S1024x640_d1_w32 (ix2 p q)
  have e2 : broadcastTo S1024x640 (shapeCast S1024x1 ids shapeCasts_S1024x1_S1024x1) broadcasts_S1024x1_S1024x640 (ix2 p q)
      = BitVec.ofNat 32 n :=
    (Cert.LibRow.broadcastTo_col_apply _ _ p q).trans ((cast_self_apply ids _ _).trans hid)
  unfold k0_pay11
  show IntOp.cmpi .eq
      (BitVec.ofNat 32 (i 1).val * 640#32 + iota .tc S1024x640 32 [1] iota_S1024x640_d1_w32 (ix2 p q))
      (broadcastTo S1024x640 (shapeCast S1024x1 ids shapeCasts_S1024x1_S1024x1) broadcasts_S1024x1_S1024x640 (ix2 p q))
      = 1#1 ↔ _
  rw [e1, e2, cmpi_eq_one_iff]
  exact word_eq_iff (i 1).val q.val n hj50 q.isLt hn

variable (X : FVec Ideal S1024x2048 .bf16) (Wt : FVec Ideal S640x2048 .bf16)

/-- The two matrix products: entry (p, q) is the logit. -/
theorem pay12_apply (p : Fin 1024) (q : Fin 640) : k0_pay12 (F := Ideal) X Wt (ix2 p q) = blkLogit X Wt p q := by
  unfold k0_pay12 blkLogit
  show FloatOps.matmul dot_S1024x2048_S640x2048_S1024x640_1_1_0_0_n_n none (shapeCast S1024x2048 X _)
      (shapeCast S640x2048 Wt _) (constant S1024x640 .f32 0x00000000#32) (ix2 p q) = _
  rw [shapeCast_self X, shapeCast_self Wt]
  exact Cert.LibRow.matmul_nt_zero_ix2 dot_S1024x2048_S640x2048_S1024x640_1_1_0_0_n_n rfl rfl rfl rfl rfl rfl none X Wt p q

theorem pay19_apply (p : Fin 1024) (q : Fin 640) : k0_pay19 (F := Ideal) X Wt (ix2 p q) = blkLogit X Wt p q := by
  unfold k0_pay19 blkLogit
  show FloatOps.matmul dot_S1024x2048_S640x2048_S1024x640_1_1_0_0_n_n none (shapeCast S1024x2048 X _)
      (shapeCast S640x2048 Wt _) (constant S1024x640 .f32 0x00000000#32) (ix2 p q) = _
  rw [shapeCast_self X, shapeCast_self Wt]
  exact Cert.LibRow.matmul_nt_zero_ix2 dot_S1024x2048_S640x2048_S1024x640_1_1_0_0_n_n rfl rfl rfl rfl rfl rfl none X Wt p q

/-- The new running maximum. -/
theorem pay14_row (s : FVec Ideal S1024x1 .f32) (p : Fin 1024) :
    k0_pay14 (F := Ideal) X Wt s (ix2 p (0 : Fin 1)) = max (s (ix2 p (0 : Fin 1))) (blkMax X Wt p) := by
  unfold k0_pay14
  refine (maximumf_apply _ _ _).trans ?_
  refine congrArg (max (s (ix2 p (0 : Fin 1)))) ?_
  refine (Cert.LibBatch.shapeCast_a_a1_apply _ _ p (0 : Fin 1)).trans ?_
  refine (Cert.LibBatch.multiReduction_max_last2 _ _ _ _ _ p).trans ?_
  exact congrArg₂ (fun b f => Finset.fold max b f Finset.univ) word_neg_inf (funext fun q => pay12_apply X Wt p q)

theorem pay21_row (s : FVec Ideal S1024x1 .f32) (p : Fin 1024) :
    k0_pay21 (F := Ideal) X Wt s (ix2 p (0 : Fin 1)) = max (s (ix2 p (0 : Fin 1))) (blkMax X Wt p) := by
  unfold k0_pay21
  refine (maximumf_apply _ _ _).trans ?_
  refine congrArg (max (s (ix2 p (0 : Fin 1)))) ?_
  refine (Cert.LibBatch.shapeCast_a_a1_apply _ _ p (0 : Fin 1)).trans ?_
  refine (Cert.LibBatch.multiReduction_max_last2 _ _ _ _ _ p).trans ?_
  exact congrArg₂ (fun b f => Finset.fold max b f Finset.univ) word_neg_inf (funext fun q => pay19_apply X Wt p q)

/-- A cast of a column to its own shape changes nothing. -/
theorem pay18_row (v : FVec Ideal S1024x1 .f32) (p : Fin 1024) :
    k0_pay18 (F := Ideal) v (ix2 p (0 : Fin 1)) = v (ix2 p (0 : Fin 1)) := by
  unfold k0_pay18
  exact cast_self_apply v _ _

theorem pay2_row (v : FVec Ideal S1024x1 .f32) (p : Fin 1024) :
    k0_pay2 (F := Ideal) v (ix2 p (0 : Fin 1)) = v (ix2 p (0 : Fin 1)) := by
  unfold k0_pay2
  exact cast_self_apply v _ _

/-- The rescaling factor exp (old maximum - new maximum). -/
theorem pay15_row (s s' : FVec Ideal S1024x1 .f32) (p : Fin 1024) :
    k0_pay15 (F := Ideal) X Wt s s' (ix2 p (0 : Fin 1))
      = Ideal.exp (s' (ix2 p (0 : Fin 1)) - max (s (ix2 p (0 : Fin 1))) (blkMax X Wt p)) := by
  unfold k0_pay15
  exact congrArg (fun t => Ideal.exp (s' (ix2 p (0 : Fin 1)) - t)) (pay14_row X Wt s p)

theorem pay22_row (s s' : FVec Ideal S1024x1 .f32) (p : Fin 1024) :
    k0_pay22 (F := Ideal) X Wt s s' (ix2 p (0 : Fin 1))
      = Ideal.exp (s' (ix2 p (0 : Fin 1)) - max (s (ix2 p (0 : Fin 1))) (blkMax X Wt p)) := by
  unfold k0_pay22
  exact congrArg (fun t => Ideal.exp (s' (ix2 p (0 : Fin 1)) - t)) (pay21_row X Wt s p)

/-- The block's exponentials, shifted by the new maximum (for the second model the exponential is applied by the
    payload that sums them). -/
theorem pay16_apply (s : FVec Ideal S1024x1 .f32) (p : Fin 1024) (q : Fin 640) :
    k0_pay16 (F := Ideal) X Wt s (ix2 p q)
      = Ideal.exp (blkLogit X Wt p q - max (s (ix2 p (0 : Fin 1))) (blkMax X Wt p)) := by
  unfold k0_pay16
  exact congrArg₂ (fun a b => Ideal.exp (a - b)) (pay12_apply X Wt p q)
    ((Cert.LibRow.broadcastTo_col_apply (k0_pay14 (F := Ideal) X Wt s) _ p q).trans (pay14_row X Wt s p))

theorem pay23_apply (s : FVec Ideal S1024x1 .f32) (p : Fin 1024) (q : Fin 640) :
    k0_pay23 (F := Ideal) X Wt s (ix2 p q)
      = blkLogit X Wt p q - max (s (ix2 p (0 : Fin 1))) (blkMax X Wt p) := by
  unfold k0_pay23
  exact congrArg₂ (fun a b => a - b) (pay19_apply X Wt p q)
    ((Cert.LibRow.broadcastTo_col_apply (k0_pay21 (F := Ideal) X Wt s) _ p q).trans (pay21_row X Wt s p))

/-- The new sum of exponentials: the old one rescaled plus the block's. -/
theorem pay17_row (a : FVec Ideal S1024x1 .f32) (e : FVec Ideal S1024x640 .f32) (l : FVec Ideal S1024x1 .f32) (p : Fin 1024) :
    k0_pay17 (F := Ideal) a e l (ix2 p (0 : Fin 1))
      = a (ix2 p (0 : Fin 1)) * l (ix2 p (0 : Fin 1)) + ∑ q : Fin 640, e (ix2 p q) := by
  unfold k0_pay17
  refine (cast_self_apply _ _ _).trans ?_
  refine (addf_apply _ _ _).trans ?_
  exact congrArg₂ (fun x y => x + y) (mulf_apply a l _) (Cert.LibRow.rowsum_col_apply e _ _ _ _ _ p (0 : Fin 1))

theorem pay1_row (a : FVec Ideal S1024x1 .f32) (e : FVec Ideal S1024x640 .f32) (l : FVec Ideal S1024x1 .f32) (p : Fin 1024) :
    k0_pay1 (F := Ideal) a e l (ix2 p (0 : Fin 1))
      = a (ix2 p (0 : Fin 1)) * l (ix2 p (0 : Fin 1)) + ∑ q : Fin 640, Ideal.exp (e (ix2 p q)) := by
  unfold k0_pay1
  refine (cast_self_apply _ _ _).trans ?_
  refine (addf_apply _ _ _).trans ?_
  exact congrArg₂ (fun x y => x + y) (mulf_apply a l _)
    (Cert.LibRow.rowsum_col_apply (exp e : FVec Ideal S1024x640 .f32) _ _ _ _ _ p (0 : Fin 1))

/-- The masked entries of row p summed: column q keeps its logit where 640 * j + q is the selected column n and is 0
    elsewhere. -/
private theorem sel_sum (i : grid0.Coords) (ids : IVec S1024x1 32) (p : Fin 1024) (j n : ℕ)
    (hj : (i 1).val = j) (hj50 : j < 50) (hn : n < 32000) (hid : ids (ix2 p (0 : Fin 1)) = BitVec.ofNat 32 n)
    (L : FVec Ideal S1024x640 .f32) (hL : ∀ q : Fin 640, L (ix2 p q) = blkLogit X Wt p q) :
    ∑ q : Fin 640, select (k0_pay11 (F := Ideal) i ids) L
        (broadcast S1024x640 (FloatOps.ofBits (F := Ideal) .f32 0x00000000#32)) (ix2 p q)
      = ∑ q : Fin 640, (if 640 * j + q.val = n then blkLogit X Wt p q else 0) := by
  refine Finset.sum_congr rfl fun q _ => ?_
  show (if k0_pay11 (F := Ideal) i ids (ix2 p q) = 1#1 then L (ix2 p q) else Ideal.ofBits .f32 0x00000000#32) = _
  exact if_congr (mask_iff i ids p q j n hj hj50 hn hid) (hL q) Ideal.ofBits_zero_f32

/-- The selected logit: the block at vocabulary position j adds the logit of column q where 640 * j + q is the row's
    selected column n (a 32-bit word holding a number below 32000), and 0 elsewhere. -/
theorem pay13_row (i : grid0.Coords) (ids : IVec S1024x1 32) (s : FVec Ideal S1024x1 .f32) (p : Fin 1024)
    (j n : ℕ) (hj : (i 1).val = j) (hj50 : j < 50) (hn : n < 32000) (hid : ids (ix2 p (0 : Fin 1)) = BitVec.ofNat 32 n) :
    k0_pay13 (F := Ideal) i ids X Wt s (ix2 p (0 : Fin 1))
      = s (ix2 p (0 : Fin 1)) + ∑ q : Fin 640, (if 640 * j + q.val = n then blkLogit X Wt p q else 0) := by
  unfold k0_pay13
  refine (cast_self_apply _ _ _).trans ?_
  refine (addf_apply _ _ _).trans ?_
  refine congrArg (fun t => s (ix2 p (0 : Fin 1)) + t) ?_
  refine (Cert.LibRow.rowsum_col_apply _ _ _ _ _ _ p (0 : Fin 1)).trans ?_
  exact sel_sum X Wt i ids p j n hj hj50 hn hid (k0_pay12 (F := Ideal) X Wt) (pay12_apply X Wt p)

theorem pay20_row (i : grid0.Coords) (ids : IVec S1024x1 32) (s : FVec Ideal S1024x1 .f32) (p : Fin 1024)
    (j n : ℕ) (hj : (i 1).val = j) (hj50 : j < 50) (hn : n < 32000) (hid : ids (ix2 p (0 : Fin 1)) = BitVec.ofNat 32 n) :
    k0_pay20 (F := Ideal) (k0_pay11 (F := Ideal) i ids) X Wt s (ix2 p (0 : Fin 1))
      = s (ix2 p (0 : Fin 1)) + ∑ q : Fin 640, (if 640 * j + q.val = n then blkLogit X Wt p q else 0) := by
  unfold k0_pay20
  refine (cast_self_apply _ _ _).trans ?_
  refine (addf_apply _ _ _).trans ?_
  refine congrArg (fun t => s (ix2 p (0 : Fin 1)) + t) ?_
  refine (Cert.LibRow.rowsum_col_apply _ _ _ _ _ _ p (0 : Fin 1)).trans ?_
  exact sel_sum X Wt i ids p j n hj hj50 hn hid (k0_pay19 (F := Ideal) X Wt) (pay19_apply X Wt p)

/-- The two results: selected logit minus (maximum plus log of the sum). -/
theorem pay3_row (a b c : FVec Ideal S1024x1 .f32) (p : Fin 1024) :
    k0_pay3 (F := Ideal) a b c (ix2 p (0 : Fin 1))
      = a (ix2 p (0 : Fin 1)) - (b (ix2 p (0 : Fin 1)) + Ideal.log (c (ix2 p (0 : Fin 1)))) := by
  unfold k0_pay3
  rfl

theorem pay4_row (a b c : FVec Ideal S1024x1 .f32) (p : Fin 1024) :
    k0_pay4 (F := Ideal) a b c (ix2 p (0 : Fin 1))
      = a (ix2 p (0 : Fin 1)) - (b (ix2 p (0 : Fin 1)) + Ideal.log (c (ix2 p (0 : Fin 1)))) := by
  unfold k0_pay4
  rfl

/-- The resets at a row tile's first block: minus infinity for the two maxima, 0 for the sums and selected logits. -/
theorem pay5_row (p : Fin 1024) : k0_pay5 (F := Ideal) (ix2 p (0 : Fin 1)) = ⊥ := by
  unfold k0_pay5
  refine (cast_self_apply _ _ _).trans ?_
  exact word_neg_inf
theorem pay8_row (p : Fin 1024) : k0_pay8 (F := Ideal) (ix2 p (0 : Fin 1)) = ⊥ := by
  unfold k0_pay8
  refine (cast_self_apply _ _ _).trans ?_
  exact word_neg_inf
theorem pay6_row (p : Fin 1024) : k0_pay6 (F := Ideal) (ix2 p (0 : Fin 1)) = 0 := by
  unfold k0_pay6
  refine (cast_self_apply _ _ _).trans ?_
  exact Ideal.ofBits_zero_f32
theorem pay7_row (p : Fin 1024) : k0_pay7 (F := Ideal) (ix2 p (0 : Fin 1)) = 0 := by
  unfold k0_pay7
  refine (cast_self_apply _ _ _).trans ?_
  exact Ideal.ofBits_zero_f32
theorem pay9_row (p : Fin 1024) : k0_pay9 (F := Ideal) (ix2 p (0 : Fin 1)) = 0 := by
  unfold k0_pay9
  refine (cast_self_apply _ _ _).trans ?_
  exact Ideal.ofBits_zero_f32
theorem pay10_row (p : Fin 1024) : k0_pay10 (F := Ideal) (ix2 p (0 : Fin 1)) = 0 := by
  unfold k0_pay10
  refine (cast_self_apply _ _ _).trans ?_
  exact Ideal.ofBits_zero_f32

end Cert.KernelIdeal.PayRows

end
-- ==== Proof.Spec.lean ====
/-
  The mathematics of one row, with no program in sight.

  A row of logits z_0, z_1, … is swept in tiles of T columns. The sweep keeps three numbers:
  the maximum M of the columns seen so far (starting from minus infinity), the sum L of exp (z_v - M) over them
  (starting from 0), and the sum S of the logits at the one selected column (starting from 0). A tile moves them to
      M' = max M (the tile's maximum),   L' = exp (M - M') * L + (the tile's sum of exp (z_v - M')),
      S' = S + (the tile's logits where the column is the selected one, 0 elsewhere).
  After n columns these are the maximum, the sum of exponentials shifted by that maximum, and the selected logit of
  the first n columns (`pmax`, `pexp`, `psel`): `step_max`, `step_exp`, `step_sel`. The rescaling law
  exp (M - M') * exp (z - M) = exp (z - M') is a law of the reals, so the logits must be real numbers; at the
  first tile M is minus infinity, exp of it is 0, and L is 0.

  At the end  S - (M + log L) = (z_id - M) - log L  (real subtraction is associative; L >= 1 since the maximum is
  attained, so log L is a real number): `closing`, and in the form of a log-softmax of the whole row read at
  the selected column: `closing_logSoftmax`.
-/
import Idealize.ShloMosaic.PureOps.Ideal
import Idealize.ShloMosaic.PureOps.Ideal.Laws
import Mathlib.Algebra.BigOperators.Fin
import Mathlib.Algebra.BigOperators.Intervals
import Mathlib.Data.Finset.Fold
import Mathlib.Data.Finset.Lattice.Fold
import Mathlib.Data.EReal.Operations
import Mathlib.Analysis.SpecialFunctions.Log.Basic

noncomputable section

open scoped BigOperators

namespace Cert.Spec

open Idealize.ShloMosaic

/-- The maximum of the first n logits, from minus infinity. -/
def pmax (z : ℕ → EReal) (n : ℕ) : EReal := (Finset.range n).fold max ⊥ z

/-- The sum over the first n logits of exp (z v - M). -/
def pexp (z : ℕ → EReal) (M : EReal) (n : ℕ) : EReal := ∑ v ∈ Finset.range n, Ideal.exp (z v - M)

/-- The sum over the first n columns of the logit at the selected column (0 at the others). -/
def psel (z : ℕ → EReal) (id : ℕ) (n : ℕ) : EReal := ∑ v ∈ Finset.range n, if v = id then z v else 0

/-- The maximum of a whole row of n logits, from minus infinity. -/
def rowMax {n : ℕ} (l : Fin n → EReal) : EReal := (Finset.univ : Finset (Fin n)).fold max ⊥ l

/-- The log-softmax of a row at column c, as a host computes it: shift by the maximum, then subtract the log of the
    sum of exponentials of the shifted row. -/
def logSoftmax {n : ℕ} (l : Fin n → EReal) (c : Fin n) : EReal :=
  (l c - rowMax l) - Ideal.log (∑ c' : Fin n, Ideal.exp (l c' - rowMax l))

/-- The inclusion of the reals in the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family of reals is one of them. -/
private theorem pmax_real (r : ℕ → ℝ) (n : ℕ) (hn : 0 < n) :
    ∃ i, i < n ∧ pmax (fun v => (r v : EReal)) n = (r i : EReal) := by
  obtain ⟨i, hi, h⟩ := Finset.exists_mem_eq_sup (Finset.range n)
    (Finset.nonempty_range_iff.2 hn.ne') (fun v => (r v : EReal))
  exact ⟨i, Finset.mem_range.1 hi, h⟩

/-- For real x and a and any extended real y, x - (a + y) = (x - a) - y. -/
private theorem sub_add_eq (x a : ℝ) (y : EReal) :
    (x : EReal) - ((a : EReal) + y) = ((x : EReal) - (a : EReal)) - y := by
  induction y using EReal.rec with
  | bot => rw [← EReal.coe_sub, EReal.coe_sub_bot]; simp
  | coe y => norm_cast; ring
  | top => simp

theorem pmax_zero (z : ℕ → EReal) : pmax z 0 = ⊥ := by
  simp [pmax]

theorem pexp_zero (z : ℕ → EReal) (M : EReal) : pexp z M 0 = 0 := by
  simp [pexp]

theorem psel_zero (z : ℕ → EReal) (id : ℕ) : psel z id 0 = 0 := by
  simp [psel]

/-- A tile of T columns after the first n: the new maximum. -/
theorem step_max (z : ℕ → EReal) (n T : ℕ) :
    max (pmax z n) ((Finset.univ : Finset (Fin T)).fold max ⊥ (fun q => z (n + q.val))) = pmax z (n + T) := by
  -- the fold of max from minus infinity is the supremum of the finite family; both sides are compared termwise
  change max ((Finset.range n).sup z) ((Finset.univ : Finset (Fin T)).sup (fun q => z (n + q.val)))
    = (Finset.range (n + T)).sup z
  apply le_antisymm
  · apply max_le
    · exact Finset.sup_mono (Finset.range_subset_range.2 (Nat.le_add_right n T))
    · exact Finset.sup_le fun q _ => Finset.le_sup (Finset.mem_range.2 (Nat.add_lt_add_left q.isLt n))
  · refine Finset.sup_le fun v hv => ?_
    rcases lt_or_ge v n with h | h
    · exact le_max_of_le_left (Finset.le_sup (Finset.mem_range.2 h))
    · have hv' : v - n < T := by have := Finset.mem_range.1 hv; omega
      have e : z v = (fun q : Fin T => z (n + q.val)) ⟨v - n, hv'⟩ := by
        show z v = z (n + (v - n)); congr 1; omega
      rw [e]
      exact le_max_of_le_right
        (Finset.le_sup (f := fun q : Fin T => z (n + q.val)) (Finset.mem_univ (⟨v - n, hv'⟩ : Fin T)))

/-- A tile of T columns after the first n: the selected logit. -/
theorem step_sel (z : ℕ → EReal) (id n T : ℕ) :
    psel z id n + ∑ q : Fin T, (if n + q.val = id then z (n + q.val) else 0) = psel z id (n + T) := by
  unfold psel
  rw [Finset.sum_range_add]
  congr 1
  exact (Finset.sum_range (fun x => if n + x = id then z (n + x) else 0)).symm

/-- A tile of T columns after the first n: the sum of exponentials, rescaled to the new maximum. The logits are real
    numbers; at n = 0 the old maximum is minus infinity and the old sum is 0. -/
theorem step_exp (z : ℕ → EReal) (hz : ∀ v, ∃ r : ℝ, z v = (r : EReal)) (n T : ℕ) (hT : 0 < T) :
    Ideal.exp (pmax z n - pmax z (n + T)) * pexp z (pmax z n) n
        + ∑ q : Fin T, Ideal.exp (z (n + q.val) - pmax z (n + T))
      = pexp z (pmax z (n + T)) (n + T) := by
  choose r hr using hz
  obtain rfl : z = fun v => (r v : EReal) := funext hr
  rcases Nat.eq_zero_or_pos n with rfl | hn
  · -- no column seen yet: the old sum is 0, so only the tile's sum remains
    simp only [zero_add, pmax_zero, pexp_zero, mul_zero]
    exact (Finset.sum_range (fun v => Ideal.exp ((r v : EReal) - pmax (fun v => (r v : EReal)) T))).symm
  · -- both maxima are real numbers; exp (M - M') * exp (z - M) = exp (z - M') in the reals
    obtain ⟨i, -, ha⟩ := pmax_real r n hn
    obtain ⟨j, -, hb⟩ := pmax_real r (n + T) (by omega)
    rw [ha, hb]
    unfold pexp
    simp only [← EReal.coe_sub, Ideal.exp_coe]
    have h1 : (Real.exp (r i - r j) : EReal) * ∑ v ∈ Finset.range n, (Real.exp (r v - r i) : EReal)
        = ∑ v ∈ Finset.range n, (Real.exp (r v - r j) : EReal) := by
      rw [← coe_sum, ← coe_sum, ← EReal.coe_mul, Finset.mul_sum]
      congr 1
      refine Finset.sum_congr rfl fun v _ => ?_
      rw [← Real.exp_add]; congr 1; ring
    rw [h1, Finset.sum_range_add]
    congr 1
    exact (Finset.sum_range (fun x => (Real.exp (r (n + x) - r j) : EReal))).symm

/-- The selected logit of a whole row whose selected column is inside it. -/
theorem psel_full (z : ℕ → EReal) (id N : ℕ) (hid : id < N) : psel z id N = z id := by
  unfold psel
  rw [Finset.sum_ite_eq' (Finset.range N) id z]
  exact if_pos (Finset.mem_range.2 hid)

/-- What the sweep ends with is the shifted logit minus the log of the sum. -/
theorem closing (z : ℕ → EReal) (hz : ∀ v, ∃ r : ℝ, z v = (r : EReal)) (id N : ℕ) (hid : id < N) :
    psel z id N - (pmax z N + Ideal.log (pexp z (pmax z N) N))
      = (z id - pmax z N) - Ideal.log (pexp z (pmax z N) N) := by
  choose r hr using hz
  obtain rfl : z = fun v => (r v : EReal) := funext hr
  obtain ⟨i, -, ha⟩ := pmax_real r N (by omega)
  rw [psel_full _ id N hid, ha]
  exact sub_add_eq (r id) (r i) _

/-- The same, as the log-softmax of the row of the first N logits read at the selected column. -/
theorem closing_logSoftmax (z : ℕ → EReal) (hz : ∀ v, ∃ r : ℝ, z v = (r : EReal)) (id N : ℕ) (hid : id < N) :
    psel z id N - (pmax z N + Ideal.log (pexp z (pmax z N) N))
      = logSoftmax (fun v : Fin N => z v.val) ⟨id, hid⟩ := by
  rw [closing z hz id N hid]
  -- the maximum over the row indexed by Fin N is the maximum over the first N columns
  have hM : rowMax (fun v : Fin N => z v.val) = pmax z N := by
    change (Finset.univ : Finset (Fin N)).sup (fun v => z v.val) = (Finset.range N).sup z
    apply le_antisymm
    · exact Finset.sup_le fun v _ => Finset.le_sup (Finset.mem_range.2 v.isLt)
    · exact Finset.sup_le fun v hv =>
        Finset.le_sup (f := fun q : Fin N => z q.val) (Finset.mem_univ ⟨v, Finset.mem_range.1 hv⟩)
  unfold logSoftmax
  rw [hM]
  unfold pexp
  rw [Finset.sum_range]

end Cert.Spec

end
-- ==== Proof.RowStep.lean ====
/-
  One block of the vocabulary, at one row: the accumulators move from the first 640 * j columns of the row's logits
  to the first 640 * (j + 1), and at the end the result is the row's log-softmax at the selected column.

  Here z is the row's whole line of logits (real numbers), the block at vocabulary position j holds columns
  640 * j … 640 * j + 639 of it, and n is the row's selected column. The statements join the body's stored values
  read at a row (the block's logits, maximum, exponentials and selected logit) with the sweep's three recurrences.
-/
import proofs.«407823_j13554916786396_3_alg».proof.Proof.Steps
import proofs.«407823_j13554916786396_3_alg».proof.Proof.PayRows
import proofs.«407823_j13554916786396_3_alg».proof.Proof.Spec

noncomputable section

open scoped BigOperators

namespace Cert.KernelIdeal.RowStep

open Idealize.ShloMosaic Idealize.ShloMosaic.ValueIdx Cert.KernelIdeal Cert.KernelIdeal.Gen
open Cert.KernelIdeal.Steps Cert.KernelIdeal.PayRows Cert.Spec

/-- The accumulators as the resets leave them are the sweep's values before any column. -/
theorem reset_row (z : ℕ → EReal) (n : ℕ) (p : Fin 1024) :
    k0_pay5 (F := Ideal) (ix2 p (0 : Fin 1)) = pmax z 0
    ∧ k0_pay6 (F := Ideal) (ix2 p (0 : Fin 1)) = pexp z (pmax z 0) 0
    ∧ k0_pay7 (F := Ideal) (ix2 p (0 : Fin 1)) = psel z n 0
    ∧ k0_pay8 (F := Ideal) (ix2 p (0 : Fin 1)) = pmax z 0
    ∧ k0_pay9 (F := Ideal) (ix2 p (0 : Fin 1)) = pexp z (pmax z 0) 0
    ∧ k0_pay10 (F := Ideal) (ix2 p (0 : Fin 1)) = psel z n 0 := by
  exact ⟨(pay5_row p).trans (pmax_zero z).symm, (pay6_row p).trans (pexp_zero z _).symm,
    (pay7_row p).trans (psel_zero z n).symm, (pay8_row p).trans (pmax_zero z).symm,
    (pay9_row p).trans (pexp_zero z _).symm, (pay10_row p).trans (psel_zero z n).symm⟩

/-- The first model's three accumulators after the block at vocabulary position j. -/
theorem step_row (X : FVec Ideal S1024x2048 .bf16) (Wt : FVec Ideal S640x2048 .bf16) (ids : IVec S1024x1 32)
    (i : grid0.Coords) (z : ℕ → EReal) (hz : ∀ v, ∃ r : ℝ, z v = (r : EReal)) (p : Fin 1024) (j n : ℕ)
    (hj : (i 1).val = j) (hj50 : j < 50) (hn : n < 32000)
    (hid : ids (ix2 p (0 : Fin 1)) = BitVec.ofNat 32 n)
    (hblk : ∀ q : Fin 640, blkLogit X Wt p q = z (640 * j + q.val))
    (s0 s1 s2 : FVec Ideal S1024x1 .f32)
    (h0 : s0 (ix2 p (0 : Fin 1)) = pmax z (640 * j))
    (h1 : s1 (ix2 p (0 : Fin 1)) = pexp z (pmax z (640 * j)) (640 * j))
    (h2 : s2 (ix2 p (0 : Fin 1)) = psel z n (640 * j)) :
    stepM (F := Ideal) X Wt s0 (ix2 p (0 : Fin 1)) = pmax z (640 * (j + 1))
    ∧ stepL (F := Ideal) X Wt s0 s1 (ix2 p (0 : Fin 1)) = pexp z (pmax z (640 * (j + 1))) (640 * (j + 1))
    ∧ stepS (F := Ideal) i ids X Wt s2 (ix2 p (0 : Fin 1)) = psel z n (640 * (j + 1)) := by
  have e640 : 640 * (j + 1) = 640 * j + 640 := by ring
  -- the block's maximum is the maximum of the tile's 640 logits of z
  have hbm : blkMax X Wt p = (Finset.univ : Finset (Fin 640)).fold max ⊥ (fun q => z (640 * j + q.val)) := by
    unfold blkMax
    exact congrArg (fun f : Fin 640 → EReal => (Finset.univ : Finset (Fin 640)).fold max ⊥ f) (funext hblk)
  -- the new maximum is the maximum of the first 640 * (j + 1) columns
  have hM : max (s0 (ix2 p (0 : Fin 1))) (blkMax X Wt p) = pmax z (640 * (j + 1)) := by
    rw [h0, hbm, e640]
    exact step_max z (640 * j) 640
  refine ⟨?_, ?_, ?_⟩
  · show k0_pay18 (F := Ideal) (k0_pay14 (F := Ideal) X Wt s0) (ix2 p (0 : Fin 1)) = _
    rw [pay18_row, pay14_row, hM]
  · show k0_pay17 (F := Ideal) (k0_pay15 (F := Ideal) X Wt s0 s0) (k0_pay16 (F := Ideal) X Wt s0) s1
      (ix2 p (0 : Fin 1)) = _
    rw [pay17_row, pay15_row, h1]
    simp only [pay16_apply]
    rw [hM, h0]
    simp only [hblk]
    rw [e640]
    exact step_exp z hz (640 * j) 640 (by norm_num)
  · show k0_pay13 (F := Ideal) i ids X Wt s2 (ix2 p (0 : Fin 1)) = _
    rw [pay13_row X Wt i ids s2 p j n hj hj50 hn hid, h2]
    simp only [hblk]
    rw [e640]
    exact step_sel z n (640 * j) 640

/-- The second model's three accumulators after the block at vocabulary position j. -/
theorem step_row' (X : FVec Ideal S1024x2048 .bf16) (Wt : FVec Ideal S640x2048 .bf16) (ids : IVec S1024x1 32)
    (i : grid0.Coords) (z : ℕ → EReal) (hz : ∀ v, ∃ r : ℝ, z v = (r : EReal)) (p : Fin 1024) (j n : ℕ)
    (hj : (i 1).val = j) (hj50 : j < 50) (hn : n < 32000)
    (hid : ids (ix2 p (0 : Fin 1)) = BitVec.ofNat 32 n)
    (hblk : ∀ q : Fin 640, blkLogit X Wt p q = z (640 * j + q.val))
    (s3 s4 s5 : FVec Ideal S1024x1 .f32)
    (h3 : s3 (ix2 p (0 : Fin 1)) = pmax z (640 * j))
    (h4 : s4 (ix2 p (0 : Fin 1)) = pexp z (pmax z (640 * j)) (640 * j))
    (h5 : s5 (ix2 p (0 : Fin 1)) = psel z n (640 * j)) :
    stepM' (F := Ideal) X Wt s3 (ix2 p (0 : Fin 1)) = pmax z (640 * (j + 1))
    ∧ stepL' (F := Ideal) X Wt s3 s4 (ix2 p (0 : Fin 1)) = pexp z (pmax z (640 * (j + 1))) (640 * (j + 1))
    ∧ stepS' (F := Ideal) i ids X Wt s5 (ix2 p (0 : Fin 1)) = psel z n (640 * (j + 1)) := by
  have e640 : 640 * (j + 1) = 640 * j + 640 := by ring
  -- the block's maximum is the maximum of the tile's 640 logits of z
  have hbm : blkMax X Wt p = (Finset.univ : Finset (Fin 640)).fold max ⊥ (fun q => z (640 * j + q.val)) := by
    unfold blkMax
    exact congrArg (fun f : Fin 640 → EReal => (Finset.univ : Finset (Fin 640)).fold max ⊥ f) (funext hblk)
  -- the new maximum is the maximum of the first 640 * (j + 1) columns
  have hM : max (s3 (ix2 p (0 : Fin 1))) (blkMax X Wt p) = pmax z (640 * (j + 1)) := by
    rw [h3, hbm, e640]
    exact step_max z (640 * j) 640
  refine ⟨?_, ?_, ?_⟩
  · show k0_pay2 (F := Ideal) (k0_pay21 (F := Ideal) X Wt s3) (ix2 p (0 : Fin 1)) = _
    rw [pay2_row, pay21_row, hM]
  · show k0_pay1 (F := Ideal) (k0_pay22 (F := Ideal) X Wt s3 s3) (k0_pay23 (F := Ideal) X Wt s3) s4
      (ix2 p (0 : Fin 1)) = _
    rw [pay1_row, pay22_row, h4]
    simp only [pay23_apply]
    rw [hM, h3]
    simp only [hblk]
    rw [e640]
    exact step_exp z hz (640 * j) 640 (by norm_num)
  · show k0_pay20 (F := Ideal) (k0_pay11 (F := Ideal) i ids) X Wt s5 (ix2 p (0 : Fin 1)) = _
    rw [pay20_row X Wt i ids s5 p j n hj hj50 hn hid, h5]
    simp only [hblk]
    rw [e640]
    exact step_sel z n (640 * j) 640

/-- The results after the whole row (50 blocks of 640 columns): the log-softmax of the row at the selected column. -/
theorem out_row (z : ℕ → EReal) (hz : ∀ v, ∃ r : ℝ, z v = (r : EReal)) (p : Fin 1024) (n : ℕ) (hn : n < 32000)
    (s0 s1 s2 : FVec Ideal S1024x1 .f32)
    (h0 : s0 (ix2 p (0 : Fin 1)) = pmax z 32000)
    (h1 : s1 (ix2 p (0 : Fin 1)) = pexp z (pmax z 32000) 32000)
    (h2 : s2 (ix2 p (0 : Fin 1)) = psel z n 32000) :
    outCur (F := Ideal) s2 s0 s1 (ix2 p (0 : Fin 1)) = logSoftmax (fun v : Fin 32000 => z v.val) ⟨n, hn⟩
    ∧ outRef (F := Ideal) s2 s0 s1 (ix2 p (0 : Fin 1)) = logSoftmax (fun v : Fin 32000 => z v.val) ⟨n, hn⟩ := by
  have h := closing_logSoftmax z hz n 32000 hn
  constructor
  · show k0_pay3 (F := Ideal) s2 s0 s1 (ix2 p (0 : Fin 1)) = _
    rw [pay3_row, h2, h0, h1]
    exact h
  · show k0_pay4 (F := Ideal) s2 s0 s1 (ix2 p (0 : Fin 1)) = _
    rw [pay4_row, h2, h0, h1]
    exact h

end Cert.KernelIdeal.RowStep

end
-- ==== Proof.Blocks.lean ====
/-
  The body's input blocks as rows of the argument arrays.

  The grid is swept with the vocabulary innermost: point t is row tile t / 50 and vocabulary block t % 50. The two
  hidden-state windows read rows 1024 (t / 50) … 1024 (t / 50) + 1023 of their [4096,2048] arrays, which are the
  [4,1024,2048] arguments flattened (row 1024 b + p is token (b, p)) and changed of format, a change that is the
  identity on the extended reals. The two weight windows read rows 640 (t % 50) … 640 (t % 50) + 639 of the weight
  matrices, again changed of format only. The id window reads rows 1024 (t / 50) … of the [4096,1] array of ids, which
  is the [4,1024] argument flattened and clamped into [0, 31999]: on a word that holds a number below 32000 the clamp
  changes nothing.
-/
import proofs.«407823_j13554916786396_3_alg».proof.Proof.PatchKI.Frame
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The arrays -/

/-- The argument arrays on core c: the two hidden-state arrays, the two weight matrices, the selected ids. -/
abbrev arg0 (c : Dev nD) : FVec Ideal S4x1024x2048 .f32 := m ((c : Thread nD τ).loc main_arg0)
abbrev arg1 (c : Dev nD) : FVec Ideal S4x1024x2048 .f32 := m ((c : Thread nD τ).loc main_arg1)
abbrev arg2 (c : Dev nD) : FVec Ideal S32000x2048 .f32 := m ((c : Thread nD τ).loc main_arg2)
abbrev arg3 (c : Dev nD) : FVec Ideal S32000x2048 .f32 := m ((c : Thread nD τ).loc main_arg3)
abbrev arg6 (c : Dev nD) : IVec S4x1024 32 := m ((c : Thread nD τ).loc main_arg6)

/-- The arrays the five input windows read, as the region finds them. -/
abbrev xarr (c : Dev nD) : FVec Ideal S4096x2048 .bf16 := V m c main_v1
abbrev xarr' (c : Dev nD) : FVec Ideal S4096x2048 .bf16 := V m c main_v3
abbrev warr (c : Dev nD) : FVec Ideal S32000x2048 .bf16 := V m c main_v4
abbrev warr' (c : Dev nD) : FVec Ideal S32000x2048 .bf16 := V m c main_v5
abbrev idarr (c : Dev nD) : IVec S4096x1 32 := V m c main_v7

/-- The first hidden-state array is the first argument flattened to [4096,2048] and changed of format. -/
theorem xarr_eq (c : Dev nD) : xarr m c
    = truncf .bf16 (shapeCast S4096x2048 (arg0 m c) shapeCasts_S4x1024x2048_S4096x2048) bitsLt_bf16_f32 := by
  show V m c main_v1 = _
  dsimp only [V, V0]
  simp only [hostOps0, hostOps0_1, List.flatten_cons, List.flatten_nil, List.append_nil, List.cons_append, List.nil_append]
  after_results
  rfl

/-- The second hidden-state array is the second argument flattened to [4096,2048] and changed of format. -/
theorem xarr'_eq (c : Dev nD) : xarr' m c
    = truncf .bf16 (shapeCast S4096x2048 (arg1 m c) shapeCasts_S4x1024x2048_S4096x2048) bitsLt_bf16_f32 := by
  show V m c main_v3 = _
  dsimp only [V, V0]
  simp only [hostOps0, hostOps0_1, List.flatten_cons, List.flatten_nil, List.append_nil, List.cons_append, List.nil_append]
  after_results
  rfl

/-- The first weight array is the first weight matrix changed of format. -/
theorem warr_eq (c : Dev nD) : warr m c = truncf .bf16 (arg2 m c) bitsLt_bf16_f32 := by
  show V m c main_v4 = _
  dsimp only [V, V0]
  simp only [hostOps0, hostOps0_1, List.flatten_cons, List.flatten_nil, List.append_nil, List.cons_append, List.nil_append]
  after_results

/-- The second weight array is the second weight matrix changed of format. -/
theorem warr'_eq (c : Dev nD) : warr' m c = truncf .bf16 (arg3 m c) bitsLt_bf16_f32 := by
  show V m c main_v5 = _
  dsimp only [V, V0]
  simp only [hostOps0, hostOps0_1, List.flatten_cons, List.flatten_nil, List.append_nil, List.cons_append, List.nil_append]
  after_results

/-- The id array is the id argument flattened to [4096,1] and clamped: the maximum with 0, then the minimum with 31999. -/
theorem idarr_eq (c : Dev nD) : idarr m c
    = minsi (broadcastInDim S4096x1 ![] bcast_S_S4096x1 (constantI S_ 32 31999#32))
        (maxsi (broadcastInDim S4096x1 ![] bcast_S_S4096x1 (constantI S_ 32 0#32))
          (shapeCast S4096x1 (arg6 m c) shapeCasts_S4x1024_S4096x1)) := by
  show V m c main_v7 = _
  dsimp only [V, V0]
  simp only [hostOps0, hostOps0_1, List.flatten_cons, List.flatten_nil, List.append_nil, List.cons_append, List.nil_append]
  after_results
  rfl

/-! ## The arrays at an index -/

/-- Row 1024 b + p of the first hidden-state array is token (b, p) of the first argument. -/
theorem xarr_apply (c : Dev nD) (b : Fin 4) (p : Fin 1024) (k : Fin 2048) (r : Fin 4096)
    (hr : r.val = 1024 * b.val + p.val) : xarr m c (ix2 r k) = arg0 m c (ix3 b p k) := by
  rw [xarr_eq]
  show shapeCast S4096x2048 (arg0 m c) shapeCasts_S4x1024x2048_S4096x2048 (ix2 r k) = _
  refine shapeCast_apply _ _ (ix2 r k) (ix3 b p k) ?_
  rw [Shape.rowMajor_val_three, Shape.rowMajor_val_two]
  show (b.val * 1024 + p.val) * 2048 + k.val = r.val * 2048 + k.val
  omega

/-- Row 1024 b + p of the second hidden-state array is token (b, p) of the second argument. -/
theorem xarr'_apply (c : Dev nD) (b : Fin 4) (p : Fin 1024) (k : Fin 2048) (r : Fin 4096)
    (hr : r.val = 1024 * b.val + p.val) : xarr' m c (ix2 r k) = arg1 m c (ix3 b p k) := by
  rw [xarr'_eq]
  show shapeCast S4096x2048 (arg1 m c) shapeCasts_S4x1024x2048_S4096x2048 (ix2 r k) = _
  refine shapeCast_apply _ _ (ix2 r k) (ix3 b p k) ?_
  rw [Shape.rowMajor_val_three, Shape.rowMajor_val_two]
  show (b.val * 1024 + p.val) * 2048 + k.val = r.val * 2048 + k.val
  omega

/-- The first weight array holds the first weight matrix. -/
theorem warr_apply (c : Dev nD) (i : S32000x2048.Idx) : warr m c i = arg2 m c i := by
  rw [warr_eq]
  rfl

/-- The second weight array holds the second weight matrix. -/
theorem warr'_apply (c : Dev nD) (i : S32000x2048.Idx) : warr' m c i = arg3 m c i := by
  rw [warr'_eq]
  rfl

/-- Clamping into [0, 31999] a word that holds a number below 32000 changes nothing. -/
theorem clamp_word (n : ℕ) (hn : n < 32000) :
    IntOp.minsi (31999#32) (IntOp.maxsi (0#32) (BitVec.ofNat 32 n)) = BitVec.ofNat 32 n := by
  have h1 : (BitVec.ofNat 32 n).slt (0#32) = false := by
    cases hs : (BitVec.ofNat 32 n).slt (0#32) with
    | false => rfl
    | true =>
      exact absurd ((StableHlo.Predicate.slt_ofNat_iff n 0 (lt_trans hn (by decide)) (by decide)).mp (by rw [hs]; rfl)) (by omega)
  have h2 : (31999#32).slt (BitVec.ofNat 32 n) = false := by
    cases hs : (31999#32).slt (BitVec.ofNat 32 n) with
    | false => rfl
    | true =>
      exact absurd ((StableHlo.Predicate.slt_ofNat_iff 31999 n (by decide) (lt_trans hn (by decide))).mp (by rw [hs]; rfl)) (by omega)
  have e1 : IntOp.maxsi (0#32) (BitVec.ofNat 32 n) = BitVec.ofNat 32 n := if_neg (by rw [h1]; exact Bool.false_ne_true)
  have e2 : IntOp.minsi (31999#32) (BitVec.ofNat 32 n) = BitVec.ofNat 32 n := if_neg (by rw [h2]; exact Bool.false_ne_true)
  rw [e1, e2]

/-- Row 1024 b + p of the id array is token (b, p)'s id, when that id is a number below 32000. -/
theorem idarr_apply (c : Dev nD) (b : Fin 4) (p : Fin 1024) (r : Fin 4096) (hr : r.val = 1024 * b.val + p.val)
    (n : ℕ) (hn : n < 32000) (h6 : arg6 m c (ix2 b p) = BitVec.ofNat 32 n) :
    idarr m c (ix2 r (0 : Fin 1)) = BitVec.ofNat 32 n := by
  rw [idarr_eq]
  have e : shapeCast S4096x1 (arg6 m c) shapeCasts_S4x1024_S4096x1 (ix2 r (0 : Fin 1)) = BitVec.ofNat 32 n := by
    refine (shapeCast_apply _ _ (ix2 r (0 : Fin 1)) (ix2 b p) ?_).trans h6
    rw [Shape.rowMajor_val_two, Shape.rowMajor_val_two]
    show b.val * 1024 + p.val = r.val * 1 + 0
    omega
  show IntOp.minsi (31999#32)
      (IntOp.maxsi (0#32) (shapeCast S4096x1 (arg6 m c) shapeCasts_S4x1024_S4096x1 (ix2 r (0 : Fin 1)))) = _
  rw [e]
  exact clamp_word n hn

/-! ## The blocks -/

/-- The five input blocks at point t. -/
abbrev xblk (c : Dev nD) (t : Fin cfg0.N) : FVec Ideal S1024x2048 .bf16 := iblk m c 0 t
abbrev xblk' (c : Dev nD) (t : Fin cfg0.N) : FVec Ideal S1024x2048 .bf16 := iblk m c 1 t
abbrev wblk (c : Dev nD) (t : Fin cfg0.N) : FVec Ideal S640x2048 .bf16 := iblk m c 2 t
abbrev wblk' (c : Dev nD) (t : Fin cfg0.N) : FVec Ideal S640x2048 .bf16 := iblk m c 3 t
abbrev idblk (c : Dev nD) (t : Fin cfg0.N) : IVec S1024x1 32 := iblk m c 4 t

/-- The grid's coordinates at point t: the vocabulary block is t % 50 and the row tile t / 50. -/
theorem coords_facts : ∀ t : Fin cfg0.N, (grid0.coords t 1).val = t.val % 50 ∧ (grid0.coords t 0).val = t.val / 50 :=
  (by decide +kernel : ∀ t : Fin grid0.N, (grid0.coords t 1).val = t.val % 50 ∧ (grid0.coords t 0).val = t.val / 50)

/-- The windows' block indices at point t: the row windows sit at row tile t / 50, the weight windows at vocabulary
    block t % 50, every window at column block 0. -/
theorem idx_facts : ∀ t : Fin cfg0.N,
    win0_0.index t (0 : Fin 2) = t.val / 50 ∧ win0_0.index t (1 : Fin 2) = 0
    ∧ win0_1.index t (0 : Fin 2) = t.val / 50 ∧ win0_1.index t (1 : Fin 2) = 0
    ∧ win0_2.index t (0 : Fin 2) = t.val % 50 ∧ win0_2.index t (1 : Fin 2) = 0
    ∧ win0_3.index t (0 : Fin 2) = t.val % 50 ∧ win0_3.index t (1 : Fin 2) = 0
    ∧ win0_4.index t (0 : Fin 2) = t.val / 50 ∧ win0_4.index t (1 : Fin 2) = 0 :=
  (by decide +kernel : ∀ t : Fin grid0.N, _)

/-- Row p of the first hidden-state block is row 1024 (t / 50) + p of its array. -/
theorem xblk_apply (c : Dev nD) (t : Fin cfg0.N) (p : Fin 1024) (k : Fin 2048) (r : Fin 4096)
    (hr : r.val = 1024 * (t.val / 50) + p.val) : xblk m c t (ix2 p k) = xarr m c (ix2 r k) := by
  unfold xblk iblk
  rw [View.read_apply]
  show xarr m c (((cfg0.win 0).blk t).view.emb (ix2 p k)) = xarr m c (ix2 r k)
  refine congrArg (xarr m c) (funext fun a => Fin.ext ?_)
  match a with
  | ⟨0, _⟩ =>
    show win0_0.index t (0 : Fin 2) * 1024 + 1 * p.val = r.val
    rw [(idx_facts t).1, hr]; omega
  | ⟨1, _⟩ =>
    show win0_0.index t (1 : Fin 2) * 2048 + 1 * k.val = k.val
    rw [(idx_facts t).2.1]; omega

/-- Row p of the second hidden-state block is row 1024 (t / 50) + p of its array. -/
theorem xblk'_apply (c : Dev nD) (t : Fin cfg0.N) (p : Fin 1024) (k : Fin 2048) (r : Fin 4096)
    (hr : r.val = 1024 * (t.val / 50) + p.val) : xblk' m c t (ix2 p k) = xarr' m c (ix2 r k) := by
  unfold xblk' iblk
  rw [View.read_apply]
  show xarr' m c (((cfg0.win 1).blk t).view.emb (ix2 p k)) = xarr' m c (ix2 r k)
  refine congrArg (xarr' m c) (funext fun a => Fin.ext ?_)
  match a with
  | ⟨0, _⟩ =>
    show win0_1.index t (0 : Fin 2) * 1024 + 1 * p.val = r.val
    rw [(idx_facts t).2.2.1, hr]; omega
  | ⟨1, _⟩ =>
    show win0_1.index t (1 : Fin 2) * 2048 + 1 * k.val = k.val
    rw [(idx_facts t).2.2.2.1]; omega

/-- Row q of the first weight block is row 640 (t % 50) + q of its array. -/
theorem wblk_apply (c : Dev nD) (t : Fin cfg0.N) (q : Fin 640) (k : Fin 2048) (r : Fin 32000)
    (hr : r.val = 640 * (t.val % 50) + q.val) : wblk m c t (ix2 q k) = warr m c (ix2 r k) := by
  unfold wblk iblk
  rw [View.read_apply]
  show warr m c (((cfg0.win 2).blk t).view.emb (ix2 q k)) = warr m c (ix2 r k)
  refine congrArg (warr m c) (funext fun a => Fin.ext ?_)
  match a with
  | ⟨0, _⟩ =>
    show win0_2.index t (0 : Fin 2) * 640 + 1 * q.val = r.val
    rw [(idx_facts t).2.2.2.2.1, hr]; omega
  | ⟨1, _⟩ =>
    show win0_2.index t (1 : Fin 2) * 2048 + 1 * k.val = k.val
    rw [(idx_facts t).2.2.2.2.2.1]; omega

/-- Row q of the second weight block is row 640 (t % 50) + q of its array. -/
theorem wblk'_apply (c : Dev nD) (t : Fin cfg0.N) (q : Fin 640) (k : Fin 2048) (r : Fin 32000)
    (hr : r.val = 640 * (t.val % 50) + q.val) : wblk' m c t (ix2 q k) = warr' m c (ix2 r k) := by
  unfold wblk' iblk
  rw [View.read_apply]
  show warr' m c (((cfg0.win 3).blk t).view.emb (ix2 q k)) = warr' m c (ix2 r k)
  refine congrArg (warr' m c) (funext fun a => Fin.ext ?_)
  match a with
  | ⟨0, _⟩ =>
    show win0_3.index t (0 : Fin 2) * 640 + 1 * q.val = r.val
    rw [(idx_facts t).2.2.2.2.2.2.1, hr]; omega
  | ⟨1, _⟩ =>
    show win0_3.index t (1 : Fin 2) * 2048 + 1 * k.val = k.val
    rw [(idx_facts t).2.2.2.2.2.2.2.1]; omega

/-- Row p of the id block is row 1024 (t / 50) + p of the id array. -/
theorem idblk_apply (c : Dev nD) (t : Fin cfg0.N) (p : Fin 1024) (r : Fin 4096)
    (hr : r.val = 1024 * (t.val / 50) + p.val) :
    idblk m c t (ix2 p (0 : Fin 1)) = idarr m c (ix2 r (0 : Fin 1)) := by
  unfold idblk iblk
  rw [View.read_apply]
  show idarr m c (((cfg0.win 4).blk t).view.emb (ix2 p (0 : Fin 1))) = idarr m c (ix2 r (0 : Fin 1))
  refine congrArg (idarr m c) (funext fun a => Fin.ext ?_)
  match a with
  | ⟨0, _⟩ =>
    show win0_4.index t (0 : Fin 2) * 1024 + 1 * p.val = r.val
    rw [(idx_facts t).2.2.2.2.2.2.2.2.1, hr]; omega
  | ⟨1, _⟩ =>
    show win0_4.index t (1 : Fin 2) * 1 + 1 * 0 = 0
    rw [(idx_facts t).2.2.2.2.2.2.2.2.2]

/-! ## The blocks as rows of the arguments -/

/-- The row of the flattened token axis under row p of the block at point t. -/
abbrev tokRow (t : Fin cfg0.N) (p : Fin 1024) : Fin 4096 :=
  ⟨1024 * (t.val / 50) + p.val, by
    have hN : cfg0.N = 200 := N_0
    have ht := t.isLt
    have hp := p.isLt
    omega⟩

/-- The row of a weight matrix under row q of the block at point t. -/
abbrev vocRow (t : Fin cfg0.N) (q : Fin 640) : Fin 32000 :=
  ⟨640 * (t.val % 50) + q.val, by
    have hq := q.isLt
    omega⟩

/-- At a point of row tile b, row p of the first hidden-state block is token (b, p) of the first argument. -/
theorem xblk_arg (c : Dev nD) (t : Fin cfg0.N) (b : Fin 4) (hb : b.val = t.val / 50) (p : Fin 1024) (k : Fin 2048) :
    xblk m c t (ix2 p k) = arg0 m c (ix3 b p k) :=
  (xblk_apply m c t p k (tokRow t p) rfl).trans
    (xarr_apply m c b p k (tokRow t p) (by show 1024 * (t.val / 50) + p.val = 1024 * b.val + p.val; rw [hb]))

/-- At a point of row tile b, row p of the second hidden-state block is token (b, p) of the second argument. -/
theorem xblk'_arg (c : Dev nD) (t : Fin cfg0.N) (b : Fin 4) (hb : b.val = t.val / 50) (p : Fin 1024) (k : Fin 2048) :
    xblk' m c t (ix2 p k) = arg1 m c (ix3 b p k) :=
  (xblk'_apply m c t p k (tokRow t p) rfl).trans
    (xarr'_apply m c b p k (tokRow t p) (by show 1024 * (t.val / 50) + p.val = 1024 * b.val + p.val; rw [hb]))

/-- Row q of the first weight block at point t is row 640 (t % 50) + q of the first weight matrix. -/
theorem wblk_arg (c : Dev nD) (t : Fin cfg0.N) (q : Fin 640) (k : Fin 2048) :
    wblk m c t (ix2 q k) = arg2 m c (ix2 (vocRow t q) k) :=
  (wblk_apply m c t q k (vocRow t q) rfl).trans (warr_apply m c (ix2 (vocRow t q) k))

/-- Row q of the second weight block at point t is row 640 (t % 50) + q of the second weight matrix. -/
theorem wblk'_arg (c : Dev nD) (t : Fin cfg0.N) (q : Fin 640) (k : Fin 2048) :
    wblk' m c t (ix2 q k) = arg3 m c (ix2 (vocRow t q) k) :=
  (wblk'_apply m c t q k (vocRow t q) rfl).trans (warr'_apply m c (ix2 (vocRow t q) k))

/-- At a point of row tile b, row p of the id block is token (b, p)'s id, when that id is a number below 32000. -/
theorem idblk_arg (c : Dev nD) (t : Fin cfg0.N) (b : Fin 4) (hb : b.val = t.val / 50) (p : Fin 1024)
    (n : ℕ) (hn : n < 32000) (h6 : arg6 m c (ix2 b p) = BitVec.ofNat 32 n) :
    idblk m c t (ix2 p (0 : Fin 1)) = BitVec.ofNat 32 n :=
  (idblk_apply m c t p (tokRow t p) rfl).trans
    (idarr_apply m c b p (tokRow t p) (by show 1024 * (t.val / 50) + p.val = 1024 * b.val + p.val; rw [hb]) n hn h6)

end Cert.KernelIdeal.Blocks

end
-- ==== Proof.Inv.lean ====
/-
  The induction over the grid: what the two result blocks hold after a row tile's last block of the vocabulary.

  The grid has 4 row tiles of 1024 tokens times 50 blocks of 640 vocabulary columns, swept with the vocabulary
  innermost: point t is row tile t / 50 and vocabulary block t % 50. Row tile b is batch entry b of the two hidden
  state arrays (the [4,1024,2048] arrays flattened to [4096,2048] put batch b at rows 1024 b … 1024 b + 1023), and
  vocabulary block j is rows 640 j … 640 j + 639 of the two weight matrices. So at point t the body's input blocks are
  those rows, and after it the six accumulators of token (b, p) hold the running maximum, the running sum of
  exponentials and the selected logit of the first 640 (j + 1) columns of the token's line of logits, for each of the
  two models (by induction on the point, the resets at j = 0). At j = 49 the two result blocks hold, at token p, the
  log-softmax of the token's whole line of logits at the token's selected column.
-/
import proofs.«407823_j13554916786396_3_alg».proof.Proof.PatchKI.Frame
import proofs.«407823_j13554916786396_3_alg».proof.Proof.Pieces
import proofs.«407823_j13554916786396_3_alg».proof.Proof.RowStep
import proofs.«407823_j13554916786396_3_alg».proof.Proof.Spec
import proofs.«407823_j13554916786396_3_alg».proof.Proof.Blocks

set_option maxRecDepth 16384

noncomputable section

open scoped BigOperators

namespace Cert.KernelIdeal.Inv

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The argument arrays on core c: the two hidden-state arrays, the two weight matrices, the selected ids. -/
abbrev A0 (c : Dev nD) : FVec Ideal S4x1024x2048 .f32 := m ((c : Thread nD τ).loc main_arg0)
abbrev A1 (c : Dev nD) : FVec Ideal S4x1024x2048 .f32 := m ((c : Thread nD τ).loc main_arg1)
abbrev A2 (c : Dev nD) : FVec Ideal S32000x2048 .f32 := m ((c : Thread nD τ).loc main_arg2)
abbrev A3 (c : Dev nD) : FVec Ideal S32000x2048 .f32 := m ((c : Thread nD τ).loc main_arg3)
abbrev A6 (c : Dev nD) : IVec S4x1024 32 := m ((c : Thread nD τ).loc main_arg6)

/-- Token (b, p)'s line of logits under the first model, as a sequence (columns past the vocabulary repeat the last). -/
def zc (c : Dev nD) (b : Fin 4) (p : Fin 1024) (v : ℕ) : EReal :=
  ∑ k : Fin 2048, A0 m c (ix3 b p k) * A2 m c (ix2 (⟨min v 31999, by omega⟩ : Fin 32000) k)

/-- The same under the second model. -/
def zr (c : Dev nD) (b : Fin 4) (p : Fin 1024) (v : ℕ) : EReal :=
  ∑ k : Fin 2048, A1 m c (ix3 b p k) * A3 m c (ix2 (⟨min v 31999, by omega⟩ : Fin 32000) k)

/-- Token (b, p)'s selected column. -/
def idn (c : Dev nD) (b : Fin 4) (p : Fin 1024) : Fin 32000 := ⟨min (A6 m c (ix2 b p)).toNat 31999, by omega⟩

/-- Token (b, p)'s log-probability of its selected column under the first model, and under the second. -/
def LP (c : Dev nD) (b : Fin 4) (p : Fin 1024) : EReal := logSoftmax (fun v : Fin 32000 => zc m c b p v.val) (idn m c b p)
def LQ (c : Dev nD) (b : Fin 4) (p : Fin 1024) : EReal := logSoftmax (fun v : Fin 32000 => zr m c b p v.val) (idn m c b p)

/-! ## The lines of logits are real, and the id word -/

/-- A finite sum of products of real numbers is a real number. -/
theorem sum_mul_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  classical
  choose a ha using hf
  choose b hb using hg
  refine ⟨∑ i ∈ s, a i * b i, ?_⟩
  induction s using Finset.induction_on with
  | empty => simp
  | insert i s hi ih => rw [Finset.sum_insert hi, Finset.sum_insert hi, ih, ha, hb, EReal.coe_add, EReal.coe_mul]

/-- With real hidden states and weights every logit of the first model is a real number. -/
theorem zc_real (c : Dev nD) (h0 : ∀ i, ∃ r : ℝ, A0 m c i = (r : EReal)) (h2 : ∀ i, ∃ r : ℝ, A2 m c i = (r : EReal))
    (b : Fin 4) (p : Fin 1024) : ∀ v, ∃ r : ℝ, zc m c b p v = (r : EReal) := fun v => by
  unfold zc
  exact sum_mul_real Finset.univ (fun k : Fin 2048 => A0 m c (ix3 b p k))
    (fun k : Fin 2048 => A2 m c (ix2 (⟨min v 31999, by omega⟩ : Fin 32000) k)) (fun k => h0 _) (fun k => h2 _)

/-- The same for the second model. -/
theorem zr_real (c : Dev nD) (h1 : ∀ i, ∃ r : ℝ, A1 m c i = (r : EReal)) (h3 : ∀ i, ∃ r : ℝ, A3 m c i = (r : EReal))
    (b : Fin 4) (p : Fin 1024) : ∀ v, ∃ r : ℝ, zr m c b p v = (r : EReal) := fun v => by
  unfold zr
  exact sum_mul_real Finset.univ (fun k : Fin 2048 => A1 m c (ix3 b p k))
    (fun k : Fin 2048 => A3 m c (ix2 (⟨min v 31999, by omega⟩ : Fin 32000) k)) (fun k => h1 _) (fun k => h3 _)

/-- A token's id word holds the token's selected column, when it holds a number below 32000. -/
theorem idn_spec (c : Dev nD) (h6 : ∀ i, ∃ n : ℕ, n < 32000 ∧ A6 m c i = BitVec.ofNat 32 n) (b : Fin 4) (p : Fin 1024) :
    A6 m c (ix2 b p) = BitVec.ofNat 32 (idn m c b p).val := by
  obtain ⟨n, hn, e⟩ := h6 (ix2 b p)
  have hv : (idn m c b p).val = n := by
    show min (A6 m c (ix2 b p)).toNat 31999 = n
    rw [e, BitVec.toNat_ofNat, Nat.mod_eq_of_lt (lt_trans hn (by decide)), Nat.min_eq_left (by omega)]
  rw [hv]
  exact e

/-! ## The block's logits are columns of the token's line -/

/-- At a point of row tile b the logit of row p against row q of the first weight block is column 640 (t % 50) + q of
    token (b, p)'s line under the first model. -/
theorem blk_logits (c : Dev nD) (t : Fin cfg0.N) (b : Fin 4) (hb : b.val = t.val / 50) (p : Fin 1024) (q : Fin 640) :
    PayRows.blkLogit (Blocks.xblk m c t) (Blocks.wblk m c t) p q = zc m c b p (640 * (t.val % 50) + q.val) := by
  unfold PayRows.blkLogit zc
  refine Finset.sum_congr rfl fun k _ => ?_
  exact congrArg₂ (fun x y : EReal => x * y) (Blocks.xblk_arg m c t b hb p k)
    ((Blocks.wblk_arg m c t q k).trans (congrArg (fun r : Fin 32000 => A2 m c (ix2 r k)) (Fin.ext (by
      show 640 * (t.val % 50) + q.val = min (640 * (t.val % 50) + q.val) 31999
      have hq := q.isLt
      rw [Nat.min_eq_left (by omega)]))))

/-- The same for the second model. -/
theorem blk_logits' (c : Dev nD) (t : Fin cfg0.N) (b : Fin 4) (hb : b.val = t.val / 50) (p : Fin 1024) (q : Fin 640) :
    PayRows.blkLogit (Blocks.xblk' m c t) (Blocks.wblk' m c t) p q = zr m c b p (640 * (t.val % 50) + q.val) := by
  unfold PayRows.blkLogit zr
  refine Finset.sum_congr rfl fun k _ => ?_
  exact congrArg₂ (fun x y : EReal => x * y) (Blocks.xblk'_arg m c t b hb p k)
    ((Blocks.wblk'_arg m c t q k).trans (congrArg (fun r : Fin 32000 => A3 m c (ix2 r k)) (Fin.ext (by
      show 640 * (t.val % 50) + q.val = min (640 * (t.val % 50) + q.val) 31999
      have hq := q.isLt
      rw [Nat.min_eq_left (by omega)]))))

/-! ## One block of the vocabulary at one token -/

/-- The six accumulators at row p hold the sweep's three values over the first `cols` columns, for the line z of the
    first model and the line z' of the second, the selected column being `id`. -/
def SweepAt (z z' : ℕ → EReal) (id cols : ℕ) (p : Fin 1024) (s0 s1 s2 s3 s4 s5 : FVec Ideal S1024x1 .f32) : Prop :=
  s0 (ix2 p (0 : Fin 1)) = pmax z cols ∧ s1 (ix2 p (0 : Fin 1)) = pexp z (pmax z cols) cols
  ∧ s2 (ix2 p (0 : Fin 1)) = psel z id cols ∧ s3 (ix2 p (0 : Fin 1)) = pmax z' cols
  ∧ s4 (ix2 p (0 : Fin 1)) = pexp z' (pmax z' cols) cols ∧ s5 (ix2 p (0 : Fin 1)) = psel z' id cols

/-- At a point of row tile b and vocabulary block t % 50 the six updates move token (b, p)'s accumulators from the first
    640 (t % 50) columns of its two lines to the first 640 (t % 50 + 1). -/
theorem row_update (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n)
    (t : Fin cfg0.N) (b : Fin 4) (hb : b.val = t.val / 50) (p : Fin 1024)
    (s0 s1 s2 s3 s4 s5 : FVec Ideal S1024x1 .f32)
    (hs : SweepAt (zc m c b p) (zr m c b p) (idn m c b p).val (640 * (t.val % 50)) p s0 s1 s2 s3 s4 s5) :
    SweepAt (zc m c b p) (zr m c b p) (idn m c b p).val (640 * (t.val % 50 + 1)) p
      (Steps.stepM (F := Ideal) (Blocks.xblk m c t) (Blocks.wblk m c t) s0)
      (Steps.stepL (F := Ideal) (Blocks.xblk m c t) (Blocks.wblk m c t) s0 s1)
      (Steps.stepS (F := Ideal) (grid0.coords t) (Blocks.idblk m c t) (Blocks.xblk m c t) (Blocks.wblk m c t) s2)
      (Steps.stepM' (F := Ideal) (Blocks.xblk' m c t) (Blocks.wblk' m c t) s3)
      (Steps.stepL' (F := Ideal) (Blocks.xblk' m c t) (Blocks.wblk' m c t) s3 s4)
      (Steps.stepS' (F := Ideal) (grid0.coords t) (Blocks.idblk m c t) (Blocks.xblk' m c t) (Blocks.wblk' m c t) s5) := by
  obtain ⟨a0, a1, a2, a3, a4, a5⟩ := hs
  have hj50 : t.val % 50 < 50 := Nat.mod_lt _ (by decide)
  have hid : Blocks.idblk m c t (ix2 p (0 : Fin 1)) = BitVec.ofNat 32 (idn m c b p).val :=
    Blocks.idblk_arg m c t b hb p (idn m c b p).val (idn m c b p).isLt (idn_spec m c h6 b p)
  obtain ⟨r0, r1, r2⟩ := RowStep.step_row (Blocks.xblk m c t) (Blocks.wblk m c t) (Blocks.idblk m c t) (grid0.coords t)
    (zc m c b p) (zc_real m c h0 h2 b p) p (t.val % 50) (idn m c b p).val (Blocks.coords_facts t).1 hj50
    (idn m c b p).isLt hid (blk_logits m c t b hb p) s0 s1 s2 a0 a1 a2
  obtain ⟨r3, r4, r5⟩ := RowStep.step_row' (Blocks.xblk' m c t) (Blocks.wblk' m c t) (Blocks.idblk m c t) (grid0.coords t)
    (zr m c b p) (zr_real m c h1 h3 b p) p (t.val % 50) (idn m c b p).val (Blocks.coords_facts t).1 hj50
    (idn m c b p).isLt hid (blk_logits' m c t b hb p) s3 s4 s5 a3 a4 a5
  unfold SweepAt
  exact ⟨r0, r1, r2, r3, r4, r5⟩

/-! ## What each case of the body leaves, as updates of the blocks read -/

/-- At a row tile's first block each accumulator ends at its update of the point's blocks from its reset. -/
theorem outs_A (c : Dev nD) (t : Fin cfg0.N) (hA : t.val % 50 = 0) (hC : ¬t.val % 50 = 49) :
    (outsAt0 m c t.val t.isLt).2.2.1 = Steps.stepM (F := Ideal) (Blocks.xblk m c t) (Blocks.wblk m c t) (k0_pay5 (F := Ideal))
    ∧ (outsAt0 m c t.val t.isLt).2.2.2.1 = Steps.stepL (F := Ideal) (Blocks.xblk m c t) (Blocks.wblk m c t) (k0_pay5 (F := Ideal)) (k0_pay6 (F := Ideal))
    ∧ (outsAt0 m c t.val t.isLt).2.2.2.2.1 = Steps.stepS (F := Ideal) (grid0.coords t) (Blocks.idblk m c t) (Blocks.xblk m c t) (Blocks.wblk m c t) (k0_pay7 (F := Ideal))
    ∧ (outsAt0 m c t.val t.isLt).2.2.2.2.2.1 = Steps.stepM' (F := Ideal) (Blocks.xblk' m c t) (Blocks.wblk' m c t) (k0_pay8 (F := Ideal))
    ∧ (outsAt0 m c t.val t.isLt).2.2.2.2.2.2.1 = Steps.stepL' (F := Ideal) (Blocks.xblk' m c t) (Blocks.wblk' m c t) (k0_pay8 (F := Ideal)) (k0_pay9 (F := Ideal))
    ∧ (outsAt0 m c t.val t.isLt).2.2.2.2.2.2.2 = Steps.stepS' (F := Ideal) (grid0.coords t) (Blocks.idblk m c t) (Blocks.xblk' m c t) (Blocks.wblk' m c t) (k0_pay10 (F := Ideal)) := by
  rw [outsAt0_A m c t hA hC]
  dsimp only
  exact ⟨Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t),
    Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t),
    Pieces.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t),
    Pieces.sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t),
    Pieces.sout0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t),
    Pieces.sout0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr hA) (fun h => hC ((hcond0_1 t).mp h)) (iblk m c 0 t) (iblk m c 1 t) (iblk m c 2 t) (iblk m c 3 t) (iblk m c 4 t)⟩

/-- At a block in the middle each accumulator ends at its update of the point's blocks from what the point before left. -/
theorem outs_B (c : Dev nD) (t : Fin cfg0.N) (hA : ¬t.val % 50 = 0) (hC : ¬t.val % 50 = 49) (hp : t.val - 1 < cfg0.N) :
    (outsAt0 m c t.val t.isLt).2.2.1 = Steps.stepM (F := Ideal) (Blocks.xblk m c t) (Blocks.wblk m c t) (outsAt0 m c (t.val - 1) hp).2.2.1
    ∧ (outsAt0 m c t.val t.isLt).2.2.2.1 = Steps.stepL (F := Ideal) (Blocks.xblk m c t) (Blocks.wblk m c t) (outsAt0 m c (t.val - 1) hp).2.2.1 (outsAt0 m c (t.val - 1) hp).2.2.2.1
    ∧ (outsAt0 m c t.val t.isLt).2.2.2.2.1 = Steps.stepS (F := Ideal) (grid0.coords t) (Blocks.idblk m c t) (Blocks.xblk m c t) (Blocks.wblk m c t) (outsAt0 m c (t.val - 1) hp).2.2.2.2.1
    ∧ (outsAt0 m c t.val t.isLt).2.2.2.2.2.1 = Steps.stepM' (F := Ideal) (Blocks.xblk' m c t) (Blocks.wblk' m c t) (outsAt0 m c (t.val - 1) hp).2.2.2.2.2.1
    ∧ (outsAt0 m c t.val t.isLt).2.2.2.2.2.2.1 = Steps.stepL' (F := Ideal) (Blocks.xblk' m c t) (Blocks.wblk' m c t) (outsAt0 m c (t.val - 1) hp).2.2.2.2.2.1 (outsAt0 m c (t.val - 1) hp).2.2.2.2.2.2.1
    ∧ (outsAt0 m c t.val t.isLt).2.2.2.2.2.2.2 = Steps.stepS' (F := Ideal) (grid0.coords t) (Blocks.idblk m c t) (Blocks.xblk' m c t) (Blocks.wblk' m c t) (outsAt0 m c (t.val - 1) hp).2.2.2.2.2.2.2 := by
  rw [outsAt0_B m c t hA hC]
  dsimp only
  exact ⟨Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) (fun h => hC ((hcond0_1 t).mp h)) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2⟩

/-- At a row tile's last block each accumulator ends at its update from what the point before left, and each result is
    read off its model's three accumulators as just updated. -/
theorem outs_C (c : Dev nD) (t : Fin cfg0.N) (hA : ¬t.val % 50 = 0) (hC : t.val % 50 = 49) (hp : t.val - 1 < cfg0.N) :
    (outsAt0 m c t.val t.isLt).1 = Steps.outCur (F := Ideal) (Steps.stepS (F := Ideal) (grid0.coords t) (Blocks.idblk m c t) (Blocks.xblk m c t) (Blocks.wblk m c t) (outsAt0 m c (t.val - 1) hp).2.2.2.2.1) (Steps.stepM (F := Ideal) (Blocks.xblk m c t) (Blocks.wblk m c t) (outsAt0 m c (t.val - 1) hp).2.2.1) (Steps.stepL (F := Ideal) (Blocks.xblk m c t) (Blocks.wblk m c t) (outsAt0 m c (t.val - 1) hp).2.2.1 (outsAt0 m c (t.val - 1) hp).2.2.2.1)
    ∧ (outsAt0 m c t.val t.isLt).2.1 = Steps.outRef (F := Ideal) (Steps.stepS' (F := Ideal) (grid0.coords t) (Blocks.idblk m c t) (Blocks.xblk' m c t) (Blocks.wblk' m c t) (outsAt0 m c (t.val - 1) hp).2.2.2.2.2.2.2) (Steps.stepM' (F := Ideal) (Blocks.xblk' m c t) (Blocks.wblk' m c t) (outsAt0 m c (t.val - 1) hp).2.2.2.2.2.1) (Steps.stepL' (F := Ideal) (Blocks.xblk' m c t) (Blocks.wblk' m c t) (outsAt0 m c (t.val - 1) hp).2.2.2.2.2.1 (outsAt0 m c (t.val - 1) hp).2.2.2.2.2.2.1)
    ∧ (outsAt0 m c t.val t.isLt).2.2.1 = Steps.stepM (F := Ideal) (Blocks.xblk m c t) (Blocks.wblk m c t) (outsAt0 m c (t.val - 1) hp).2.2.1
    ∧ (outsAt0 m c t.val t.isLt).2.2.2.1 = Steps.stepL (F := Ideal) (Blocks.xblk m c t) (Blocks.wblk m c t) (outsAt0 m c (t.val - 1) hp).2.2.1 (outsAt0 m c (t.val - 1) hp).2.2.2.1
    ∧ (outsAt0 m c t.val t.isLt).2.2.2.2.1 = Steps.stepS (F := Ideal) (grid0.coords t) (Blocks.idblk m c t) (Blocks.xblk m c t) (Blocks.wblk m c t) (outsAt0 m c (t.val - 1) hp).2.2.2.2.1
    ∧ (outsAt0 m c t.val t.isLt).2.2.2.2.2.1 = Steps.stepM' (F := Ideal) (Blocks.xblk' m c t) (Blocks.wblk' m c t) (outsAt0 m c (t.val - 1) hp).2.2.2.2.2.1
    ∧ (outsAt0 m c t.val t.isLt).2.2.2.2.2.2.1 = Steps.stepL' (F := Ideal) (Blocks.xblk' m c t) (Blocks.wblk' m c t) (outsAt0 m c (t.val - 1) hp).2.2.2.2.2.1 (outsAt0 m c (t.val - 1) hp).2.2.2.2.2.2.1
    ∧ (outsAt0 m c t.val t.isLt).2.2.2.2.2.2.2 = Steps.stepS' (F := Ideal) (grid0.coords t) (Blocks.idblk m c t) (Blocks.xblk' m c t) (Blocks.wblk' m c t) (outsAt0 m c (t.val - 1) hp).2.2.2.2.2.2.2 := by
  rw [outsAt0_C m c t hA hC]
  dsimp only
  exact ⟨Pieces.out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2,
    Pieces.sout0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => hA ((hcond0_0 t).mp h)) ((hcond0_1 t).mpr hC) (iblk m c 0 t) (iblk m c 1 t) (iblk m c 2 t) (iblk m c 3 t) (iblk m c 4 t) (outsAt0 m c (t.val - 1) hp).2.2.1 (outsAt0 m c (t.val - 1) hp).2.2.2.1 (outsAt0 m c (t.val - 1) hp).2.2.2.2.1 (outsAt0 m c (t.val - 1) hp).2.2.2.2.2.1 (outsAt0 m c (t.val - 1) hp).2.2.2.2.2.2.1 (outsAt0 m c (t.val - 1) hp).2.2.2.2.2.2.2⟩

/-! ## The induction over the grid's points -/

/-- After point n, of row tile b, token (b, p)'s six accumulators hold the sweep's values over the first
    640 (n % 50 + 1) columns of its two lines. -/
def AccInv (c : Dev nD) (n : ℕ) (hn : n < cfg0.N) (b : Fin 4) (p : Fin 1024) : Prop :=
  SweepAt (zc m c b p) (zr m c b p) (idn m c b p).val (640 * (n % 50 + 1)) p
    (outsAt0 m c n hn).2.2.1 (outsAt0 m c n hn).2.2.2.1 (outsAt0 m c n hn).2.2.2.2.1 (outsAt0 m c n hn).2.2.2.2.2.1 (outsAt0 m c n hn).2.2.2.2.2.2.1 (outsAt0 m c n hn).2.2.2.2.2.2.2

/-- The accumulators after every point, by induction on the point: the resets at a row tile's first block, the point
    before otherwise (it is of the same row tile). -/
theorem acc_inv (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n) (n : ℕ) :
    ∀ (hn : n < cfg0.N) (b : Fin 4), b.val = n / 50 → ∀ p : Fin 1024, AccInv m c n hn b p := by
  induction n using Nat.strongRecOn with
  | _ n ih =>
    intro hn b hb p
    have hN : cfg0.N = 200 := N_0
    by_cases hA : n % 50 = 0
    · have hC : ¬n % 50 = 49 := by omega
      obtain ⟨e0, e1, e2, e3, e4, e5⟩ := outs_A m c ⟨n, hn⟩ hA hC
      obtain ⟨q0, q1, q2, -, -, -⟩ := RowStep.reset_row (zc m c b p) (idn m c b p).val p
      obtain ⟨-, -, -, q3, q4, q5⟩ := RowStep.reset_row (zr m c b p) (idn m c b p).val p
      have hcols : 640 * (n % 50) = 0 := by omega
      have hs : SweepAt (zc m c b p) (zr m c b p) (idn m c b p).val (640 * (n % 50)) p
          (k0_pay5 (F := Ideal)) (k0_pay6 (F := Ideal)) (k0_pay7 (F := Ideal)) (k0_pay8 (F := Ideal)) (k0_pay9 (F := Ideal)) (k0_pay10 (F := Ideal)) := by
        unfold SweepAt
        rw [hcols]
        exact ⟨q0, q1, q2, q3, q4, q5⟩
      obtain ⟨u0, u1, u2, u3, u4, u5⟩ := row_update m c h0 h1 h2 h3 h6 ⟨n, hn⟩ b hb p _ _ _ _ _ _ hs
      unfold AccInv SweepAt
      exact ⟨(congrFun e0 _).trans u0, (congrFun e1 _).trans u1, (congrFun e2 _).trans u2,
        (congrFun e3 _).trans u3, (congrFun e4 _).trans u4, (congrFun e5 _).trans u5⟩
    · have hp : n - 1 < cfg0.N := by omega
      have hb' : b.val = (n - 1) / 50 := by omega
      have ihp := ih (n - 1) (by omega) hp b hb' p
      have hcols : 640 * ((n - 1) % 50 + 1) = 640 * (n % 50) := by omega
      unfold AccInv at ihp
      rw [hcols] at ihp
      obtain ⟨u0, u1, u2, u3, u4, u5⟩ := row_update m c h0 h1 h2 h3 h6 ⟨n, hn⟩ b hb p _ _ _ _ _ _ ihp
      by_cases hC : n % 50 = 49
      · obtain ⟨-, -, e0, e1, e2, e3, e4, e5⟩ := outs_C m c ⟨n, hn⟩ hA hC hp
        unfold AccInv SweepAt
        exact ⟨(congrFun e0 _).trans u0, (congrFun e1 _).trans u1, (congrFun e2 _).trans u2,
          (congrFun e3 _).trans u3, (congrFun e4 _).trans u4, (congrFun e5 _).trans u5⟩
      · obtain ⟨e0, e1, e2, e3, e4, e5⟩ := outs_B m c ⟨n, hn⟩ hA hC hp
        unfold AccInv SweepAt
        exact ⟨(congrFun e0 _).trans u0, (congrFun e1 _).trans u1, (congrFun e2 _).trans u2,
          (congrFun e3 _).trans u3, (congrFun e4 _).trans u4, (congrFun e5 _).trans u5⟩

/-- After a row tile's last vocabulary block the two result blocks hold the tile's tokens' log-probabilities. -/
theorem outs_last (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n)
    (t : Fin cfg0.N) (h49 : t.val % 50 = 49) (b : Fin 4) (hb : b.val = t.val / 50) (p : Fin 1024) :
    (outsAt0 m c t.val t.isLt).1 (ix2 p (0 : Fin 1)) = LP m c b p
    ∧ (outsAt0 m c t.val t.isLt).2.1 (ix2 p (0 : Fin 1)) = LQ m c b p := by
  have hN : cfg0.N = 200 := N_0
  have ht := t.isLt
  have hA : ¬t.val % 50 = 0 := by omega
  have hp : t.val - 1 < cfg0.N := by omega
  have ihp := acc_inv m c h0 h1 h2 h3 h6 (t.val - 1) hp b (by omega) p
  have hcols : 640 * ((t.val - 1) % 50 + 1) = 640 * (t.val % 50) := by omega
  unfold AccInv at ihp
  rw [hcols] at ihp
  obtain ⟨o5, o6, -, -, -, -, -, -⟩ := outs_C m c t hA h49 hp
  obtain ⟨u0, u1, u2, u3, u4, u5⟩ := row_update m c h0 h1 h2 h3 h6 t b hb p _ _ _ _ _ _ ihp
  have h32 : 640 * (t.val % 50 + 1) = 32000 := by omega
  rw [h32] at u0 u1 u2 u3 u4 u5
  refine ⟨(congrFun o5 _).trans ?_, (congrFun o6 _).trans ?_⟩
  · exact (RowStep.out_row (zc m c b p) (zc_real m c h0 h2 b p) p (idn m c b p).val (idn m c b p).isLt _ _ _ u0 u1 u2).1
  · exact (RowStep.out_row (zr m c b p) (zr_real m c h1 h3 b p) p (idn m c b p).val (idn m c b p).isLt _ _ _ u3 u4 u5).2

end Cert.KernelIdeal.Inv

end
-- ==== Proof.KVal.lean ====
/-
  From the result blocks to the two result arrays.

  Each result window's block at a point of row tile b is rows 1024 b … 1024 b + 1023 of its [4096,1] array, and it
  is written back only after the row tile's last vocabulary block, when it holds the tile's tokens' log-probabilities.
  The four write-backs cover the array, so each array ends holding, at row r, the log-probability of token
  (r / 1024, r % 1024); read through the reshape to [4,1024], entry (b, p) is token (b, p)'s.
-/
import proofs.«407823_j13554916786396_3_alg».proof.Proof.PatchKI.Frame
import proofs.«407823_j13554916786396_3_alg».proof.Proof.Inv
import Idealize.ShloMosaic.Lib.Pipeline.Value
import Idealize.ShloMosaic.Lib.ValueIdx
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inv

variable (m : (ℓ : Loc nD τ sig) → Buf (Elt Ideal) ℓ)

/-- Row r of the flattened token axis is token (r / 1024, r % 1024). -/
def rowLP (c : Dev nD) (r : ℕ) : EReal := LP m c ⟨(r / 1024) % 4, by omega⟩ ⟨r % 1024, by omega⟩
def rowLQ (c : Dev nD) (r : ℕ) : EReal := LQ m c ⟨(r / 1024) % 4, by omega⟩ ⟨r % 1024, by omega⟩

/-- What the two result arrays end holding. -/
def G5 (c : Dev nD) : Buf (Elt Ideal) ((c : Thread nD τ).loc main_v8_0) := fun j : S4096x1.Idx => rowLP m c (j 0).val
def G6 (c : Dev nD) : Buf (Elt Ideal) ((c : Thread nD τ).loc main_v8_1) := fun j : S4096x1.Idx => rowLQ m c (j 0).val

/-! ## The result windows' blocks

Point t is row tile t / 50; each result window's block there is block (t / 50, 0) of its [4096,1] array, so its
entry (y, 0) is the array's row 1024 (t / 50) + y. -/

/-- The first result window's block index at point t is (t / 50, 0). -/
theorem idx5 : ∀ t : Fin cfg0.N, win0_5.index t (0 : Fin 2) = t.val / 50 ∧ win0_5.index t (1 : Fin 2) = 0 :=
  (by decide +kernel : ∀ t : Fin grid0.N, win0_5.index t (0 : Fin 2) = t.val / 50 ∧ win0_5.index t (1 : Fin 2) = 0)

/-- The second result window's block index at point t is (t / 50, 0). -/
theorem idx6 : ∀ t : Fin cfg0.N, win0_6.index t (0 : Fin 2) = t.val / 50 ∧ win0_6.index t (1 : Fin 2) = 0 :=
  (by decide +kernel : ∀ t : Fin grid0.N, win0_6.index t (0 : Fin 2) = t.val / 50 ∧ win0_6.index t (1 : Fin 2) = 0)

/-- Block t of the first claimed array, read at (y, 0), is row 1024 (t / 50) + y. -/
theorem read_blk5 (c : Dev nD) (t : Fin cfg0.N) (y : ((cfg0.win 5).xblock (grid0.coords t)).Idx) :
    ((cfg0.win 5).blk t).view.read (Elt Ideal) (G5 m c) y = rowLP m c (1024 * (t.val / 50) + (y 0).val) := by
  rw [View.read_apply]
  show rowLP m c (win0_5.index t (0 : Fin 2) * 1024 + 1 * (y 0).val) = _
  rw [(idx5 t).1]
  congr 1
  omega

/-- Block t of the second claimed array, read at (y, 0), is row 1024 (t / 50) + y. -/
theorem read_blk6 (c : Dev nD) (t : Fin cfg0.N) (y : ((cfg0.win 6).xblock (grid0.coords t)).Idx) :
    ((cfg0.win 6).blk t).view.read (Elt Ideal) (G6 m c) y = rowLQ m c (1024 * (t.val / 50) + (y 0).val) := by
  rw [View.read_apply]
  show rowLQ m c (win0_6.index t (0 : Fin 2) * 1024 + 1 * (y 0).val) = _
  rw [(idx6 t).1]
  congr 1
  omega

/-- Row r of the first result array lies in the block written back at point 50 (r / 1024) + 49, the last point of
    row tile r / 1024. -/
theorem cover5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 200 := N_0
  have hlt : 50 * ((i 0).val / 1024) + 49 < cfg0.N := by rw [hN]; omega
  obtain ⟨e0, e1⟩ := idx5 ⟨50 * ((i 0).val / 1024) + 49, hlt⟩
  refine ⟨⟨50 * ((i 0).val / 1024) + 49, hlt⟩,
    (flush0_5 _).mpr (by show (50 * ((i 0).val / 1024) + 49) % 50 = 49; omega), ?_⟩
  show i ∈ ((View.whole main_v8_0).slice (win0_5.rect ⟨50 * ((i 0).val / 1024) + 49, hlt⟩)).set
  rw [View.set_slice_whole, Rect.mem_set_unit]
  intro a
  match a with
  | ⟨0, _⟩ =>
    show win0_5.index ⟨50 * ((i 0).val / 1024) + 49, hlt⟩ (0 : Fin 2) * 1024 ≤ (i 0).val
      ∧ (i 0).val < win0_5.index ⟨50 * ((i 0).val / 1024) + 49, hlt⟩ (0 : Fin 2) * 1024 + 1024
    rw [e0]
    show (50 * ((i 0).val / 1024) + 49) / 50 * 1024 ≤ (i 0).val
      ∧ (i 0).val < (50 * ((i 0).val / 1024) + 49) / 50 * 1024 + 1024
    omega
  | ⟨1, _⟩ =>
    show win0_5.index ⟨50 * ((i 0).val / 1024) + 49, hlt⟩ (1 : Fin 2) * 1 ≤ (i 1).val
      ∧ (i 1).val < win0_5.index ⟨50 * ((i 0).val / 1024) + 49, hlt⟩ (1 : Fin 2) * 1 + 1
    rw [e1]
    omega

/-- The same for the second result array. -/
theorem cover6 (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 200 := N_0
  have hlt : 50 * ((i 0).val / 1024) + 49 < cfg0.N := by rw [hN]; omega
  obtain ⟨e0, e1⟩ := idx6 ⟨50 * ((i 0).val / 1024) + 49, hlt⟩
  refine ⟨⟨50 * ((i 0).val / 1024) + 49, hlt⟩,
    (flush0_6 _).mpr (by show (50 * ((i 0).val / 1024) + 49) % 50 = 49; omega), ?_⟩
  show i ∈ ((View.whole main_v8_1).slice (win0_6.rect ⟨50 * ((i 0).val / 1024) + 49, hlt⟩)).set
  rw [View.set_slice_whole, Rect.mem_set_unit]
  intro a
  match a with
  | ⟨0, _⟩ =>
    show win0_6.index ⟨50 * ((i 0).val / 1024) + 49, hlt⟩ (0 : Fin 2) * 1024 ≤ (i 0).val
      ∧ (i 0).val < win0_6.index ⟨50 * ((i 0).val / 1024) + 49, hlt⟩ (0 : Fin 2) * 1024 + 1024
    rw [e0]
    show (50 * ((i 0).val / 1024) + 49) / 50 * 1024 ≤ (i 0).val
      ∧ (i 0).val < (50 * ((i 0).val / 1024) + 49) / 50 * 1024 + 1024
    omega
  | ⟨1, _⟩ =>
    show win0_6.index ⟨50 * ((i 0).val / 1024) + 49, hlt⟩ (1 : Fin 2) * 1 ≤ (i 1).val
      ∧ (i 1).val < win0_6.index ⟨50 * ((i 0).val / 1024) + 49, hlt⟩ (1 : Fin 2) * 1 + 1
    rw [e1]
    omega

/-- Row 1024 b + y of the flattened token axis, y < 1024, is token (b, y). -/
theorem rowLP_tile (c : Dev nD) (b : Fin 4) (p : Fin 1024) : rowLP m c (1024 * b.val + p.val) = LP m c b p := by
  have hb : b.val < 4 := b.isLt
  have hp : p.val < 1024 := p.isLt
  unfold rowLP
  congr 1
  · exact Fin.ext (by show (1024 * b.val + p.val) / 1024 % 4 = b.val; omega)
  · exact Fin.ext (by show (1024 * b.val + p.val) % 1024 = p.val; omega)

theorem rowLQ_tile (c : Dev nD) (b : Fin 4) (p : Fin 1024) : rowLQ m c (1024 * b.val + p.val) = LQ m c b p := by
  have hb : b.val < 4 := b.isLt
  have hp : p.val < 1024 := p.isLt
  unfold rowLQ
  congr 1
  · exact Fin.ext (by show (1024 * b.val + p.val) / 1024 % 4 = b.val; omega)
  · exact Fin.ext (by show (1024 * b.val + p.val) % 1024 = p.val; omega)

/-- Entry (b, p) of a [4096,1] array read through the reshape to [4,1024] is its row 1024 b + p. -/
theorem reshape_row (x : S4096x1.Idx → EReal) (b : Fin 4) (p : Fin 1024) (h : 1024 * b.val + p.val < 4096) :
    shapeCast S4x1024 x shapeCasts_S4096x1_S4x1024 (ix2 b p)
      = x (ix2 (⟨1024 * b.val + p.val, h⟩ : Fin 4096) (0 : Fin 1)) :=
  shapeCast_apply x shapeCasts_S4096x1_S4x1024 (ix2 b p) (ix2 (⟨1024 * b.val + p.val, h⟩ : Fin 4096) (0 : Fin 1)) (by
    show (S4096x1.rowMajor (ix2 (⟨1024 * b.val + p.val, h⟩ : Fin 4096) (0 : Fin 1))).val
      = (S4x1024.rowMajor (ix2 b p)).val
    rw [Shape.rowMajor_val_two, Shape.rowMajor_val_two]
    show (1024 * b.val + p.val) * 1 + 0 = b.val * 1024 + p.val
    omega)

section
variable (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n)
include h0 h1 h2 h3 h6

/-- What a write-back of the first result window writes is its block of the claimed array: the write-back is after a
    row tile's last vocabulary block, when the block holds the tile's tokens' log-probabilities. -/
theorem flushed5_eq (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  have h49 : t.val % 50 = 49 := (flush0_5 t).mp hf
  have hN : t.val < 200 := lt_of_lt_of_eq t.isLt N_0
  funext y
  have hy : (y 0).val < 1024 := (y 0).isLt
  have hy1 : (y 1).val < 1 := (y 1).isLt
  rw [read_blk5]
  have hx : (cfg0.win 5).xinj (grid0.coords t) y = ix2 (⟨(y 0).val, hy⟩ : Fin 1024) (0 : Fin 1) := by
    funext a
    match a with
    | ⟨0, _⟩ => rfl
    | ⟨1, _⟩ => exact Fin.ext (by show (y 1).val = 0; omega)
  show (outsAt0 m c t.val t.isLt).1 ((cfg0.win 5).xinj (grid0.coords t) y) = _
  rw [hx, (outs_last m c h0 h1 h2 h3 h6 t h49 ⟨t.val / 50, by omega⟩ rfl ⟨(y 0).val, hy⟩).1]
  exact (rowLP_tile m c ⟨t.val / 50, by omega⟩ ⟨(y 0).val, hy⟩).symm

/-- The same for the second result window. -/
theorem flushed6_eq (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  have h49 : t.val % 50 = 49 := (flush0_6 t).mp hf
  have hN : t.val < 200 := lt_of_lt_of_eq t.isLt N_0
  funext y
  have hy : (y 0).val < 1024 := (y 0).isLt
  have hy1 : (y 1).val < 1 := (y 1).isLt
  rw [read_blk6]
  have hx : (cfg0.win 6).xinj (grid0.coords t) y = ix2 (⟨(y 0).val, hy⟩ : Fin 1024) (0 : Fin 1) := by
    funext a
    match a with
    | ⟨0, _⟩ => rfl
    | ⟨1, _⟩ => exact Fin.ext (by show (y 1).val = 0; omega)
  show (outsAt0 m c t.val t.isLt).2.1 ((cfg0.win 6).xinj (grid0.coords t) y) = _
  rw [hx, (outs_last m c h0 h1 h2 h3 h6 t h49 ⟨t.val / 50, by omega⟩ rfl ⟨(y 0).val, hy⟩).2]
  exact (rowLQ_tile m c ⟨t.val / 50, by omega⟩ ⟨(y 0).val, hy⟩).symm

/-- The first result array after the region. -/
theorem final5 : (dats m 0 c).arrAt 5 cfg0.N = G5 m c :=
  (dats m 0 c).arrAt_eq_of_cover 5 (G5 m c) (flushed5_eq m c h0 h1 h2 h3 h6) cover5

/-- The second result array after the region. -/
theorem final6 : (dats m 0 c).arrAt 6 cfg0.N = G6 m c :=
  (dats m 0 c).arrAt_eq_of_cover 6 (G6 m c) (flushed6_eq m c h0 h1 h2 h3 h6) cover6

end

/-- The result arrays read through the reshape to [4,1024]. -/
theorem reshape5_apply (c : Dev nD) (b : Fin 4) (p : Fin 1024) :
    shapeCast S4x1024 (G5 m c) shapeCasts_S4096x1_S4x1024 (ix2 b p) = LP m c b p := by
  have hb : b.val < 4 := b.isLt
  have hp : p.val < 1024 := p.isLt
  refine (reshape_row (G5 m c) b p (by omega)).trans ?_
  show rowLP m c (1024 * b.val + p.val) = LP m c b p
  exact rowLP_tile m c b p

theorem reshape6_apply (c : Dev nD) (b : Fin 4) (p : Fin 1024) :
    shapeCast S4x1024 (G6 m c) shapeCasts_S4096x1_S4x1024 (ix2 b p) = LQ m c b p := by
  have hb : b.val < 4 := b.isLt
  have hp : p.val < 1024 := p.isLt
  refine (reshape_row (G6 m c) b p (by omega)).trans ?_
  show rowLQ m c (1024 * b.val + p.val) = LQ m c b p
  exact rowLQ_tile m c b p

end Cert.KernelIdeal.KVal

end
-- ==== Proof.Tail.lean ====
/-
  The shared end of the two programs: from the per-token log-probabilities of the current model
  (p) and of the reference model (q), both [4,1024], the per-sequence advantages a4 : [4] and the
  attention mask a5 : [4,1024], three scalars.

    ratio      = exp (p - p)                                    (the importance ratio against itself)
    clipped    = min 1.2 (max 0.8 ratio)
    surrogate  = -(min (ratio * adv) (clipped * adv))           adv = a4 broadcast along the tokens
    d          = q - p,   kl = (exp d - d) - 1
    denom      = max (sum a5) 1
    loss       = sum ((surrogate + 0.1 * kl) * a5) / denom
    klMetric   = sum (kl * a5) / denom
    clipMetric = sum (float ((ratio < 0.8 and adv < 0) or (ratio > 1.2 and adv > 0)) * a5) / denom

  Every function below is the composed term of the host operations, in the programs' order and
  with the programs' constants (f32 bit patterns), generic in the float instance.
-/
import Idealize.ShloMosaic.PureOps

noncomputable section

namespace Cert.Tail

open Idealize.ShloMosaic

/-- [4,1024]: one entry per (sequence, token). -/
abbrev S4x1024 : Shape := ⟨2, ![4, 1024]⟩
/-- [4]: one entry per sequence. -/
abbrev S4 : Shape := ⟨1, ![4]⟩
/-- [4,1]: one entry per sequence, as a column. -/
abbrev S4x1 : Shape := ⟨2, ![4, 1]⟩
/-- A scalar. -/
abbrev S_ : Shape := ⟨0, ![]⟩

/-- The side conditions of the tail's broadcasts and sums, over the literal shapes. -/
structure Facts : Prop where
  bcast_S_S4x1024 : S_.BroadcastsInDim S4x1024 (![] : Fin 0 → Fin S4x1024.rank)
  bcast_S4_S4x1_0 : S4.BroadcastsInDim S4x1 (![0] : Fin 1 → Fin S4x1.rank)
  bcast_S4x1_S4x1024_0_1 : S4x1.BroadcastsInDim S4x1024 (![0, 1] : Fin 2 → Fin S4x1024.rank)
  bcast_S_S4x1 : S_.BroadcastsInDim S4x1 (![] : Fin 0 → Fin S4x1.rank)
  reducesTo_S4x1024_S_d0_1 : S4x1024.ReducesTo [0, 1] S_
  h_S_ : 0 < S_.numel

variable {F : FTy → Type} [FloatOps F]

/-- A scalar constant at every (sequence, token). -/
def splat (hf : Facts) (b : BitVec FTy.f32.bits) : FVec F S4x1024 .f32 :=
  broadcastInDim S4x1024 ![] hf.bcast_S_S4x1024 (constant (F := F) S_ .f32 b)

/-- A scalar constant at every sequence, as a column. -/
def splatCol (hf : Facts) (b : BitVec FTy.f32.bits) : FVec F S4x1 .f32 :=
  broadcastInDim S4x1 ![] hf.bcast_S_S4x1 (constant (F := F) S_ .f32 b)

/-- exp (p - p): the importance ratio of the current model against itself. -/
def ratio (p : FVec F S4x1024 .f32) : FVec F S4x1024 .f32 :=
  Host.exp (F := F) (subf p p)

/-- The ratio clipped to [0.8, 1.2]: min 1.2 (max 0.8 ratio), each bound converted f32-to-f32 and
    broadcast. -/
def clipped (hf : Facts) (p : FVec F S4x1024 .f32) : FVec F S4x1024 .f32 :=
  minimumf
    (broadcastInDim S4x1024 ![] hf.bcast_S_S4x1024 (id (constant (F := F) S_ .f32 0x3F99999A#32)))
    (maximumf
      (broadcastInDim S4x1024 ![] hf.bcast_S_S4x1024 (id (constant (F := F) S_ .f32 0x3F4CCCCD#32)))
      (ratio p))

/-- The advantages as a column [4,1]. -/
def advCol (hf : Facts) (a4 : FVec F S4 .f32) : FVec F S4x1 .f32 :=
  broadcastInDim S4x1 ![0] hf.bcast_S4_S4x1_0 a4

/-- The advantages at every token of their sequence. -/
def adv (hf : Facts) (a4 : FVec F S4 .f32) : FVec F S4x1024 .f32 :=
  broadcastInDim S4x1024 ![0, 1] hf.bcast_S4x1_S4x1024_0_1 (advCol hf a4)

/-- -(min (ratio * adv) (clipped * adv)): the clipped surrogate objective, negated. -/
def surrogate (hf : Facts) (p : FVec F S4x1024 .f32) (a4 : FVec F S4 .f32) : FVec F S4x1024 .f32 :=
  Host.negf (F := F) (minimumf (mulf (ratio p) (adv hf a4)) (mulf (clipped hf p) (adv hf a4)))

/-- q - p. -/
def logRatio (p q : FVec F S4x1024 .f32) : FVec F S4x1024 .f32 :=
  subf q p

/-- (exp d - d) - 1 at d = q - p: the per-token estimate of the divergence. -/
def kl (hf : Facts) (p q : FVec F S4x1024 .f32) : FVec F S4x1024 .f32 :=
  subf (subf (Host.exp (F := F) (logRatio p q)) (logRatio p q)) (splat hf 0x3F800000#32)

/-- surrogate + 0.1 * kl. -/
def perToken (hf : Facts) (p q : FVec F S4x1024 .f32) (a4 : FVec F S4 .f32) : FVec F S4x1024 .f32 :=
  addf (surrogate hf p a4) (mulf (splat hf 0x3DCCCCCD#32) (kl hf p q))

/-- The sum over every (sequence, token), from 0. -/
def total (hf : Facts) (x : FVec F S4x1024 .f32) : FVec F S_ .f32 :=
  Host.reduceAdd (F := F) x (constant (F := F) S_ .f32 0x00000000#32) hf.reducesTo_S4x1024_S_d0_1 hf.h_S_

/-- max (sum a5) 1: the number of unmasked tokens, at least one. -/
def denom (hf : Facts) (a5 : FVec F S4x1024 .f32) : FVec F S_ .f32 :=
  maximumf (total hf a5) (constant (F := F) S_ .f32 0x3F800000#32)

/-- (ratio < 0.8 and adv < 0) or (ratio > 1.2 and adv > 0), as 0 / 1: where the clip is active. -/
def clipMask (hf : Facts) (p : FVec F S4x1024 .f32) (a4 : FVec F S4 .f32) : IVec S4x1024 1 :=
  ori
    (andi (cmpf (F := F) .olt (ratio p) (splat hf 0x3F4CCCCD#32))
      (broadcastInDim S4x1024 ![0, 1] hf.bcast_S4x1_S4x1024_0_1
        (cmpf (F := F) .olt (advCol hf a4) (splatCol hf 0x00000000#32))))
    (andi (cmpf (F := F) .ogt (ratio p) (splat hf 0x3F99999A#32))
      (broadcastInDim S4x1024 ![0, 1] hf.bcast_S4x1_S4x1024_0_1
        (cmpf (F := F) .ogt (advCol hf a4) (splatCol hf 0x00000000#32))))

/-- sum ((surrogate + 0.1 * kl) * a5) / max (sum a5) 1. -/
def loss (hf : Facts) (p q : FVec F S4x1024 .f32) (a4 : FVec F S4 .f32) (a5 : FVec F S4x1024 .f32) :
    FVec F S_ .f32 :=
  Host.divf (F := F) (total hf (mulf (perToken hf p q a4) a5)) (denom hf a5)

/-- sum (kl * a5) / max (sum a5) 1. The advantages do not enter. -/
def klMetric (hf : Facts) (p q : FVec F S4x1024 .f32) (a4 : FVec F S4 .f32) (a5 : FVec F S4x1024 .f32) :
    FVec F S_ .f32 :=
  Host.divf (F := F) (total hf (mulf (kl hf p q) a5)) (denom hf a5)

/-- sum (float clipMask * a5) / max (sum a5) 1. The reference model's log-probabilities do not enter. -/
def clipMetric (hf : Facts) (p q : FVec F S4x1024 .f32) (a4 : FVec F S4 .f32) (a5 : FVec F S4x1024 .f32) :
    FVec F S_ .f32 :=
  Host.divf (F := F) (total hf (mulf (uitofp (F := F) .f32 (clipMask hf p a4)) a5)) (denom hf a5)

end Cert.Tail

end
-- ==== Proof.KTail.lean ====
/-
  The kernel program's host operations after its region, read as the shared tail.

  The region leaves two [4096,1] arrays, the per-token log-probabilities of the current model and of
  the reference model, one row per (sequence, token) in row-major order. Of the 63 host operations
  that follow, the first two reshape both to [4,1024] and the other 61 compute, from those two
  arrays, the advantages and the attention mask, the three scalars of Cert.Tail: from ANY contents W
  of the buffers before those operations, the three result buffers hold Cert.Tail.loss,
  Cert.Tail.klMetric and Cert.Tail.clipMetric of the two reshaped arrays, W's advantages and W's mask.
-/
import proofs.«407823_j13554916786396_3_alg».proof.Proof.Gen.KernelIdeal.Launch
import proofs.«407823_j13554916786396_3_alg».proof.Proof.Tail
import Idealize.ShloMosaic.Lib.StableHlo.Run

noncomputable section

namespace Cert.KernelIdeal.KTail

open Idealize.ShloMosaic Idealize.ShloMosaic.TcCoe Idealize.ShloMosaic.StableHlo Idealize.SL.Sem
open Cert.KernelIdeal Cert.KernelIdeal.Gen

variable {F : FTy → Type} [FloatOps F]

/-- The tail's side conditions, from the kernel program's own. -/
theorem kf : Cert.Tail.Facts :=
  ⟨bcast_S_S4x1024, bcast_S4_S4x1_0, bcast_S4x1_S4x1024_0_1, bcast_S_S4x1, reducesTo_S4x1024_S_d0_1, h_S_⟩

/-- The current model's log-probabilities as the tail takes them: the region's first result, [4096,1],
    as [4,1024]. -/
abbrev P (W : Valuation τ sig (Elt F)) : FVec F Cert.Tail.S4x1024 .f32 :=
  shapeCast S4x1024 (W (Proc.devRef .tc main_v8_0) : FVec F S4096x1 .f32) shapeCasts_S4096x1_S4x1024

/-- The reference model's log-probabilities as the tail takes them: the region's second result,
    [4096,1], as [4,1024]. -/
abbrev Q (W : Valuation τ sig (Elt F)) : FVec F Cert.Tail.S4x1024 .f32 :=
  shapeCast S4x1024 (W (Proc.devRef .tc main_v8_1) : FVec F S4096x1 .f32) shapeCasts_S4096x1_S4x1024

/-- The advantages, [4]. -/
abbrev A4 (W : Valuation τ sig (Elt F)) : FVec F Cert.Tail.S4 .f32 := W (Proc.devRef .tc main_arg4)

/-- The attention mask, [4,1024]. -/
abbrev A5 (W : Valuation τ sig (Elt F)) : FVec F Cert.Tail.S4x1024 .f32 := W (Proc.devRef .tc main_arg5)

/-- The first result of the program: the loss. -/
theorem after_main_v33 (W : Valuation τ sig (Elt F)) :
    StableHlo.after (List.flatten [hostOps1, hostOps1_1, hostOps1_2]) W (Proc.devRef .tc main_v33)
      = Cert.Tail.loss kf (P W) (Q W) (A4 W) (A5 W) := by
  simp only [hostOps1, hostOps1_1, hostOps1_2, List.flatten_cons, List.flatten_nil, List.append_nil, List.cons_append,
    List.nil_append]
  after_results_simp
  rfl

/-- The second result of the program: the divergence metric. -/
theorem after_main_v36 (W : Valuation τ sig (Elt F)) :
    StableHlo.after (List.flatten [hostOps1, hostOps1_1, hostOps1_2]) W (Proc.devRef .tc main_v36)
      = Cert.Tail.klMetric kf (P W) (Q W) (A4 W) (A5 W) := by
  simp only [hostOps1, hostOps1_1, hostOps1_2, List.flatten_cons, List.flatten_nil, List.append_nil, List.cons_append,
    List.nil_append]
  after_results_simp
  rfl

/-- The third result of the program: the fraction of clipped tokens. -/
theorem after_main_v53 (W : Valuation τ sig (Elt F)) :
    StableHlo.after (List.flatten [hostOps1, hostOps1_1, hostOps1_2]) W (Proc.devRef .tc main_v53)
      = Cert.Tail.clipMetric kf (P W) (Q W) (A4 W) (A5 W) := by
  simp only [hostOps1, hostOps1_1, hostOps1_2, List.flatten_cons, List.flatten_nil, List.append_nil, List.cons_append,
    List.nil_append]
  after_results_simp
  rfl

end Cert.KernelIdeal.KTail

end
-- ==== Proof.KRun.lean ====
/-
  The kernel's run, read: its three results are the shared tail applied to the two arrays of per-token
  log-probabilities, the advantages and the mask, and its arguments end as launched.

  After the region the two result arrays hold the tokens' log-probabilities (the write-backs cover them); the host
  operations after the region see those arrays and the untouched arguments, and what they compute is the tail.
-/
import proofs.«407823_j13554916786396_3_alg».proof.Proof.PatchKI.Frame
import proofs.«407823_j13554916786396_3_alg».proof.Proof.KVal
import proofs.«407823_j13554916786396_3_alg».proof.Proof.KTail

set_option maxRecDepth 16384

noncomputable section

namespace Cert.KernelIdeal.KRun

open Idealize.ShloMosaic Idealize.ShloMosaic.TcCoe Idealize.SL.Sem
open Idealize.ShloMosaic.Pipeline (Dat)
open Cert.KernelIdeal Cert.KernelIdeal.Gen Cert.KernelIdeal.Inv Cert.KernelIdeal.KVal

variable (m : (ℓ : Loc nD τ sig) → Buf (Elt Ideal) ℓ) (ρ : Dev nD → PrngReg)

/-- The two arrays of per-token log-probabilities, [4,1024]. -/
abbrev Pk (c : Dev nD) : FVec Ideal Cert.Tail.S4x1024 .f32 := shapeCast S4x1024 (G5 m c) shapeCasts_S4096x1_S4x1024
abbrev Qk (c : Dev nD) : FVec Ideal Cert.Tail.S4x1024 .f32 := shapeCast S4x1024 (G6 m c) shapeCasts_S4096x1_S4x1024

/-- The three results as the tail of the log-probabilities, the advantages and the mask. -/
abbrev R0 (c : Dev nD) : FVec Ideal Cert.Tail.S_ .f32 :=
  Cert.Tail.loss Cert.KernelIdeal.KTail.kf (Pk m c) (Qk m c) (m ((c : Thread nD τ).loc main_arg4)) (m ((c : Thread nD τ).loc main_arg5))
abbrev R1 (c : Dev nD) : FVec Ideal Cert.Tail.S_ .f32 :=
  Cert.Tail.klMetric Cert.KernelIdeal.KTail.kf (Pk m c) (Qk m c) (m ((c : Thread nD τ).loc main_arg4)) (m ((c : Thread nD τ).loc main_arg5))
abbrev R2 (c : Dev nD) : FVec Ideal Cert.Tail.S_ .f32 :=
  Cert.Tail.clipMetric Cert.KernelIdeal.KTail.kf (Pk m c) (Qk m c) (m ((c : Thread nD τ).loc main_arg4)) (m ((c : Thread nD τ).loc main_arg5))

section
variable (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n)
include h0 h1 h2 h3 h6

/-- What the host operations after the region see: the two result arrays at the tokens' log-probabilities. -/
theorem seen5 : Pipeline.withArrays spec0 c (V0 m c) (fun w => (dats m 0 c).arrAt w cfg0.N) (Proc.devRef .tc main_v8_0) = G5 m c :=
  (Pipeline.withArrays_arr spec0 launch0.win.arr_inj c (V0 m c) (fun w => (dats m 0 c).arrAt w cfg0.N) 5).trans
    (final5 m c h0 h1 h2 h3 h6)

theorem seen6 : Pipeline.withArrays spec0 c (V0 m c) (fun w => (dats m 0 c).arrAt w cfg0.N) (Proc.devRef .tc main_v8_1) = G6 m c :=
  (Pipeline.withArrays_arr spec0 launch0.win.arr_inj c (V0 m c) (fun w => (dats m 0 c).arrAt w cfg0.N) 6).trans
    (final6 m c h0 h1 h2 h3 h6)

end

/-- … and the advantages and the mask as launched (no window stages them, nothing before the region writes them). -/
theorem seen_arg4 (c : Dev nD) :
    Cert.KernelIdeal.KTail.A4 (Pipeline.withArrays spec0 c (V0 m c) (fun w => (dats m 0 c).arrAt w cfg0.N))
      = m ((c : Thread nD τ).loc main_arg4) :=
  (Pipeline.withArrays_of_ne _ c (V0 m c) _ main_arg4 (by exact (by decide : ∀ w, Pipeline.arrRef spec0 w ≠ main_arg4))).trans
    (V_main_arg4 m c)

theorem seen_arg5 (c : Dev nD) :
    Cert.KernelIdeal.KTail.A5 (Pipeline.withArrays spec0 c (V0 m c) (fun w => (dats m 0 c).arrAt w cfg0.N))
      = m ((c : Thread nD τ).loc main_arg5) :=
  (Pipeline.withArrays_of_ne _ c (V0 m c) _ main_arg5 (by exact (by decide : ∀ w, Pipeline.arrRef spec0 w ≠ main_arg5))).trans
    (V_main_arg5 m c)

section
variable (c : Dev nD)
    (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal))
    (h6 : ∀ i, ∃ n : ℕ, n < 32000 ∧ A6 m c i = BitVec.ofNat 32 n)
include h0 h1 h2 h3 h6

theorem res0 : Pipeline.afterTail₀ cfgs (dats m) 0 (V0 m) [hostOps1, hostOps1_1, hostOps1_2] c main_v33 = R0 m c := by
  unfold Pipeline.afterTail₀
  refine (Cert.KernelIdeal.KTail.after_main_v33 _).trans ?_
  show Cert.Tail.loss _ (shapeCast S4x1024 _ shapeCasts_S4096x1_S4x1024) (shapeCast S4x1024 _ shapeCasts_S4096x1_S4x1024) _ _ = _
  rw [seen5 m c h0 h1 h2 h3 h6, seen6 m c h0 h1 h2 h3 h6, seen_arg4 m c, seen_arg5 m c]

theorem res1 : Pipeline.afterTail₀ cfgs (dats m) 0 (V0 m) [hostOps1, hostOps1_1, hostOps1_2] c main_v36 = R1 m c := by
  unfold Pipeline.afterTail₀
  refine (Cert.KernelIdeal.KTail.after_main_v36 _).trans ?_
  show Cert.Tail.klMetric _ (shapeCast S4x1024 _ shapeCasts_S4096x1_S4x1024) (shapeCast S4x1024 _ shapeCasts_S4096x1_S4x1024) _ _ = _
  rw [seen5 m c h0 h1 h2 h3 h6, seen6 m c h0 h1 h2 h3 h6, seen_arg4 m c, seen_arg5 m c]

theorem res2 : Pipeline.afterTail₀ cfgs (dats m) 0 (V0 m) [hostOps1, hostOps1_1, hostOps1_2] c main_v53 = R2 m c := by
  unfold Pipeline.afterTail₀
  refine (Cert.KernelIdeal.KTail.after_main_v53 _).trans ?_
  show Cert.Tail.clipMetric _ (shapeCast S4x1024 _ shapeCasts_S4096x1_S4x1024) (shapeCast S4x1024 _ shapeCasts_S4096x1_S4x1024) _ _ = _
  rw [seen5 m c h0 h1 h2 h3 h6, seen6 m c h0 h1 h2 h3 h6, seen_arg4 m c, seen_arg5 m c]

end

/-- The run: every weakly fair execution ends with the three results at the tail and the arguments as launched. -/
theorem run
    (hyp : ∀ c : Dev nD, (∀ i, ∃ r : ℝ, A0 m c i = (r : EReal)) ∧ (∀ i, ∃ r : ℝ, A1 m c i = (r : EReal))
      ∧ (∀ i, ∃ r : ℝ, A2 m c i = (r : EReal)) ∧ (∀ i, ∃ r : ℝ, A3 m c i = (r : EReal))
      ∧ (∀ i, ∃ n : ℕ, n < 32000 ∧ A6 m c i = BitVec.ofNat 32 n)) :
    θ_run defs (onTc (τ := τ) (main (F := Ideal))) ⟨m, fun _ => 0, ρ⟩ (fun r => ∀ c : Dev nD,
      r.2.mem ((c.tc : Thread nD τ).loc main_v33) = R0 m c
      ∧ r.2.mem ((c.tc : Thread nD τ).loc main_v36) = R1 m c
      ∧ r.2.mem ((c.tc : Thread nD τ).loc main_v53) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v33 (Pipeline.mem_restRefs_of main_v33 (by decide) (by decide))).trans
        (res0 m c (hyp c).1 (hyp c).2.1 (hyp c).2.2.1 (hyp c).2.2.2.1 (hyp c).2.2.2.2),
      ((h c).2 main_v36 (Pipeline.mem_restRefs_of main_v36 (by decide) (by decide))).trans
        (res1 m c (hyp c).1 (hyp c).2.1 (hyp c).2.2.1 (hyp c).2.2.2.1 (hyp c).2.2.2.2),
      ((h c).2 main_v53 (Pipeline.mem_restRefs_of main_v53 (by decide) (by decide))).trans
        (res2 m c (hyp c).1 (hyp c).2.1 (hyp c).2.2.1 (hyp c).2.2.2.1 (hyp c).2.2.2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.LibHostRows.lean ====
/-
  Host operations along the rows of a two-axis array, read at an index, on the extended reals.

  Three readings, for any extents: a gather that picks columns of an [n, c] array by a table of k column numbers
  (result (r, q) is the operand at row r and the q-th table entry, the entry read as a signed integer and clamped
  into the columns [0, c - 1], as the gather clamps every start index); the maximum of each row from an initial
  value; and the sum of each row added to an initial value. One fact about a bit pattern goes with them: the
  pattern of negative infinity denotes the bottom of the extended reals.
-/
import Idealize.ShloMosaic.PureOps.Ideal
import Idealize.ShloMosaic.PureOps.Ideal.Laws
import Idealize.ShloMosaic.Lib.ValueIdx

noncomputable section

open scoped BigOperators

namespace Cert.LibHostRows

open Idealize.ShloMosaic Idealize.ShloMosaic.ValueIdx

/-! ## Picking columns by a table -/

section Gather
variable {α : Type}

/-- The dimension numbers of a gather that keeps the operand's rows whole and picks one column per table entry:
    the result's axis 0 is the operand's axis 0, the operand's axis 1 is collapsed and indexed by the table, whose
    axis 1 holds the one-component index. -/
abbrev colsDims (n c k : Nat)
    (wf : GatherDims.WF ⟨2, ![n, c]⟩ ⟨2, ![k, 1]⟩ ⟨2, ![n, k]⟩ [0] [1] [] [1] [] 1 ![n, 1]) :
    GatherDims ⟨2, ![n, c]⟩ ⟨2, ![k, 1]⟩ ⟨2, ![n, k]⟩ where
  offsetDims := [0]
  collapsedSliceDims := [1]
  operandBatchingDims := []
  startIndicesBatchingDims := []
  startIndexMap := [1]
  indexVectorDim := 1
  sliceSizes := ![n, 1]
  wf := wf

/-- The gather read at (r, q): the operand at row r and column the q-th table entry, clamped into [0, c - 1]. -/
theorem gather_cols_apply {n c k w : Nat} (hc : 0 < c)
    (wf : GatherDims.WF ⟨2, ![n, c]⟩ ⟨2, ![k, 1]⟩ ⟨2, ![n, k]⟩ [0] [1] [] [1] [] 1 ![n, 1])
    (x : (⟨2, ![n, c]⟩ : Shape).Idx → α) (idx : IVec ⟨2, ![k, 1]⟩ w) (r : Fin n) (q : Fin k) :
    Host.gather (colsDims n c k wf) x idx (ix2 r q)
      = x (ix2 r ⟨min (idx (ix2 q (0 : Fin 1))).toInt.toNat (c - 1), by omega⟩) := by
  unfold Host.gather
  congr 1
  funext a
  refine Fin.ext ?_
  match a with
  | ⟨0, _⟩ =>
    show (colsDims n c k wf).start (ix2 r q) idx 0 + (colsDims n c k wf).batchCoord (ix2 r q) 0
        + (colsDims n c k wf).offCoord (ix2 r q) 0 = r.val
    rw [GatherDims.batchCoord_eq_zero _ _ _ List.not_mem_nil]
    unfold GatherDims.start
    rw [dif_neg (show (0 : Fin 2) ∉ (colsDims n c k wf).startIndexMap from
      show (0 : Fin 2) ∉ ([1] : List (Fin 2)) from by decide)]
    unfold GatherDims.offCoord
    rw [dif_pos (show (0 : Fin 2) ∈ (colsDims n c k wf).sKept from (GatherDims.mem_sKept _ _).mpr
      ⟨show (0 : Fin 2) ∉ ([1] : List (Fin 2)) from by decide, List.not_mem_nil⟩)]
    simp only [Nat.zero_add, Nat.add_zero]
    rfl
  | ⟨1, _⟩ =>
    show (colsDims n c k wf).start (ix2 r q) idx 1 + (colsDims n c k wf).batchCoord (ix2 r q) 1
        + (colsDims n c k wf).offCoord (ix2 r q) 1 = min (idx (ix2 q (0 : Fin 1))).toInt.toNat (c - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims n c k wf).startIndexMap from List.mem_singleton.mpr rfl)]
    have hsi : (colsDims n c k wf).siIdx (ix2 r q) ⟨List.idxOf (1 : Fin 2) (colsDims n c k wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

end Gather

/-! ## A row's maximum and a row's sum on the host -/

/-- The host's maximum-reduction of an [m, n] array over axis 1 reads, at p, the maximum from the initial value
    over k of the array at (p, k). -/
theorem hostReduceMax_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  show (Finset.univ : Finset (Fin n)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

/-- The host's sum of an [m, n] array over axis 1 reads, at p, the initial value plus the sum over k of the array
    at (p, k). -/
theorem hostReduceAdd_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (init (Shape.Idx.first hu) + ·) (Finset.sum_congr rfl fun k _ => ?_)
  refine congrArg x (funext fun e => Fin.ext ?_)
  match e with
  | ⟨0, _⟩ => rfl
  | ⟨1, _⟩ => rfl

/-! ## Negative infinity -/

/-- The single-precision pattern of negative infinity denotes the bottom of the extended reals. -/
theorem ofBits_neg_inf_f32 : Ideal.ofBits .f32 0xFF800000#32 = ⊥ := by simp [Ideal.ofBits, Ideal.ieee]

end Cert.LibHostRows

end
-- ==== Proof.LibGatherLast.lean ====
/-
  A gather that picks columns along the LAST axis of a three-axis array, read at an index.

  The operand is a [b, r, n] array, the start indices a [k, 1] table of column numbers. The result's first two
  axes are the operand's first two, whole; the operand's last axis is collapsed and indexed by the table. So
  the result at (u, p, q) is the operand at (u, p, the q-th table entry), the entry read as a signed integer and
  clamped into the columns [0, n - 1], as a gather clamps every start index. Stated for any extents.
-/
import Idealize.ShloMosaic.PureOps.Ideal
import Idealize.ShloMosaic.Lib.ValueIdx

noncomputable section

namespace Cert.LibGatherLast

open Idealize.ShloMosaic Idealize.ShloMosaic.ValueIdx

variable {α : Type}

/-- The dimension numbers of that gather: the result's axes 0 and 1 are the operand's, the operand's axis 2 is
    collapsed and indexed by the table, whose axis 1 holds the one-component index. -/
abbrev lastDims (b r n k : Nat)
    (wf : GatherDims.WF ⟨3, ![b, r, n]⟩ ⟨2, ![k, 1]⟩ ⟨3, ![b, r, k]⟩ [0, 1] [2] [] [2] [] 1 ![b, r, 1]) :
    GatherDims ⟨3, ![b, r, n]⟩ ⟨2, ![k, 1]⟩ ⟨3, ![b, r, k]⟩ where
  offsetDims := [0, 1]
  collapsedSliceDims := [2]
  operandBatchingDims := []
  startIndicesBatchingDims := []
  startIndexMap := [2]
  indexVectorDim := 1
  sliceSizes := ![b, r, 1]
  wf := wf

/-- The gather read at (u, p, q): the operand at (u, p) and the column the q-th table entry names, clamped into
    [0, n - 1]. -/
theorem gather_last_apply {b r n k w : Nat} (hn : 0 < n)
    (wf : GatherDims.WF ⟨3, ![b, r, n]⟩ ⟨2, ![k, 1]⟩ ⟨3, ![b, r, k]⟩ [0, 1] [2] [] [2] [] 1 ![b, r, 1])
    (x : (⟨3, ![b, r, n]⟩ : Shape).Idx → α) (idx : IVec ⟨2, ![k, 1]⟩ w) (u : Fin b) (p : Fin r) (q : Fin k) :
    Host.gather (lastDims b r n k wf) x idx (ix3 u p q)
      = x (ix3 u p ⟨min (idx (ix2 q (0 : Fin 1))).toInt.toNat (n - 1), by omega⟩) := by
  unfold Host.gather
  congr 1
  funext a
  refine Fin.ext ?_
  match a with
  | ⟨0, _⟩ =>
    show (lastDims b r n k wf).start (ix3 u p q) idx 0 + (lastDims b r n k wf).batchCoord (ix3 u p q) 0
        + (lastDims b r n k wf).offCoord (ix3 u p q) 0 = u.val
    rw [GatherDims.batchCoord_eq_zero _ _ _ List.not_mem_nil]
    unfold GatherDims.start
    rw [dif_neg (show (0 : Fin 3) ∉ (lastDims b r n k wf).startIndexMap from
      show (0 : Fin 3) ∉ ([2] : List (Fin 3)) from by decide)]
    unfold GatherDims.offCoord
    rw [dif_pos (show (0 : Fin 3) ∈ (lastDims b r n k wf).sKept from (GatherDims.mem_sKept _ _).mpr
      ⟨show (0 : Fin 3) ∉ ([2] : List (Fin 3)) from by decide, List.not_mem_nil⟩)]
    simp only [Nat.zero_add, Nat.add_zero]
    rfl
  | ⟨1, _⟩ =>
    show (lastDims b r n k wf).start (ix3 u p q) idx 1 + (lastDims b r n k wf).batchCoord (ix3 u p q) 1
        + (lastDims b r n k wf).offCoord (ix3 u p q) 1 = p.val
    rw [GatherDims.batchCoord_eq_zero _ _ _ List.not_mem_nil]
    unfold GatherDims.start
    rw [dif_neg (show (1 : Fin 3) ∉ (lastDims b r n k wf).startIndexMap from
      show (1 : Fin 3) ∉ ([2] : List (Fin 3)) from by decide)]
    unfold GatherDims.offCoord
    rw [dif_pos (show (1 : Fin 3) ∈ (lastDims b r n k wf).sKept from (GatherDims.mem_sKept _ _).mpr
      ⟨show (1 : Fin 3) ∉ ([2] : List (Fin 3)) from by decide, List.not_mem_nil⟩)]
    simp only [Nat.zero_add, Nat.add_zero]
    rfl
  | ⟨2, _⟩ =>
    show (lastDims b r n k wf).start (ix3 u p q) idx 2 + (lastDims b r n k wf).batchCoord (ix3 u p q) 2
        + (lastDims b r n k wf).offCoord (ix3 u p q) 2 = min (idx (ix2 q (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims b r n k wf).startIndexMap from List.mem_singleton.mpr rfl)]
    have hsi : (lastDims b r n k wf).siIdx (ix3 u p q) ⟨List.idxOf (2 : Fin 3) (lastDims b r n k wf).startIndexMap,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi]
    rfl

end Cert.LibGatherLast

end
-- ==== Proof.RefVal.lean ====
/-
  The reference's two per-token log-probabilities read at a token.

  For token (b, t) the reference forms the 32000 logits z_v = sum_k x[b,t,k] * w[v,k] (divided by the temperature 1),
  takes their log-softmax along the vocabulary and gathers it at the token's selected id. When that id is the word of
  a number n below 32000 the gather reads column n (the wrap of negative ids and the out-of-range fill do not fire),
  so the value is the log-softmax of the token's row of logits at column n.
-/
import proofs.«407823_j13554916786396_3_alg».proof.Proof.PatchRI.Run
import proofs.«407823_j13554916786396_3_alg».proof.Proof.PatchRI.Read
import proofs.«407823_j13554916786396_3_alg».proof.Proof.Spec
import proofs.«407823_j13554916786396_3_alg».proof.Proof.LibBatch
import proofs.«407823_j13554916786396_3_alg».proof.Proof.LibHostRows
import proofs.«407823_j13554916786396_3_alg».proof.Proof.LibGatherLast
import Idealize.ShloMosaic.Lib.StableHlo.Predicate
import Idealize.ShloMosaic.Lib.IdealHost

noncomputable section

open scoped BigOperators

namespace Cert.ReferenceIdeal.RefVal

open Idealize.ShloMosaic Idealize.ShloMosaic.ValueIdx Cert.ReferenceIdeal Cert.ReferenceIdeal.Gen Cert.ReferenceIdeal.Read

/-! ## Words: an id below 32000 is not negative, is its own wrap, and is inside the gather's range -/

/-- The word of a number below 32000 reads that number as a signed integer. -/
private theorem toInt_id {n : ℕ} (hn : n < 32000) : (BitVec.ofNat 32 n).toInt = (n : ℤ) :=
  StableHlo.Predicate.toInt_ofNat_small n (by omega)

/-- ... and as an unsigned one. -/
private theorem toNat_id {n : ℕ} (hn : n < 32000) : (BitVec.ofNat 32 n).toNat = n := by
  rw [BitVec.toNat_ofNat]; exact Nat.mod_eq_of_lt (by omega)

/-- The wrap of a negative index does not fire: the select keeps the id. -/
private theorem wrap_id {n : ℕ} (hn : n < 32000) :
    Scalar.select (IntOp.cmpi .slt (BitVec.ofNat 32 n) 0#32) (IntOp.addi (BitVec.ofNat 32 n) 32000#32)
      (BitVec.ofNat 32 n) = BitVec.ofNat 32 n := by
  have h0 : (0#32 : BitVec 32).toInt = 0 := by decide
  have hlt : IntOp.cmpi .slt (BitVec.ofNat 32 n) 0#32 = 0#1 := by
    show BitVec.ofBool ((BitVec.ofNat 32 n).slt 0#32) = 0#1
    have : (BitVec.ofNat 32 n).slt 0#32 = false := by
      simp only [BitVec.slt, toInt_id hn, h0, decide_eq_false_iff_not]; omega
    rw [this]; rfl
  rw [hlt, select_zero]

/-- The range test 0 ≤ id ≤ 31999 holds. -/
private theorem in_range {n : ℕ} (hn : n < 32000) :
    IntOp.andi (IntOp.cmpi .sge (BitVec.ofNat 32 n) 0#32) (IntOp.cmpi .sle (BitVec.ofNat 32 n) 31999#32) = 1#1 := by
  have hw := toNat_id hn
  have h0 : (0#32 : BitVec 32).toNat = 0 := rfl
  have h1 : (31999#32 : BitVec 32).toNat = 31999 := rfl
  refine IntOp.andi_eq_one.2 ⟨?_, ?_⟩
  · exact (StableHlo.Predicate.sge_iff_toNat (by omega) (by omega)).2 (by omega)
  · exact (StableHlo.Predicate.sle_iff_toNat (by omega) (by omega)).2 (by omega)

/-- The gather's clamp of the id into [0, 31999] is the id. -/
private theorem clamp_id {n : ℕ} (hn : n < 32000) : min (BitVec.ofNat 32 n).toInt.toNat (32000 - 1) = n := by
  rw [toInt_id hn]; omega

/-! ## The temperature: dividing by the pattern of 1 -/

/-- Dividing by the pattern 0x3F800000, which denotes 1, changes nothing. -/
private theorem hostDivf_one (x : Ideal .f32) :
    FloatOps.hostDivf (F := Ideal) (φ := .f32) x (FloatOps.ofBits (F := Ideal) .f32 0x3F800000#32) = x := by
  rw [Ideal.hostDivf_def, Ideal.ofBits_def, Ideal.ofBits_one_f32, ← EReal.coe_one, Ideal.div_coe one_ne_zero, one_div,
    inv_one, EReal.coe_one, mul_one]

/-! ## A conjunction over a one-element axis -/

/-- A fold over the one coordinate of a one-element axis is that coordinate's value joined with the initial value. -/
private theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- The and-reduction over the last, one-element axis of a [B, R, 1, 1] array of bits reads, at (p, q, 0), the one bit
    there joined with the initial value. -/
private theorem reduce_andi_unit_apply {B R : ℕ} {u : Shape} (x : IVec ⟨4, ![B, R, 1, 1]⟩ 1) (init : u.Idx → BitVec 1)
    (h' : (⟨4, ![B, R, 1, 1]⟩ : Shape).ReducesTo [3] ⟨3, ![B, R, 1]⟩)
    (h : (⟨4, ![B, R, 1, 1]⟩ : Shape).Reduces [3] ⟨3, ![B, R, 1]⟩) (hu : 0 < u.numel) (p : Fin B) (q : Fin R) :
    Host.reduce IntOp.andi x init h' hu (ix3 p q (0 : Fin 1))
      = IntOp.andi (x (ix4 p q (0 : Fin 1) (0 : Fin 1))) (init (Shape.Idx.first hu)) := by
  rw [Host.reduce_eq_fold_single IntOp.andi x init h' h hu]
  show (Finset.univ : Finset (Fin 1)).fold IntOp.andi (init (Shape.Idx.first hu)) (x ∘ h.lift (ix3 p q (0 : Fin 1))) = _
  refine (fold_fin_one IntOp.andi _ _).trans ?_
  refine congrArg (fun i => IntOp.andi (x i) (init (Shape.Idx.first hu))) (funext fun e => Fin.ext ?_)
  match e with
  | ⟨0, _⟩ => rfl
  | ⟨1, _⟩ => rfl
  | ⟨2, _⟩ => rfl
  | ⟨3, _⟩ => rfl

/-! ## A gather along the last axis, the first two axes batched -/

section Gather
variable {α : Type}

/-- The dimension numbers of take_along_axis on the last axis of a [B, R, N] array by a [B, R, 1, 1] array of
    indices: the operand's first two axes are batching axes paired with the indices' first two, the last is collapsed
    and indexed, the indices' last axis holds the one-component index; the result is [B, R, 1]. -/
private abbrev alongLastDims (B R N : ℕ)
    (wf : GatherDims.WF ⟨3, ![B, R, N]⟩ ⟨4, ![B, R, 1, 1]⟩ ⟨3, ![B, R, 1]⟩ [] [2] [0, 1] [2] [0, 1] 3 ![1, 1, 1]) :
    GatherDims ⟨3, ![B, R, N]⟩ ⟨4, ![B, R, 1, 1]⟩ ⟨3, ![B, R, 1]⟩ where
  offsetDims := []
  collapsedSliceDims := [2]
  operandBatchingDims := [0, 1]
  startIndicesBatchingDims := [0, 1]
  startIndexMap := [2]
  indexVectorDim := 3
  sliceSizes := ![1, 1, 1]
  wf := wf

/-- That gather read at (p, q, 0): the operand at (p, q) and the column the index at (p, q, 0, 0) names, read as a
    signed integer and clamped into [0, N - 1]. -/
private theorem gather_alongLast_apply {B R N w : ℕ} (hN : 0 < N)
    (wf : GatherDims.WF ⟨3, ![B, R, N]⟩ ⟨4, ![B, R, 1, 1]⟩ ⟨3, ![B, R, 1]⟩ [] [2] [0, 1] [2] [0, 1] 3 ![1, 1, 1])
    (x : (⟨3, ![B, R, N]⟩ : Shape).Idx → α) (idx : IVec ⟨4, ![B, R, 1, 1]⟩ w) (p : Fin B) (q : Fin R) :
    Host.gather (alongLastDims B R N wf) x idx (ix3 p q (0 : Fin 1))
      = x (ix3 p q ⟨min (idx (ix4 p q (0 : Fin 1) (0 : Fin 1))).toInt.toNat (N - 1), by omega⟩) := by
  unfold Host.gather
  congr 1
  funext a
  refine Fin.ext ?_
  match a with
  | ⟨0, _⟩ =>
    show (alongLastDims B R N wf).start (ix3 p q (0 : Fin 1)) idx 0 + (alongLastDims B R N wf).batchCoord (ix3 p q (0 : Fin 1)) 0
        + (alongLastDims B R N wf).offCoord (ix3 p q (0 : Fin 1)) 0 = p.val
    rw [GatherDims.start_batching _ _ _ _ (show (0 : Fin 3) ∈ (alongLastDims B R N wf).operandBatchingDims from show (0 : Fin 3) ∈ ([0, 1] : List (Fin 3)) from by decide),
      GatherDims.offCoord_eq_zero _ _ _ (fun h => ((GatherDims.mem_sKept _ _).mp h).2 (show (0 : Fin 3) ∈ ([0, 1] : List (Fin 3)) from by decide))]
    simp only [Nat.zero_add, Nat.add_zero]
    unfold GatherDims.batchCoord
    rw [dif_pos (show (0 : Fin 3) ∈ (alongLastDims B R N wf).operandBatchingDims from show (0 : Fin 3) ∈ ([0, 1] : List (Fin 3)) from by decide)]
    rfl
  | ⟨1, _⟩ =>
    show (alongLastDims B R N wf).start (ix3 p q (0 : Fin 1)) idx 1 + (alongLastDims B R N wf).batchCoord (ix3 p q (0 : Fin 1)) 1
        + (alongLastDims B R N wf).offCoord (ix3 p q (0 : Fin 1)) 1 = q.val
    rw [GatherDims.start_batching _ _ _ _ (show (1 : Fin 3) ∈ (alongLastDims B R N wf).operandBatchingDims from show (1 : Fin 3) ∈ ([0, 1] : List (Fin 3)) from by decide),
      GatherDims.offCoord_eq_zero _ _ _ (fun h => ((GatherDims.mem_sKept _ _).mp h).2 (show (1 : Fin 3) ∈ ([0, 1] : List (Fin 3)) from by decide))]
    simp only [Nat.zero_add, Nat.add_zero]
    unfold GatherDims.batchCoord
    rw [dif_pos (show (1 : Fin 3) ∈ (alongLastDims B R N wf).operandBatchingDims from show (1 : Fin 3) ∈ ([0, 1] : List (Fin 3)) from by decide)]
    rfl
  | ⟨2, _⟩ =>
    show (alongLastDims B R N wf).start (ix3 p q (0 : Fin 1)) idx 2 + (alongLastDims B R N wf).batchCoord (ix3 p q (0 : Fin 1)) 2
        + (alongLastDims B R N wf).offCoord (ix3 p q (0 : Fin 1)) 2
        = min (idx (ix4 p q (0 : Fin 1) (0 : Fin 1))).toInt.toNat (N - 1)
    rw [GatherDims.batchCoord_eq_zero _ _ _ (show (2 : Fin 3) ∉ (alongLastDims B R N wf).operandBatchingDims from show (2 : Fin 3) ∉ ([0, 1] : List (Fin 3)) from by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (alongLastDims B R N wf).startIndexMap from List.mem_singleton.mpr rfl)]
    have hsi : (alongLastDims B R N wf).siIdx (ix3 p q (0 : Fin 1)) ⟨List.idxOf (2 : Fin 3) (alongLastDims B R N wf).startIndexMap,
        List.idxOf_lt_length_iff.2 (List.mem_singleton.mpr rfl)⟩ = ix4 p q (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

end Gather

/-! ## The stages of one call at a token

The arrays below are any hidden states, weights and ids; the first call reads (x0, x2), and the second call's
stages are the same operations on (x1, x3). -/

section Stages
variable (x0 : FVec Ideal S4x1024x2048 .f32) (x2 : FVec Ideal S32000x2048 .f32) (x6 : IVec S4x1024 32)
  (b : Fin 4) (t : Fin 1024)

/-- The logits: the sum of products over the hidden axis, the temperature 1 dividing nothing away. -/
private theorem logit_apply (v : Fin 32000) :
    val_main_v2 (F := Ideal) x0 x2 (ix3 b t v) = ∑ k : Fin 2048, x0 (ix3 b t k) * x2 (ix2 v k) := by
  rw [val_main_v2_apply, val_main_v1_apply, val_main_cst_apply, hostDivf_one, val_main_v0_apply]
  refine Finset.sum_congr rfl fun k _ => ?_
  have el : lidx_main_v0 (ix3 b t v) k = ix3 b t k :=
    funext fun a => Fin.ext (by match a with | ⟨0, _⟩ => rfl | ⟨1, _⟩ => rfl | ⟨2, _⟩ => rfl)
  have er : ridx_main_v0 (ix3 b t v) k = ix2 v k :=
    funext fun a => Fin.ext (by match a with | ⟨0, _⟩ => rfl | ⟨1, _⟩ => rfl)
  rw [el, er]

/-- The row's maximum: the reduction from minus infinity, joined once more with minus infinity. -/
private theorem rowMax_apply :
    val_main_call0_v2 (F := Ideal) x0 x2 (ix2 b t)
      = Cert.Spec.rowMax (fun v : Fin 32000 => val_main_v2 (F := Ideal) x0 x2 (ix3 b t v)) := by
  have hmax : val_main_call0_v0 (F := Ideal) x0 x2 (ix2 b t)
      = (Finset.univ : Finset (Fin 32000)).fold max (val_main_call0_cst (F := Ideal) (Shape.Idx.first h_S_))
          (fun k => val_main_v2 (F := Ideal) x0 x2 (ix3 b t k)) :=
    Cert.LibBatch.hostReduceMax_last3 (val_main_v2 (F := Ideal) x0 x2) (val_main_call0_cst (F := Ideal))
      reducesTo_S4x1024x32000_S4x1024_d2 (by decide) h_S_ b t
  rw [val_main_call0_v2_apply, val_main_call0_v1_apply, val_main_call0_cst_0_apply, hmax, val_main_call0_cst_apply]
  show max (Ideal.ofBits .f32 0xFF800000#32)
      ((Finset.univ : Finset (Fin 32000)).fold max (Ideal.ofBits .f32 0xFF800000#32)
        (fun k => val_main_v2 (F := Ideal) x0 x2 (ix3 b t k))) = _
  rw [Cert.LibHostRows.ofBits_neg_inf_f32, max_bot_left]
  rfl

/-- The shifted logit. -/
private theorem shift_apply (v : Fin 32000) :
    val_main_call0_v5 (F := Ideal) x0 x2 (ix3 b t v)
      = val_main_v2 (F := Ideal) x0 x2 (ix3 b t v) - val_main_call0_v2 (F := Ideal) x0 x2 (ix2 b t) := by
  rw [val_main_call0_v5_apply, val_main_call0_v4_apply, val_main_call0_v3_apply]
  have e : idx_main_call0_v3 (idx_main_call0_v4 (ix3 b t v)) = ix2 b t :=
    funext fun a => Fin.ext (by match a with | ⟨0, _⟩ => rfl | ⟨1, _⟩ => rfl)
  rw [e]
  rfl

/-- The sum of the exponentials of the shifted row, from the initial value 0. -/
private theorem sumExp_apply :
    val_main_call0_v7 (F := Ideal) x0 x2 (ix2 b t)
      = ∑ v : Fin 32000, Ideal.exp (val_main_call0_v5 (F := Ideal) x0 x2 (ix3 b t v)) := by
  rw [val_main_call0_v7_apply, val_main_call0_cst_1_apply, Ideal.ofBits_def, Ideal.ofBits_zero_f32, zero_add]
  refine Finset.sum_congr rfl fun v _ => ?_
  have e : idx_main_call0_v7 (ix2 b t) v = ix3 b t v :=
    funext fun a => Fin.ext (by match a with | ⟨0, _⟩ => rfl | ⟨1, _⟩ => rfl | ⟨2, _⟩ => rfl)
  rw [e, val_main_call0_v6_apply, Ideal.hostUnary_exp_def]

/-- The log-softmax at a column: the shifted logit minus the log of that sum. -/
private theorem lsm_apply (v : Fin 32000) :
    val_main_v3 (F := Ideal) x0 x2 (ix3 b t v)
      = val_main_call0_v5 (F := Ideal) x0 x2 (ix3 b t v) - Ideal.log (val_main_call0_v7 (F := Ideal) x0 x2 (ix2 b t)) := by
  rw [val_main_v3_apply, val_main_call0_v10_apply, val_main_call0_v9_apply, val_main_call0_v8_apply,
    Ideal.hostUnary_log_def]
  have e : idx_main_call0_v8 (idx_main_call0_v10 (ix3 b t v)) = ix2 b t :=
    funext fun a => Fin.ext (by match a with | ⟨0, _⟩ => rfl | ⟨1, _⟩ => rfl)
  rw [e]
  rfl

/-- The log-softmax of the token's row of logits, at any column. -/
private theorem logSoftmax_apply (c : Fin 32000) :
    val_main_v3 (F := Ideal) x0 x2 (ix3 b t c)
      = Cert.Spec.logSoftmax (fun v : Fin 32000 => ∑ k : Fin 2048, x0 (ix3 b t k) * x2 (ix2 v k)) c := by
  rw [lsm_apply, sumExp_apply]
  simp only [shift_apply, rowMax_apply, logit_apply]
  rfl

/-- The index the gather reads: the id itself, the wrap of a negative index not firing. -/
private theorem index_apply (n : ℕ) (hn : n < 32000) (hid : x6 (ix2 b t) = BitVec.ofNat 32 n) :
    val_main_call1_v5 (F := Ideal) x6 (ix4 b t (0 : Fin 1) (0 : Fin 1)) = BitVec.ofNat 32 n := by
  have hb := b.isLt
  have ht := t.isLt
  have e : idx_main_v4 (idx_main_call1_v5 (ix4 b t (0 : Fin 1) (0 : Fin 1))) = ix2 b t := by
    funext a
    refine Fin.ext ?_
    match a with
    | ⟨0, _⟩ => show (((b.val * 1024 + t.val) * 1 + 0) * 1 + 0) / 1024 = b.val; omega
    | ⟨1, _⟩ => show (((b.val * 1024 + t.val) * 1 + 0) * 1 + 0) / 1 % 1024 = t.val; omega
  have hv4 : ∀ i, idx_main_v4 i = ix2 b t → val_main_v4 (F := Ideal) x6 i = BitVec.ofNat 32 n := fun i hi => by
    rw [val_main_v4_apply, hi, hid]
  rw [val_main_call1_v5_apply, val_main_call1_v4_apply, val_main_call1_v1_apply, val_main_call1_v3_apply,
    val_main_call1_v0_apply, val_main_call1_c_apply, val_main_call1_v2_apply, val_main_call1_c_0_apply, hv4 _ e]
  exact wrap_id hn

/-- The gather's range mask is set at the token. -/
private theorem mask_apply (n : ℕ) (hn : n < 32000) (hid : x6 (ix2 b t) = BitVec.ofNat 32 n) :
    val_main_call1_v12 (F := Ideal) x6 (ix3 b t (0 : Fin 1)) = 1#1 := by
  refine (reduce_andi_unit_apply (val_main_call1_v11 (F := Ideal) x6) (val_main_call1_c_3 (F := Ideal))
    reducesTo_S4x1024x1x1_S4x1024x1_d3 (by decide) h_S_ b t).trans ?_
  rw [val_main_call1_v11_apply, val_main_call1_v7_apply, val_main_call1_v10_apply, index_apply x6 b t n hn hid,
    val_main_call1_v6_apply, val_main_call1_c_2_apply, val_main_call1_v9_apply, val_main_call1_v8_apply,
    val_main_call1_c_1_apply, val_main_call1_c_3_apply]
  exact IntOp.andi_eq_one.2 ⟨in_range hn, rfl⟩

/-- The gather reads the log-softmax at the column the id names. -/
private theorem gather_apply (n : ℕ) (hn : n < 32000) (hid : x6 (ix2 b t) = BitVec.ofNat 32 n) :
    val_main_call1_v13 (F := Ideal) x0 x2 x6 (ix3 b t (0 : Fin 1)) = val_main_v3 (F := Ideal) x0 x2 (ix3 b t ⟨n, hn⟩) := by
  refine (gather_alongLast_apply (N := 32000) (by decide) gather_S4x1024x32000_S4x1024x1x1_S4x1024x1_n_2_01_01_2_3_111_wf
    (val_main_v3 (F := Ideal) x0 x2) (val_main_call1_v5 (F := Ideal) x6) b t).trans ?_
  refine congrArg (fun c => val_main_v3 (F := Ideal) x0 x2 (ix3 b t c)) (Fin.ext ?_)
  show min (val_main_call1_v5 (F := Ideal) x6 (ix4 b t (0 : Fin 1) (0 : Fin 1))).toInt.toNat (32000 - 1) = n
  rw [index_apply x6 b t n hn hid]
  exact clamp_id hn

/-- The call's per-token result at the token: the log-softmax of its row of logits at the id's column. -/
private theorem token_apply (n : ℕ) (hn : n < 32000) (hid : x6 (ix2 b t) = BitVec.ofNat 32 n) :
    val_main_v6 (F := Ideal) x0 x2 x6 (ix2 b t)
      = Cert.Spec.logSoftmax (fun v : Fin 32000 => ∑ k : Fin 2048, x0 (ix3 b t k) * x2 (ix2 v k)) ⟨n, hn⟩ := by
  have hb := b.isLt
  have ht := t.isLt
  have e : idx_main_v6 (ix2 b t) = ix3 b t (0 : Fin 1) := by
    funext a
    refine Fin.ext ?_
    match a with
    | ⟨0, _⟩ => show (b.val * 1024 + t.val) / 1024 = b.val; omega
    | ⟨1, _⟩ => show (b.val * 1024 + t.val) / 1 % 1024 = t.val; omega
    | ⟨2, _⟩ => rfl
  rw [val_main_v6_apply, e, val_main_v5_apply, mask_apply x6 b t n hn hid, select_one, gather_apply x0 x2 x6 b t n hn hid]
  exact logSoftmax_apply x0 x2 b t ⟨n, hn⟩

end Stages

/-- The current model's per-token log-probability at token (b, t). -/
theorem logp_cur (x0 : FVec Ideal S4x1024x2048 .f32) (x2 : FVec Ideal S32000x2048 .f32) (x6 : IVec S4x1024 32)
    (b : Fin 4) (t : Fin 1024) (n : ℕ) (hn : n < 32000) (hid : x6 (ix2 b t) = BitVec.ofNat 32 n) :
    val_main_v6 (F := Ideal) x0 x2 x6 (ix2 b t)
      = Cert.Spec.logSoftmax (fun v : Fin 32000 => ∑ k : Fin 2048, x0 (ix3 b t k) * x2 (ix2 v k)) ⟨n, hn⟩ :=
  token_apply x0 x2 x6 b t n hn hid

/-- The reference model's per-token log-probability at token (b, t). -/
theorem logp_ref (x1 : FVec Ideal S4x1024x2048 .f32) (x3 : FVec Ideal S32000x2048 .f32) (x6 : IVec S4x1024 32)
    (b : Fin 4) (t : Fin 1024) (n : ℕ) (hn : n < 32000) (hid : x6 (ix2 b t) = BitVec.ofNat 32 n) :
    val_main_v13 (F := Ideal) x1 x3 x6 (ix2 b t)
      = Cert.Spec.logSoftmax (fun v : Fin 32000 => ∑ k : Fin 2048, x1 (ix3 b t k) * x3 (ix2 v k)) ⟨n, hn⟩ := by
  -- the second call's stages are the first call's, operation for operation, on the other two arrays
  have e : val_main_v13 (F := Ideal) x1 x3 x6 = val_main_v6 (F := Ideal) x1 x3 x6 := rfl
  rw [e]
  exact token_apply x1 x3 x6 b t n hn hid

end Cert.ReferenceIdeal.RefVal

end
-- ==== Proof.Bridge.lean ====
/-
  The two programs' per-token log-probabilities are the same arrays.

  Entry (b, p) of the kernel's first result array, reshaped to [4,1024], is the log-softmax of token (b, p)'s line of
  logits at its selected column; so is entry (b, p) of the reference's gathered log-softmax, once the token's id is
  the word of a number below 32000. The line of logits is the same sum of products on both sides (a column below 32000
  is its own clamp), and the selected column is the same number.
-/
import proofs.«407823_j13554916786396_3_alg».proof.Proof.KVal
import proofs.«407823_j13554916786396_3_alg».proof.Proof.RefVal

noncomputable section

open scoped BigOperators

namespace Cert.Bridge

open Idealize.ShloMosaic Idealize.ShloMosaic.TcCoe Idealize.ShloMosaic.ValueIdx Idealize.SL.Sem
open Cert.KernelIdeal.Inv Cert.KernelIdeal.KVal

variable (m : (ℓ : Loc Cert.KernelIdeal.nD Cert.KernelIdeal.τ Cert.KernelIdeal.sig) → Buf (Elt Ideal) ℓ)

/-- A column below 32000 is its own clamp, so the kernel's line of logits read at it is the plain sum of products. -/
theorem zc_val (c : Dev Cert.KernelIdeal.nD) (b : Fin 4) (p : Fin 1024) (v : Fin 32000) :
    zc m c b p v.val = ∑ k : Fin 2048, A0 m c (ix3 b p k) * A2 m c (ix2 v k) := by
  unfold zc
  have hv : (⟨min v.val 31999, by omega⟩ : Fin 32000) = v := Fin.ext (by have := v.isLt; simp only []; omega)
  rw [hv]

theorem zr_val (c : Dev Cert.KernelIdeal.nD) (b : Fin 4) (p : Fin 1024) (v : Fin 32000) :
    zr m c b p v.val = ∑ k : Fin 2048, A1 m c (ix3 b p k) * A3 m c (ix2 v k) := by
  unfold zr
  have hv : (⟨min v.val 31999, by omega⟩ : Fin 32000) = v := Fin.ext (by have := v.isLt; simp only []; omega)
  rw [hv]

/-- The selected column of a token whose id is the word of n < 32000 is n. -/
theorem idn_eq (c : Dev Cert.KernelIdeal.nD) (b : Fin 4) (p : Fin 1024) (n : ℕ) (hn : n < 32000)
    (hid : A6 m c (ix2 b p) = BitVec.ofNat 32 n) : idn m c b p = ⟨n, hn⟩ := by
  unfold idn
  apply Fin.ext
  simp only [hid, BitVec.toNat_ofNat]
  have : n % 2 ^ 32 = n := Nat.mod_eq_of_lt (by omega)
  omega

/-- Token (b, p)'s log-probability under the first model, in the reference's form. -/
theorem LP_eq (c : Dev Cert.KernelIdeal.nD) (b : Fin 4) (p : Fin 1024) (n : ℕ) (hn : n < 32000)
    (hid : A6 m c (ix2 b p) = BitVec.ofNat 32 n) :
    LP m c b p = Cert.Spec.logSoftmax (fun v : Fin 32000 => ∑ k : Fin 2048, A0 m c (ix3 b p k) * A2 m c (ix2 v k)) ⟨n, hn⟩ := by
  unfold LP
  rw [idn_eq m c b p n hn hid]
  exact congrArg (fun f => Cert.Spec.logSoftmax f ⟨n, hn⟩) (funext fun v => zc_val m c b p v)

theorem LQ_eq (c : Dev Cert.KernelIdeal.nD) (b : Fin 4) (p : Fin 1024) (n : ℕ) (hn : n < 32000)
    (hid : A6 m c (ix2 b p) = BitVec.ofNat 32 n) :
    LQ m c b p = Cert.Spec.logSoftmax (fun v : Fin 32000 => ∑ k : Fin 2048, A1 m c (ix3 b p k) * A3 m c (ix2 v k)) ⟨n, hn⟩ := by
  unfold LQ
  rw [idn_eq m c b p n hn hid]
  exact congrArg (fun f => Cert.Spec.logSoftmax f ⟨n, hn⟩) (funext fun v => zr_val m c b p v)

/-- The kernel's first result array, reshaped, IS the reference's first per-token log-probability stage. -/
theorem P_eq (c : Dev Cert.KernelIdeal.nD) (h6 : ∀ i, ∃ n : ℕ, n < 32000 ∧ A6 m c i = BitVec.ofNat 32 n)
    (hsc : Cert.KernelIdeal.S4096x1.ShapeCasts Cert.KernelIdeal.S4x1024) :
    (shapeCast Cert.KernelIdeal.S4x1024 (G5 m c) hsc :
        FVec Ideal Cert.KernelIdeal.S4x1024 .f32)
      = Cert.ReferenceIdeal.Read.val_main_v6 (F := Ideal) (A0 m c) (A2 m c) (A6 m c) := by
  funext j
  obtain ⟨b, p, rfl⟩ : ∃ (b : Fin 4) (p : Fin 1024), j = ix2 b p := ⟨j 0, j 1, eq_ix2 j⟩
  obtain ⟨n, hn, hid⟩ := h6 (ix2 b p)
  refine (reshape5_apply m c b p).trans ?_
  rw [LP_eq m c b p n hn hid]
  exact (Cert.ReferenceIdeal.RefVal.logp_cur (A0 m c) (A2 m c) (A6 m c) b p n hn hid).symm

theorem Q_eq (c : Dev Cert.KernelIdeal.nD) (h6 : ∀ i, ∃ n : ℕ, n < 32000 ∧ A6 m c i = BitVec.ofNat 32 n)
    (hsc : Cert.KernelIdeal.S4096x1.ShapeCasts Cert.KernelIdeal.S4x1024) :
    (shapeCast Cert.KernelIdeal.S4x1024 (G6 m c) hsc :
        FVec Ideal Cert.KernelIdeal.S4x1024 .f32)
      = Cert.ReferenceIdeal.Read.val_main_v13 (F := Ideal) (A1 m c) (A3 m c) (A6 m c) := by
  funext j
  obtain ⟨b, p, rfl⟩ : ∃ (b : Fin 4) (p : Fin 1024), j = ix2 b p := ⟨j 0, j 1, eq_ix2 j⟩
  obtain ⟨n, hn, hid⟩ := h6 (ix2 b p)
  refine (reshape6_apply m c b p).trans ?_
  rw [LQ_eq m c b p n hn hid]
  exact (Cert.ReferenceIdeal.RefVal.logp_ref (A1 m c) (A3 m c) (A6 m c) b p n hn hid).symm

end Cert.Bridge

end
-- ==== Proof.RTail.lean ====
/-
  The reference program's statements after %13, read as the shared tail.

  The reference's stages %6 and %13 are the per-token log-probabilities of the current model and of
  the reference model, [4,1024]. Every stage after them is a host operation of the tail, so the
  three results %36, %39, %56 are Cert.Tail.loss, Cert.Tail.klMetric and Cert.Tail.clipMetric of
  those two stages, the advantages and the attention mask, whatever the two stages hold.
-/
import proofs.«407823_j13554916786396_3_alg».proof.Proof.PatchRI.Read
import proofs.«407823_j13554916786396_3_alg».proof.Proof.Tail

noncomputable section

namespace Cert.ReferenceIdeal.RTail

open Idealize.ShloMosaic
open Cert.ReferenceIdeal Cert.ReferenceIdeal.Gen Cert.ReferenceIdeal.Read

variable {F : FTy → Type} [FloatOps F]

/-- The tail's side conditions, from the reference program's own. -/
theorem rf : Cert.Tail.Facts :=
  ⟨bcast_S_S4x1024, bcast_S4_S4x1_0, bcast_S4x1_S4x1024_0_1, bcast_S_S4x1, reducesTo_S4x1024_S_d0_1, h_S_⟩

/-- The first result of the reference: the loss. -/
theorem val_main_v36_eq_tail
    (x0 x1 : (⟨S4x1024x2048, .f32⟩ : BufTy).Contents (Elt F)) (x2 x3 : (⟨S32000x2048, .f32⟩ : BufTy).Contents (Elt F))
    (x4 : (⟨S4, .f32⟩ : BufTy).Contents (Elt F)) (x5 : (⟨S4x1024, .f32⟩ : BufTy).Contents (Elt F))
    (x6 : (⟨S4x1024, .i32⟩ : BufTy).Contents (Elt F)) :
    val_main_v36 (F := F) x0 x1 x2 x3 x4 x5 x6
      = Cert.Tail.loss rf (val_main_v6 (F := F) x0 x2 x6) (val_main_v13 (F := F) x1 x3 x6) x4 x5 := by
  simp only [val_main_v14, val_main_v15, val_main_v16, val_main_v17, val_main_v18, val_main_v19, val_main_v20,
    val_main_v21, val_main_v22, val_main_v23, val_main_v24, val_main_v25, val_main_v26, val_main_v27,
    val_main_v28, val_main_v29, val_main_v30, val_main_v31, val_main_v32, val_main_v33, val_main_v34,
    val_main_v35, val_main_v36, val_main_v37, val_main_v38, val_main_v39, val_main_v40, val_main_v41,
    val_main_v42, val_main_v43, val_main_v44, val_main_v45, val_main_v46, val_main_v47, val_main_v48,
    val_main_v49, val_main_v50, val_main_v51, val_main_v52, val_main_v53, val_main_v54, val_main_v55,
    val_main_v56, val_main_cst_1, val_main_cst_2, val_main_cst_3, val_main_cst_4, val_main_cst_5, val_main_cst_6,
    val_main_cst_7, val_main_cst_8, val_main_cst_9, val_main_cst_10, val_main_cst_11, val_main_cst_12,
    val_main_cst_13, val_main_call4_v0, val_main_call4_v1, val_main_call4_v2, val_main_call4_v3,
    val_main_call4_v4]
  generalize val_main_v6 (F := F) x0 x2 x6 = p
  generalize val_main_v13 (F := F) x1 x3 x6 = q
  rfl

/-- The second result of the reference: the divergence metric. The advantages do not enter: any will do. -/
theorem val_main_v39_eq_tail
    (x0 x1 : (⟨S4x1024x2048, .f32⟩ : BufTy).Contents (Elt F)) (x2 x3 : (⟨S32000x2048, .f32⟩ : BufTy).Contents (Elt F))
    (x4 : (⟨S4, .f32⟩ : BufTy).Contents (Elt F)) (x5 : (⟨S4x1024, .f32⟩ : BufTy).Contents (Elt F))
    (x6 : (⟨S4x1024, .i32⟩ : BufTy).Contents (Elt F)) :
    val_main_v39 (F := F) x0 x1 x2 x3 x5 x6
      = Cert.Tail.klMetric rf (val_main_v6 (F := F) x0 x2 x6) (val_main_v13 (F := F) x1 x3 x6) x4 x5 := by
  simp only [val_main_v14, val_main_v15, val_main_v16, val_main_v17, val_main_v18, val_main_v19, val_main_v20,
    val_main_v21, val_main_v22, val_main_v23, val_main_v24, val_main_v25, val_main_v26, val_main_v27,
    val_main_v28, val_main_v29, val_main_v30, val_main_v31, val_main_v32, val_main_v33, val_main_v34,
    val_main_v35, val_main_v36, val_main_v37, val_main_v38, val_main_v39, val_main_v40, val_main_v41,
    val_main_v42, val_main_v43, val_main_v44, val_main_v45, val_main_v46, val_main_v47, val_main_v48,
    val_main_v49, val_main_v50, val_main_v51, val_main_v52, val_main_v53, val_main_v54, val_main_v55,
    val_main_v56, val_main_cst_1, val_main_cst_2, val_main_cst_3, val_main_cst_4, val_main_cst_5, val_main_cst_6,
    val_main_cst_7, val_main_cst_8, val_main_cst_9, val_main_cst_10, val_main_cst_11, val_main_cst_12,
    val_main_cst_13, val_main_call4_v0, val_main_call4_v1, val_main_call4_v2, val_main_call4_v3,
    val_main_call4_v4]
  generalize val_main_v6 (F := F) x0 x2 x6 = p
  generalize val_main_v13 (F := F) x1 x3 x6 = q
  rfl

/-- The third result of the reference: the fraction of clipped tokens. The reference model's
    log-probabilities do not enter: any will do. -/
theorem val_main_v56_eq_tail
    (x0 : (⟨S4x1024x2048, .f32⟩ : BufTy).Contents (Elt F)) (x2 : (⟨S32000x2048, .f32⟩ : BufTy).Contents (Elt F))
    (x4 : (⟨S4, .f32⟩ : BufTy).Contents (Elt F)) (x5 : (⟨S4x1024, .f32⟩ : BufTy).Contents (Elt F))
    (x6 : (⟨S4x1024, .i32⟩ : BufTy).Contents (Elt F)) (q : FVec F Cert.Tail.S4x1024 .f32) :
    val_main_v56 (F := F) x0 x2 x4 x5 x6
      = Cert.Tail.clipMetric rf (val_main_v6 (F := F) x0 x2 x6) q x4 x5 := by
  simp only [val_main_v14, val_main_v15, val_main_v16, val_main_v17, val_main_v18, val_main_v19, val_main_v20,
    val_main_v21, val_main_v22, val_main_v23, val_main_v24, val_main_v25, val_main_v26, val_main_v27,
    val_main_v28, val_main_v29, val_main_v30, val_main_v31, val_main_v32, val_main_v33, val_main_v34,
    val_main_v35, val_main_v36, val_main_v37, val_main_v38, val_main_v39, val_main_v40, val_main_v41,
    val_main_v42, val_main_v43, val_main_v44, val_main_v45, val_main_v46, val_main_v47, val_main_v48,
    val_main_v49, val_main_v50, val_main_v51, val_main_v52, val_main_v53, val_main_v54, val_main_v55,
    val_main_v56, val_main_cst_1, val_main_cst_2, val_main_cst_3, val_main_cst_4, val_main_cst_5, val_main_cst_6,
    val_main_cst_7, val_main_cst_8, val_main_cst_9, val_main_cst_10, val_main_cst_11, val_main_cst_12,
    val_main_cst_13, val_main_call4_v0, val_main_call4_v1, val_main_call4_v2, val_main_call4_v3,
    val_main_call4_v4]
  generalize val_main_v6 (F := F) x0 x2 x6 = p
  rfl

end Cert.ReferenceIdeal.RTail

end
-- ==== Proof.LibAfter.lean ====
import Idealize.ShloMosaic.Lib.StableHlo.Run

noncomputable section

namespace Cert.LibAfter

open Idealize.ShloMosaic Idealize.ShloMosaic.StableHlo

variable {τ : Topo} {sig : RefSig} {Val : EltTy → Type}

/-! ## The contents after two stretches of host operations

Running a line of host operations that is one stretch followed by another leaves what the second stretch leaves
when started from what the first one left. With it a long line is read one stretch at a time, each stretch from
an arbitrary starting valuation. -/

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The same for two stretches given as a list of two. -/
theorem after_flatten_pair (l₁ l₂ : List (HloOp τ sig Val)) (V : Valuation τ sig Val) :
    after (List.flatten [l₁, l₂]) V = after l₂ (after l₁ V) := by
  rw [List.flatten_cons, List.flatten_cons, List.flatten_nil, List.append_nil, after_append]

end Cert.LibAfter

end
-- ==== Proof.RefRun.lean ====
/-
  The reference's run, read in stretches.

  The reference's @main is a straight line of 147 host operations: two stretches that each compute one array of
  per-token log-probabilities (the logits, their log-softmax along the vocabulary, the gather at the token's id), then
  the combine shared with the kernel's program. Every weakly fair execution ends with each buffer at the fold of the
  operations over the launch memory; reading that fold one stretch at a time — a later stretch sees the earlier ones'
  results as given values — the three results are the shared tail of the two log-probability stages, the advantages
  and the mask, and the arguments end as launched.
-/
import proofs.«407823_j13554916786396_3_alg».proof.Proof.PatchRI.Run
import proofs.«407823_j13554916786396_3_alg».proof.Proof.PatchRI.Read
import proofs.«407823_j13554916786396_3_alg».proof.Proof.RTail
import proofs.«407823_j13554916786396_3_alg».proof.Proof.LibAfter
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Read

variable {F : FTy → Type} [FloatOps F]

/-- The first stretch: the current model's log-probabilities. -/
abbrev opsA : List (HloOp τ sig (Elt F)) :=
  [ binary main_arg0 main_arg2 main_v0 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    nullary main_cst (constant S_ .f32 0x3F800000#32),
    unary main_cst main_v1 (broadcastInDim S4x1024x32000 ![] bcast_S_S4x1024x32000 : (⟨S_, .f32⟩ : BufTy).Contents (Elt F) → (⟨S4x1024x32000, .f32⟩ : BufTy).Contents (Elt F)),
    binary main_v0 main_v1 main_v2 (Host.divf : (⟨S4x1024x32000, .f32⟩ : BufTy).Contents (Elt F) → (⟨S4x1024x32000, .f32⟩ : BufTy).Contents (Elt F) → (⟨S4x1024x32000, .f32⟩ : BufTy).Contents (Elt F)),
    nullary main_call0_cst (constant S_ .f32 0xFF800000#32),
    binary main_v2 main_call0_cst main_call0_v0 ((fun x v => Host.reduce FloatOps.maximumf x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    nullary main_call0_cst_0 (constant S_ .f32 0xFF800000#32),
    unary main_call0_cst_0 main_call0_v1 ((broadcastInDim S4x1024 ![] bcast_S_S4x1024) : (⟨S_, .f32⟩ : BufTy).Contents (Elt F) → (⟨S4x1024, .f32⟩ : BufTy).Contents (Elt F)),
    binary main_call0_v1 main_call0_v0 main_call0_v2 ((maximumf) : (⟨S4x1024, .f32⟩ : BufTy).Contents (Elt F) → (⟨S4x1024, .f32⟩ : BufTy).Contents (Elt F) → (⟨S4x1024, .f32⟩ : BufTy).Contents (Elt F)),
    unary main_call0_v2 main_call0_v3 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v3 main_call0_v4 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_v2 main_call0_v4 main_call0_v5 ((subf) : (⟨S4x1024x32000, .f32⟩ : BufTy).Contents (Elt F) → (⟨S4x1024x32000, .f32⟩ : BufTy).Contents (Elt F) → (⟨S4x1024x32000, .f32⟩ : BufTy).Contents (Elt F)),
    unary main_call0_v5 main_call0_v6 ((Host.exp) : (⟨S4x1024x32000, .f32⟩ : BufTy).Contents (Elt F) → (⟨S4x1024x32000, .f32⟩ : BufTy).Contents (Elt F)),
    nullary main_call0_cst_1 (constant S_ .f32 0x00000000#32),
    binary main_call0_v6 main_call0_cst_1 main_call0_v7 ((fun x v => Host.reduceAdd x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    unary main_call0_v7 main_call0_v8 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v8 main_call0_v9 ((Host.log) : (⟨S4x1024x1, .f32⟩ : BufTy).Contents (Elt F) → (⟨S4x1024x1, .f32⟩ : BufTy).Contents (Elt F)),
    unary main_call0_v9 main_call0_v10 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_call0_v5 main_call0_v10 main_v3 ((subf) : (⟨S4x1024x32000, .f32⟩ : BufTy).Contents (Elt F) → (⟨S4x1024x32000, .f32⟩ : BufTy).Contents (Elt F) → (⟨S4x1024x32000, .f32⟩ : BufTy).Contents (Elt F)),
    unary main_arg6 main_v4 (broadcastInDim S4x1024x1 ![0, 1] bcast_S4x1024_S4x1024x1_0_1 : (⟨S4x1024, .i32⟩ : BufTy).Contents (Elt F) → (⟨S4x1024x1, .i32⟩ : BufTy).Contents (Elt F)),
    nullary main_call1_c (constantI S_ 32 0#32),
    unary main_call1_c main_call1_v0 ((broadcastInDim S4x1024x1 ![] bcast_S_S4x1024x1) : (⟨S_, .i32⟩ : BufTy).Contents (Elt F) → (⟨S4x1024x1, .i32⟩ : BufTy).Contents (Elt F)),
    binary main_v4 main_call1_v0 main_call1_v1 ((cmpi .slt) : (⟨S4x1024x1, .i32⟩ : BufTy).Contents (Elt F) → (⟨S4x1024x1, .i32⟩ : BufTy).Contents (Elt F) → (⟨S4x1024x1, .i1⟩ : BufTy).Contents (Elt F)),
    nullary main_call1_c_0 (constantI S_ 32 32000#32),
    unary main_call1_c_0 main_call1_v2 ((broadcastInDim S4x1024x1 ![] bcast_S_S4x1024x1) : (⟨S_, .i32⟩ : BufTy).Contents (Elt F) → (⟨S4x1024x1, .i32⟩ : BufTy).Contents (Elt F)),
    binary main_v4 main_call1_v2 main_call1_v3 ((addi) : (⟨S4x1024x1, .i32⟩ : BufTy).Contents (Elt F) → (⟨S4x1024x1, .i32⟩ : BufTy).Contents (Elt F) → (⟨S4x1024x1, .i32⟩ : BufTy).Contents (Elt F)),
    ternary main_call1_v1 main_call1_v3 main_v4 main_call1_v4 ((select) : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)),
    reshape main_call1_v4 main_call1_v5 rfl shapeCasts_S4x1024x1_S4x1024x1x1,
    nullary main_call1_c_1 (constantI S1 32 31999#32),
    nullary main_call1_c_2 (constantI S_ 32 0#32),
    unary main_call1_c_2 main_call1_v6 ((broadcastInDim S4x1024x1x1 ![] bcast_S_S4x1024x1x1) : (⟨S_, .i32⟩ : BufTy).Contents (Elt F) → (⟨S4x1024x1x1, .i32⟩ : BufTy).Contents (Elt F)),
    binary main_call1_v5 main_call1_v6 main_call1_v7 ((cmpi .sge) : (⟨S4x1024x1x1, .i32⟩ : BufTy).Contents (Elt F) → (⟨S4x1024x1x1, .i32⟩ : BufTy).Contents (Elt F) → (⟨S4x1024x1x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S4x1024x1x1 ![0, 1, 2, 3] bcast_S1x1x1x1_S4x1024x1x1_0_1_2_3) : (⟨S1x1x1x1, .i32⟩ : BufTy).Contents (Elt F) → (⟨S4x1024x1x1, .i32⟩ : BufTy).Contents (Elt F)),
    binary main_call1_v5 main_call1_v9 main_call1_v10 ((cmpi .sle) : (⟨S4x1024x1x1, .i32⟩ : BufTy).Contents (Elt F) → (⟨S4x1024x1x1, .i32⟩ : BufTy).Contents (Elt F) → (⟨S4x1024x1x1, .i1⟩ : BufTy).Contents (Elt F)),
    binary main_call1_v7 main_call1_v10 main_call1_v11 ((andi) : (⟨S4x1024x1x1, .i1⟩ : BufTy).Contents (Elt F) → (⟨S4x1024x1x1, .i1⟩ : BufTy).Contents (Elt F) → (⟨S4x1024x1x1, .i1⟩ : BufTy).Contents (Elt F)),
    nullary main_call1_c_3 (constantI S_ 1 1#1),
    binary main_call1_v11 main_call1_c_3 main_call1_v12 ((fun x v => Host.reduce IntOp.andi x v reducesTo_S4x1024x1x1_S4x1024x1_d3 h_S_) : (⟨S4x1024x1x1, .i1⟩ : BufTy).Contents (Elt F) → (⟨S_, .i1⟩ : BufTy).Contents (Elt F) → (⟨S4x1024x1, .i1⟩ : BufTy).Contents (Elt F)),
    binary main_v3 main_call1_v5 main_call1_v13 ((fun x i => Host.gather gather_S4x1024x32000_S4x1024x1x1_S4x1024x1_n_2_01_01_2_3_111 x i) : (⟨S4x1024x32000, .f32⟩ : BufTy).Contents (Elt F) → (⟨S4x1024x1x1, .i32⟩ : BufTy).Contents (Elt F) → (⟨S4x1024x1, .f32⟩ : BufTy).Contents (Elt F)),
    nullary main_call1_cst (constant S_ .f32 0x7FC00000#32),
    unary main_call1_cst main_call1_v14 ((broadcastInDim S4x1024x1 ![] bcast_S_S4x1024x1) : (⟨S_, .f32⟩ : BufTy).Contents (Elt F) → (⟨S4x1024x1, .f32⟩ : BufTy).Contents (Elt F)),
    ternary main_call1_v12 main_call1_v13 main_call1_v14 main_v5 ((select) : (⟨S4x1024x1, .i1⟩ : BufTy).Contents (Elt F) → (⟨S4x1024x1, .f32⟩ : BufTy).Contents (Elt F) → (⟨S4x1024x1, .f32⟩ : BufTy).Contents (Elt F) → (⟨S4x1024x1, .f32⟩ : BufTy).Contents (Elt F)),
    reshape main_v5 main_v6 rfl shapeCasts_S4x1024x1_S4x1024 ]

/-- The logits of the current model, divided by the temperature 1. -/
abbrev opsA1 : List (HloOp τ sig (Elt F)) :=
  [ binary main_arg0 main_arg2 main_v0 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    nullary main_cst (constant S_ .f32 0x3F800000#32),
    unary main_cst main_v1 (broadcastInDim S4x1024x32000 ![] bcast_S_S4x1024x32000 : (⟨S_, .f32⟩ : BufTy).Contents (Elt F) → (⟨S4x1024x32000, .f32⟩ : BufTy).Contents (Elt F)),
    binary main_v0 main_v1 main_v2 (Host.divf : (⟨S4x1024x32000, .f32⟩ : BufTy).Contents (Elt F) → (⟨S4x1024x32000, .f32⟩ : BufTy).Contents (Elt F) → (⟨S4x1024x32000, .f32⟩ : BufTy).Contents (Elt F)) ]

/-- The references opsA1 writes. -/
abbrev opsA1_W : List (Ref sig .tc) := [main_v0, main_cst, main_v1, main_v2]
theorem opsA1_writes : (opsA1 : List (HloOp τ sig (Elt F))).Forall fun op =>
    op.writes ⊆ (opsA1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA1_val (W : Valuation τ sig (Elt F)) (x0 : (⟨S4x1024x2048, .f32⟩ : BufTy).Contents (Elt F)) (x2 : (⟨S32000x2048, .f32⟩ : BufTy).Contents (Elt F))
    (h_main_arg0 : W (Proc.devRef .tc main_arg0) = x0)
    (h_main_arg2 : W (Proc.devRef .tc main_arg2) = x2) :
    after opsA1 W (Proc.devRef .tc main_v2) = val_main_v2 (F := F) x0 x2 := by
  after_results_simp
  rw [h_main_arg0, h_main_arg2]
  simp only [val_main_v0, val_main_cst, val_main_v1, val_main_v2]

/-- The logits shifted by their maximum along the vocabulary. -/
abbrev opsA2 : List (HloOp τ sig (Elt F)) :=
  [ nullary main_call0_cst (constant S_ .f32 0xFF800000#32),
    binary main_v2 main_call0_cst main_call0_v0 ((fun x v => Host.reduce FloatOps.maximumf x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    nullary main_call0_cst_0 (constant S_ .f32 0xFF800000#32),
    unary main_call0_cst_0 main_call0_v1 ((broadcastInDim S4x1024 ![] bcast_S_S4x1024) : (⟨S_, .f32⟩ : BufTy).Contents (Elt F) → (⟨S4x1024, .f32⟩ : BufTy).Contents (Elt F)),
    binary main_call0_v1 main_call0_v0 main_call0_v2 ((maximumf) : (⟨S4x1024, .f32⟩ : BufTy).Contents (Elt F) → (⟨S4x1024, .f32⟩ : BufTy).Contents (Elt F) → (⟨S4x1024, .f32⟩ : BufTy).Contents (Elt F)),
    unary main_call0_v2 main_call0_v3 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v3 main_call0_v4 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_v2 main_call0_v4 main_call0_v5 ((subf) : (⟨S4x1024x32000, .f32⟩ : BufTy).Contents (Elt F) → (⟨S4x1024x32000, .f32⟩ : BufTy).Contents (Elt F) → (⟨S4x1024x32000, .f32⟩ : BufTy).Contents (Elt F)) ]

/-- The references opsA2 writes. -/
abbrev opsA2_W : List (Ref sig .tc) := [main_call0_cst, main_call0_v0, main_call0_cst_0, main_call0_v1, main_call0_v2, main_call0_v3, main_call0_v4, main_call0_v5]
theorem opsA2_writes : (opsA2 : List (HloOp τ sig (Elt F))).Forall fun op =>
    op.writes ⊆ (opsA2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA2_val (W : Valuation τ sig (Elt F)) (x0 : (⟨S4x1024x2048, .f32⟩ : BufTy).Contents (Elt F)) (x2 : (⟨S32000x2048, .f32⟩ : BufTy).Contents (Elt F))
    (h_main_v2 : W (Proc.devRef .tc main_v2) = val_main_v2 (F := F) x0 x2) :
    after opsA2 W (Proc.devRef .tc main_call0_v5) = val_main_call0_v5 (F := F) x0 x2 := by
  after_results_simp
  rw [h_main_v2]
  simp only [val_main_call0_cst, val_main_call0_v0, val_main_call0_cst_0, val_main_call0_v1, val_main_call0_v2,
    val_main_call0_v3, val_main_call0_v4, val_main_call0_v5]

/-- The log-softmax: the shifted logits minus the logarithm of the sum of their exponentials. -/
abbrev opsA3 : List (HloOp τ sig (Elt F)) :=
  [ unary main_call0_v5 main_call0_v6 ((Host.exp) : (⟨S4x1024x32000, .f32⟩ : BufTy).Contents (Elt F) → (⟨S4x1024x32000, .f32⟩ : BufTy).Contents (Elt F)),
    nullary main_call0_cst_1 (constant S_ .f32 0x00000000#32),
    binary main_call0_v6 main_call0_cst_1 main_call0_v7 ((fun x v => Host.reduceAdd x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    unary main_call0_v7 main_call0_v8 ((broadcastInDim S4x1024x1 ![0, 1] bcast_S4x1024_S4x1024x1_0_1) : (⟨S4x1024, .f32⟩ : BufTy).Contents (Elt F) → (⟨S4x1024x1, .f32⟩ : BufTy).Contents (Elt F)),
    unary main_call0_v8 main_call0_v9 ((Host.log) : (⟨S4x1024x1, .f32⟩ : BufTy).Contents (Elt F) → (⟨S4x1024x1, .f32⟩ : BufTy).Contents (Elt F)),
    unary main_call0_v9 main_call0_v10 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_call0_v5 main_call0_v10 main_v3 ((subf) : (⟨S4x1024x32000, .f32⟩ : BufTy).Contents (Elt F) → (⟨S4x1024x32000, .f32⟩ : BufTy).Contents (Elt F) → (⟨S4x1024x32000, .f32⟩ : BufTy).Contents (Elt F)) ]

/-- The references opsA3 writes. -/
abbrev opsA3_W : List (Ref sig .tc) := [main_call0_v6, main_call0_cst_1, main_call0_v7, main_call0_v8, main_call0_v9, main_call0_v10, main_v3]
theorem opsA3_writes : (opsA3 : List (HloOp τ sig (Elt F))).Forall fun op =>
    op.writes ⊆ (opsA3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA3_val (W : Valuation τ sig (Elt F)) (x0 : (⟨S4x1024x2048, .f32⟩ : BufTy).Contents (Elt F)) (x2 : (⟨S32000x2048, .f32⟩ : BufTy).Contents (Elt F))
    (h_main_call0_v5 : W (Proc.devRef .tc main_call0_v5) = val_main_call0_v5 (F := F) x0 x2) :
    after opsA3 W (Proc.devRef .tc main_v3) = val_main_v3 (F := F) x0 x2 := by
  after_results_simp
  rw [h_main_call0_v5]
  simp only [val_main_call0_v6, val_main_call0_cst_1, val_main_call0_v7, val_main_call0_v8, val_main_call0_v9,
    val_main_call0_v10, val_main_v3]

/-- The token ids as gather indices: a negative id counted from the end of the vocabulary. -/
abbrev opsA4 : List (HloOp τ sig (Elt F)) :=
  [ unary main_arg6 main_v4 (broadcastInDim S4x1024x1 ![0, 1] bcast_S4x1024_S4x1024x1_0_1 : (⟨S4x1024, .i32⟩ : BufTy).Contents (Elt F) → (⟨S4x1024x1, .i32⟩ : BufTy).Contents (Elt F)),
    nullary main_call1_c (constantI S_ 32 0#32),
    unary main_call1_c main_call1_v0 ((broadcastInDim S4x1024x1 ![] bcast_S_S4x1024x1) : (⟨S_, .i32⟩ : BufTy).Contents (Elt F) → (⟨S4x1024x1, .i32⟩ : BufTy).Contents (Elt F)),
    binary main_v4 main_call1_v0 main_call1_v1 ((cmpi .slt) : (⟨S4x1024x1, .i32⟩ : BufTy).Contents (Elt F) → (⟨S4x1024x1, .i32⟩ : BufTy).Contents (Elt F) → (⟨S4x1024x1, .i1⟩ : BufTy).Contents (Elt F)),
    nullary main_call1_c_0 (constantI S_ 32 32000#32),
    unary main_call1_c_0 main_call1_v2 ((broadcastInDim S4x1024x1 ![] bcast_S_S4x1024x1) : (⟨S_, .i32⟩ : BufTy).Contents (Elt F) → (⟨S4x1024x1, .i32⟩ : BufTy).Contents (Elt F)),
    binary main_v4 main_call1_v2 main_call1_v3 ((addi) : (⟨S4x1024x1, .i32⟩ : BufTy).Contents (Elt F) → (⟨S4x1024x1, .i32⟩ : BufTy).Contents (Elt F) → (⟨S4x1024x1, .i32⟩ : BufTy).Contents (Elt F)),
    ternary main_call1_v1 main_call1_v3 main_v4 main_call1_v4 ((select) : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)),
    reshape main_call1_v4 main_call1_v5 rfl shapeCasts_S4x1024x1_S4x1024x1x1 ]

/-- The references opsA4 writes. -/
abbrev opsA4_W : List (Ref sig .tc) := [main_v4, main_call1_c, main_call1_v0, main_call1_v1, main_call1_c_0, main_call1_v2, main_call1_v3, main_call1_v4, main_call1_v5]
theorem opsA4_writes : (opsA4 : List (HloOp τ sig (Elt F))).Forall fun op =>
    op.writes ⊆ (opsA4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA4_val (W : Valuation τ sig (Elt F)) (x6 : (⟨S4x1024, .i32⟩ : BufTy).Contents (Elt F))
    (h_main_arg6 : W (Proc.devRef .tc main_arg6) = x6) :
    after opsA4 W (Proc.devRef .tc main_call1_v5) = val_main_call1_v5 (F := F) x6 := by
  after_results_simp
  rw [h_main_arg6]
  simp only [val_main_v4, val_main_call1_c, val_main_call1_v0, val_main_call1_v1, val_main_call1_c_0,
    val_main_call1_v2, val_main_call1_v3, val_main_call1_v4, val_main_call1_v5]
  rfl

/-- Which token ids lie in the vocabulary. -/
abbrev opsA5 : List (HloOp τ sig (Elt F)) :=
  [ nullary main_call1_c_1 (constantI S1 32 31999#32),
    nullary main_call1_c_2 (constantI S_ 32 0#32),
    unary main_call1_c_2 main_call1_v6 ((broadcastInDim S4x1024x1x1 ![] bcast_S_S4x1024x1x1) : (⟨S_, .i32⟩ : BufTy).Contents (Elt F) → (⟨S4x1024x1x1, .i32⟩ : BufTy).Contents (Elt F)),
    binary main_call1_v5 main_call1_v6 main_call1_v7 ((cmpi .sge) : (⟨S4x1024x1x1, .i32⟩ : BufTy).Contents (Elt F) → (⟨S4x1024x1x1, .i32⟩ : BufTy).Contents (Elt F) → (⟨S4x1024x1x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S4x1024x1x1 ![0, 1, 2, 3] bcast_S1x1x1x1_S4x1024x1x1_0_1_2_3) : (⟨S1x1x1x1, .i32⟩ : BufTy).Contents (Elt F) → (⟨S4x1024x1x1, .i32⟩ : BufTy).Contents (Elt F)),
    binary main_call1_v5 main_call1_v9 main_call1_v10 ((cmpi .sle) : (⟨S4x1024x1x1, .i32⟩ : BufTy).Contents (Elt F) → (⟨S4x1024x1x1, .i32⟩ : BufTy).Contents (Elt F) → (⟨S4x1024x1x1, .i1⟩ : BufTy).Contents (Elt F)),
    binary main_call1_v7 main_call1_v10 main_call1_v11 ((andi) : (⟨S4x1024x1x1, .i1⟩ : BufTy).Contents (Elt F) → (⟨S4x1024x1x1, .i1⟩ : BufTy).Contents (Elt F) → (⟨S4x1024x1x1, .i1⟩ : BufTy).Contents (Elt F)),
    nullary main_call1_c_3 (constantI S_ 1 1#1),
    binary main_call1_v11 main_call1_c_3 main_call1_v12 ((fun x v => Host.reduce IntOp.andi x v reducesTo_S4x1024x1x1_S4x1024x1_d3 h_S_) : (⟨S4x1024x1x1, .i1⟩ : BufTy).Contents (Elt F) → (⟨S_, .i1⟩ : BufTy).Contents (Elt F) → (⟨S4x1024x1, .i1⟩ : BufTy).Contents (Elt F)) ]

/-- The references opsA5 writes. -/
abbrev opsA5_W : List (Ref sig .tc) := [main_call1_c_1, main_call1_c_2, main_call1_v6, main_call1_v7, main_call1_v8, main_call1_v9, main_call1_v10, main_call1_v11, main_call1_c_3, main_call1_v12]
theorem opsA5_writes : (opsA5 : List (HloOp τ sig (Elt F))).Forall fun op =>
    op.writes ⊆ (opsA5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA5_val (W : Valuation τ sig (Elt F)) (x6 : (⟨S4x1024, .i32⟩ : BufTy).Contents (Elt F))
    (h_main_call1_v5 : W (Proc.devRef .tc main_call1_v5) = val_main_call1_v5 (F := F) x6) :
    after opsA5 W (Proc.devRef .tc main_call1_v12) = val_main_call1_v12 (F := F) x6 := by
  after_results_simp
  rw [h_main_call1_v5]
  simp only [val_main_call1_c_1, val_main_call1_c_2, val_main_call1_v6, val_main_call1_v7, val_main_call1_v8,
    val_main_call1_v9, val_main_call1_v10, val_main_call1_v11, val_main_call1_c_3, val_main_call1_v12]

/-- The log-softmax gathered at the token ids (NaN where the id lies outside), as [4,1024]. -/
abbrev opsA6 : List (HloOp τ sig (Elt F)) :=
  [ binary main_v3 main_call1_v5 main_call1_v13 ((fun x i => Host.gather gather_S4x1024x32000_S4x1024x1x1_S4x1024x1_n_2_01_01_2_3_111 x i) : (⟨S4x1024x32000, .f32⟩ : BufTy).Contents (Elt F) → (⟨S4x1024x1x1, .i32⟩ : BufTy).Contents (Elt F) → (⟨S4x1024x1, .f32⟩ : BufTy).Contents (Elt F)),
    nullary main_call1_cst (constant S_ .f32 0x7FC00000#32),
    unary main_call1_cst main_call1_v14 ((broadcastInDim S4x1024x1 ![] bcast_S_S4x1024x1) : (⟨S_, .f32⟩ : BufTy).Contents (Elt F) → (⟨S4x1024x1, .f32⟩ : BufTy).Contents (Elt F)),
    ternary main_call1_v12 main_call1_v13 main_call1_v14 main_v5 ((select) : (⟨S4x1024x1, .i1⟩ : BufTy).Contents (Elt F) → (⟨S4x1024x1, .f32⟩ : BufTy).Contents (Elt F) → (⟨S4x1024x1, .f32⟩ : BufTy).Contents (Elt F) → (⟨S4x1024x1, .f32⟩ : BufTy).Contents (Elt F)),
    reshape main_v5 main_v6 rfl shapeCasts_S4x1024x1_S4x1024 ]

/-- The references opsA6 writes. -/
abbrev opsA6_W : List (Ref sig .tc) := [main_call1_v13, main_call1_cst, main_call1_v14, main_v5, main_v6]
theorem opsA6_writes : (opsA6 : List (HloOp τ sig (Elt F))).Forall fun op =>
    op.writes ⊆ (opsA6_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsA6_val (W : Valuation τ sig (Elt F)) (x0 : (⟨S4x1024x2048, .f32⟩ : BufTy).Contents (Elt F)) (x2 : (⟨S32000x2048, .f32⟩ : BufTy).Contents (Elt F)) (x6 : (⟨S4x1024, .i32⟩ : BufTy).Contents (Elt F))
    (h_main_v3 : W (Proc.devRef .tc main_v3) = val_main_v3 (F := F) x0 x2)
    (h_main_call1_v5 : W (Proc.devRef .tc main_call1_v5) = val_main_call1_v5 (F := F) x6)
    (h_main_call1_v12 : W (Proc.devRef .tc main_call1_v12) = val_main_call1_v12 (F := F) x6) :
    after opsA6 W (Proc.devRef .tc main_v6) = val_main_v6 (F := F) x0 x2 x6 := by
  after_results_simp
  rw [h_main_v3, h_main_call1_v5, h_main_call1_v12]
  simp only [val_main_call1_v13, val_main_call1_cst, val_main_call1_v14, val_main_v5, val_main_v6]
  rfl

/-- The first stretch is its six parts in order. -/
theorem opsA_split : (opsA : List (HloOp τ sig (Elt F))) = opsA1 ++ (opsA2 ++ (opsA3 ++ (opsA4 ++ (opsA5 ++ opsA6)))) := rfl

/-- From any contents V, the first stretch leaves the log-probabilities of V's arguments in main_v6. -/
theorem opsA_val (V : Valuation τ sig (Elt F)) :
    after opsA V (Proc.devRef .tc main_v6)
      = val_main_v6 (F := F) (V (Proc.devRef .tc main_arg0)) (V (Proc.devRef .tc main_arg2)) (V (Proc.devRef .tc main_arg6)) := by
  rw [opsA_split, StableHlo.after_append, StableHlo.after_append, StableHlo.after_append, StableHlo.after_append, StableHlo.after_append]
  have e1 := opsA1_val V (V (Proc.devRef .tc main_arg0)) (V (Proc.devRef .tc main_arg2)) rfl rfl
  have e2 := opsA2_val (after opsA1 V) (V (Proc.devRef .tc main_arg0)) (V (Proc.devRef .tc main_arg2)) e1
  have e3 := opsA3_val (after opsA2 (after opsA1 V)) (V (Proc.devRef .tc main_arg0)) (V (Proc.devRef .tc main_arg2)) e2
  have a6 : (after opsA3 (after opsA2 (after opsA1 V))) (Proc.devRef .tc main_arg6) = V (Proc.devRef .tc main_arg6) := by
    rw [after_of_writes_sub opsA3 _ opsA3_writes (r := main_arg6) (by decide), after_of_writes_sub opsA2 _ opsA2_writes (r := main_arg6) (by decide), after_of_writes_sub opsA1 _ opsA1_writes (r := main_arg6) (by decide)]
  have e4 := opsA4_val (after opsA3 (after opsA2 (after opsA1 V))) (V (Proc.devRef .tc main_arg6)) a6
  have e5 := opsA5_val (after opsA4 (after opsA3 (after opsA2 (after opsA1 V)))) (V (Proc.devRef .tc main_arg6)) e4
  have e3' : (after opsA5 (after opsA4 (after opsA3 (after opsA2 (after opsA1 V))))) (Proc.devRef .tc main_v3) = val_main_v3 (F := F) (V (Proc.devRef .tc main_arg0)) (V (Proc.devRef .tc main_arg2)) := by
    rw [after_of_writes_sub opsA5 _ opsA5_writes (r := main_v3) (by decide), after_of_writes_sub opsA4 _ opsA4_writes (r := main_v3) (by decide)]; exact e3
  have e4' : (after opsA5 (after opsA4 (after opsA3 (after opsA2 (after opsA1 V))))) (Proc.devRef .tc main_call1_v5) = val_main_call1_v5 (F := F) (V (Proc.devRef .tc main_arg6)) := by
    rw [after_of_writes_sub opsA5 _ opsA5_writes (r := main_call1_v5) (by decide)]; exact e4
  exact opsA6_val (after opsA5 (after opsA4 (after opsA3 (after opsA2 (after opsA1 V))))) (V (Proc.devRef .tc main_arg0)) (V (Proc.devRef .tc main_arg2)) (V (Proc.devRef .tc main_arg6)) e3' e4' e5

/-- The second stretch: the reference model's log-probabilities. -/
abbrev opsB : List (HloOp τ sig (Elt F)) :=
  [ binary main_arg1 main_arg3 main_v7 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    nullary main_cst_0 (constant S_ .f32 0x3F800000#32),
    unary main_cst_0 main_v8 (broadcastInDim S4x1024x32000 ![] bcast_S_S4x1024x32000 : (⟨S_, .f32⟩ : BufTy).Contents (Elt F) → (⟨S4x1024x32000, .f32⟩ : BufTy).Contents (Elt F)),
    binary main_v7 main_v8 main_v9 (Host.divf : (⟨S4x1024x32000, .f32⟩ : BufTy).Contents (Elt F) → (⟨S4x1024x32000, .f32⟩ : BufTy).Contents (Elt F) → (⟨S4x1024x32000, .f32⟩ : BufTy).Contents (Elt F)),
    nullary main_call2_cst (constant S_ .f32 0xFF800000#32),
    binary main_v9 main_call2_cst main_call2_v0 ((fun x v => Host.reduce FloatOps.maximumf x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    nullary main_call2_cst_0 (constant S_ .f32 0xFF800000#32),
    unary main_call2_cst_0 main_call2_v1 ((broadcastInDim S4x1024 ![] bcast_S_S4x1024) : (⟨S_, .f32⟩ : BufTy).Contents (Elt F) → (⟨S4x1024, .f32⟩ : BufTy).Contents (Elt F)),
    binary main_call2_v1 main_call2_v0 main_call2_v2 ((maximumf) : (⟨S4x1024, .f32⟩ : BufTy).Contents (Elt F) → (⟨S4x1024, .f32⟩ : BufTy).Contents (Elt F) → (⟨S4x1024, .f32⟩ : BufTy).Contents (Elt F)),
    unary main_call2_v2 main_call2_v3 ((broadcastInDim S4x1024x1 ![0, 1] bcast_S4x1024_S4x1024x1_0_1) : (⟨S4x1024, .f32⟩ : BufTy).Contents (Elt F) → (⟨S4x1024x1, .f32⟩ : BufTy).Contents (Elt F)),
    unary main_call2_v3 main_call2_v4 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_v9 main_call2_v4 main_call2_v5 ((subf) : (⟨S4x1024x32000, .f32⟩ : BufTy).Contents (Elt F) → (⟨S4x1024x32000, .f32⟩ : BufTy).Contents (Elt F) → (⟨S4x1024x32000, .f32⟩ : BufTy).Contents (Elt F)),
    unary main_call2_v5 main_call2_v6 ((Host.exp) : (⟨S4x1024x32000, .f32⟩ : BufTy).Contents (Elt F) → (⟨S4x1024x32000, .f32⟩ : BufTy).Contents (Elt F)),
    nullary main_call2_cst_1 (constant S_ .f32 0x00000000#32),
    binary main_call2_v6 main_call2_cst_1 main_call2_v7 ((fun x v => Host.reduceAdd x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    unary main_call2_v7 main_call2_v8 ((broadcastInDim S4x1024x1 ![0, 1] bcast_S4x1024_S4x1024x1_0_1) : (⟨S4x1024, .f32⟩ : BufTy).Contents (Elt F) → (⟨S4x1024x1, .f32⟩ : BufTy).Contents (Elt F)),
    unary main_call2_v8 main_call2_v9 ((Host.log) : (⟨S4x1024x1, .f32⟩ : BufTy).Contents (Elt F) → (⟨S4x1024x1, .f32⟩ : BufTy).Contents (Elt F)),
    unary main_call2_v9 main_call2_v10 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_call2_v5 main_call2_v10 main_v10 ((subf) : (⟨S4x1024x32000, .f32⟩ : BufTy).Contents (Elt F) → (⟨S4x1024x32000, .f32⟩ : BufTy).Contents (Elt F) → (⟨S4x1024x32000, .f32⟩ : BufTy).Contents (Elt F)),
    unary main_arg6 main_v11 (broadcastInDim S4x1024x1 ![0, 1] bcast_S4x1024_S4x1024x1_0_1 : (⟨S4x1024, .i32⟩ : BufTy).Contents (Elt F) → (⟨S4x1024x1, .i32⟩ : BufTy).Contents (Elt F)),
    nullary main_call3_c (constantI S_ 32 0#32),
    unary main_call3_c main_call3_v0 ((broadcastInDim S4x1024x1 ![] bcast_S_S4x1024x1) : (⟨S_, .i32⟩ : BufTy).Contents (Elt F) → (⟨S4x1024x1, .i32⟩ : BufTy).Contents (Elt F)),
    binary main_v11 main_call3_v0 main_call3_v1 ((cmpi .slt) : (⟨S4x1024x1, .i32⟩ : BufTy).Contents (Elt F) → (⟨S4x1024x1, .i32⟩ : BufTy).Contents (Elt F) → (⟨S4x1024x1, .i1⟩ : BufTy).Contents (Elt F)),
    nullary main_call3_c_0 (constantI S_ 32 32000#32),
    unary main_call3_c_0 main_call3_v2 ((broadcastInDim S4x1024x1 ![] bcast_S_S4x1024x1) : (⟨S_, .i32⟩ : BufTy).Contents (Elt F) → (⟨S4x1024x1, .i32⟩ : BufTy).Contents (Elt F)),
    binary main_v11 main_call3_v2 main_call3_v3 ((addi) : (⟨S4x1024x1, .i32⟩ : BufTy).Contents (Elt F) → (⟨S4x1024x1, .i32⟩ : BufTy).Contents (Elt F) → (⟨S4x1024x1, .i32⟩ : BufTy).Contents (Elt F)),
    ternary main_call3_v1 main_call3_v3 main_v11 main_call3_v4 ((select) : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)),
    reshape main_call3_v4 main_call3_v5 rfl shapeCasts_S4x1024x1_S4x1024x1x1,
    nullary main_call3_c_1 (constantI S1 32 31999#32),
    nullary main_call3_c_2 (constantI S_ 32 0#32),
    unary main_call3_c_2 main_call3_v6 ((broadcastInDim S4x1024x1x1 ![] bcast_S_S4x1024x1x1) : (⟨S_, .i32⟩ : BufTy).Contents (Elt F) → (⟨S4x1024x1x1, .i32⟩ : BufTy).Contents (Elt F)),
    binary main_call3_v5 main_call3_v6 main_call3_v7 ((cmpi .sge) : (⟨S4x1024x1x1, .i32⟩ : BufTy).Contents (Elt F) → (⟨S4x1024x1x1, .i32⟩ : BufTy).Contents (Elt F) → (⟨S4x1024x1x1, .i1⟩ : BufTy).Contents (Elt F)),
    unary main_call3_c_1 main_call3_v8 ((broadcastInDim S1x1x1x1 ![3] bcast_S1_S1x1x1x1_3) : (⟨S1, .i32⟩ : BufTy).Contents (Elt F) → (⟨S1x1x1x1, .i32⟩ : BufTy).Contents (Elt F)),
    unary main_call3_v8 main_call3_v9 ((broadcastInDim S4x1024x1x1 ![0, 1, 2, 3] bcast_S1x1x1x1_S4x1024x1x1_0_1_2_3) : (⟨S1x1x1x1, .i32⟩ : BufTy).Contents (Elt F) → (⟨S4x1024x1x1, .i32⟩ : BufTy).Contents (Elt F)),
    binary main_call3_v5 main_call3_v9 main_call3_v10 ((cmpi .sle) : (⟨S4x1024x1x1, .i32⟩ : BufTy).Contents (Elt F) → (⟨S4x1024x1x1, .i32⟩ : BufTy).Contents (Elt F) → (⟨S4x1024x1x1, .i1⟩ : BufTy).Contents (Elt F)),
    binary main_call3_v7 main_call3_v10 main_call3_v11 ((andi) : (⟨S4x1024x1x1, .i1⟩ : BufTy).Contents (Elt F) → (⟨S4x1024x1x1, .i1⟩ : BufTy).Contents (Elt F) → (⟨S4x1024x1x1, .i1⟩ : BufTy).Contents (Elt F)),
    nullary main_call3_c_3 (constantI S_ 1 1#1),
    binary main_call3_v11 main_call3_c_3 main_call3_v12 ((fun x v => Host.reduce IntOp.andi x v reducesTo_S4x1024x1x1_S4x1024x1_d3 h_S_) : (⟨S4x1024x1x1, .i1⟩ : BufTy).Contents (Elt F) → (⟨S_, .i1⟩ : BufTy).Contents (Elt F) → (⟨S4x1024x1, .i1⟩ : BufTy).Contents (Elt F)),
    binary main_v10 main_call3_v5 main_call3_v13 ((fun x i => Host.gather gather_S4x1024x32000_S4x1024x1x1_S4x1024x1_n_2_01_01_2_3_111 x i) : (⟨S4x1024x32000, .f32⟩ : BufTy).Contents (Elt F) → (⟨S4x1024x1x1, .i32⟩ : BufTy).Contents (Elt F) → (⟨S4x1024x1, .f32⟩ : BufTy).Contents (Elt F)),
    nullary main_call3_cst (constant S_ .f32 0x7FC00000#32),
    unary main_call3_cst main_call3_v14 ((broadcastInDim S4x1024x1 ![] bcast_S_S4x1024x1) : (⟨S_, .f32⟩ : BufTy).Contents (Elt F) → (⟨S4x1024x1, .f32⟩ : BufTy).Contents (Elt F)),
    ternary main_call3_v12 main_call3_v13 main_call3_v14 main_v12 ((select) : (⟨S4x1024x1, .i1⟩ : BufTy).Contents (Elt F) → (⟨S4x1024x1, .f32⟩ : BufTy).Contents (Elt F) → (⟨S4x1024x1, .f32⟩ : BufTy).Contents (Elt F) → (⟨S4x1024x1, .f32⟩ : BufTy).Contents (Elt F)),
    reshape main_v12 main_v13 rfl shapeCasts_S4x1024x1_S4x1024 ]

/-- The logits of the reference model, divided by the temperature 1. -/
abbrev opsB1 : List (HloOp τ sig (Elt F)) :=
  [ binary main_arg1 main_arg3 main_v7 ((fun l r => Host.dotGeneral dot_S4x1024x2048_S32000x2048_S4x1024x32000_2_1_01_0_n_n none l r) : (⟨S4x1024x2048, .f32⟩ : BufTy).Contents (Elt F) → (⟨S32000x2048, .f32⟩ : BufTy).Contents (Elt F) → (⟨S4x1024x32000, .f32⟩ : BufTy).Contents (Elt F)),
    nullary main_cst_0 (constant S_ .f32 0x3F800000#32),
    unary main_cst_0 main_v8 (broadcastInDim S4x1024x32000 ![] bcast_S_S4x1024x32000 : (⟨S_, .f32⟩ : BufTy).Contents (Elt F) → (⟨S4x1024x32000, .f32⟩ : BufTy).Contents (Elt F)),
    binary main_v7 main_v8 main_v9 (Host.divf : (⟨S4x1024x32000, .f32⟩ : BufTy).Contents (Elt F) → (⟨S4x1024x32000, .f32⟩ : BufTy).Contents (Elt F) → (⟨S4x1024x32000, .f32⟩ : BufTy).Contents (Elt F)) ]

/-- The references opsB1 writes. -/
abbrev opsB1_W : List (Ref sig .tc) := [main_v7, main_cst_0, main_v8, main_v9]
theorem opsB1_writes : (opsB1 : List (HloOp τ sig (Elt F))).Forall fun op =>
    op.writes ⊆ (opsB1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB1_val (W : Valuation τ sig (Elt F)) (x1 : (⟨S4x1024x2048, .f32⟩ : BufTy).Contents (Elt F)) (x3 : (⟨S32000x2048, .f32⟩ : BufTy).Contents (Elt F))
    (h_main_arg1 : W (Proc.devRef .tc main_arg1) = x1)
    (h_main_arg3 : W (Proc.devRef .tc main_arg3) = x3) :
    after opsB1 W (Proc.devRef .tc main_v9) = val_main_v9 (F := F) x1 x3 := by
  after_results_simp
  rw [h_main_arg1, h_main_arg3]
  simp only [val_main_v7, val_main_cst_0, val_main_v8, val_main_v9]

/-- The logits shifted by their maximum along the vocabulary. -/
abbrev opsB2 : List (HloOp τ sig (Elt F)) :=
  [ nullary main_call2_cst (constant S_ .f32 0xFF800000#32),
    binary main_v9 main_call2_cst main_call2_v0 ((fun x v => Host.reduce FloatOps.maximumf x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    nullary main_call2_cst_0 (constant S_ .f32 0xFF800000#32),
    unary main_call2_cst_0 main_call2_v1 ((broadcastInDim S4x1024 ![] bcast_S_S4x1024) : (⟨S_, .f32⟩ : BufTy).Contents (Elt F) → (⟨S4x1024, .f32⟩ : BufTy).Contents (Elt F)),
    binary main_call2_v1 main_call2_v0 main_call2_v2 ((maximumf) : (⟨S4x1024, .f32⟩ : BufTy).Contents (Elt F) → (⟨S4x1024, .f32⟩ : BufTy).Contents (Elt F) → (⟨S4x1024, .f32⟩ : BufTy).Contents (Elt F)),
    unary main_call2_v2 main_call2_v3 ((broadcastInDim S4x1024x1 ![0, 1] bcast_S4x1024_S4x1024x1_0_1) : (⟨S4x1024, .f32⟩ : BufTy).Contents (Elt F) → (⟨S4x1024x1, .f32⟩ : BufTy).Contents (Elt F)),
    unary main_call2_v3 main_call2_v4 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_v9 main_call2_v4 main_call2_v5 ((subf) : (⟨S4x1024x32000, .f32⟩ : BufTy).Contents (Elt F) → (⟨S4x1024x32000, .f32⟩ : BufTy).Contents (Elt F) → (⟨S4x1024x32000, .f32⟩ : BufTy).Contents (Elt F)) ]

/-- The references opsB2 writes. -/
abbrev opsB2_W : List (Ref sig .tc) := [main_call2_cst, main_call2_v0, main_call2_cst_0, main_call2_v1, main_call2_v2, main_call2_v3, main_call2_v4, main_call2_v5]
theorem opsB2_writes : (opsB2 : List (HloOp τ sig (Elt F))).Forall fun op =>
    op.writes ⊆ (opsB2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB2_val (W : Valuation τ sig (Elt F)) (x1 : (⟨S4x1024x2048, .f32⟩ : BufTy).Contents (Elt F)) (x3 : (⟨S32000x2048, .f32⟩ : BufTy).Contents (Elt F))
    (h_main_v9 : W (Proc.devRef .tc main_v9) = val_main_v9 (F := F) x1 x3) :
    after opsB2 W (Proc.devRef .tc main_call2_v5) = val_main_call2_v5 (F := F) x1 x3 := by
  after_results_simp
  rw [h_main_v9]
  simp only [val_main_call2_cst, val_main_call2_v0, val_main_call2_cst_0, val_main_call2_v1, val_main_call2_v2,
    val_main_call2_v3, val_main_call2_v4, val_main_call2_v5]

/-- The log-softmax: the shifted logits minus the logarithm of the sum of their exponentials. -/
abbrev opsB3 : List (HloOp τ sig (Elt F)) :=
  [ unary main_call2_v5 main_call2_v6 ((Host.exp) : (⟨S4x1024x32000, .f32⟩ : BufTy).Contents (Elt F) → (⟨S4x1024x32000, .f32⟩ : BufTy).Contents (Elt F)),
    nullary main_call2_cst_1 (constant S_ .f32 0x00000000#32),
    binary main_call2_v6 main_call2_cst_1 main_call2_v7 ((fun x v => Host.reduceAdd x v reducesTo_S4x1024x32000_S4x1024_d2 h_S_) : (⟨S4x1024x32000, .f32⟩ : BufTy).Contents (Elt F) → (⟨S_, .f32⟩ : BufTy).Contents (Elt F) → (⟨S4x1024, .f32⟩ : BufTy).Contents (Elt F)),
    unary main_call2_v7 main_call2_v8 ((broadcastInDim S4x1024x1 ![0, 1] bcast_S4x1024_S4x1024x1_0_1) : (⟨S4x1024, .f32⟩ : BufTy).Contents (Elt F) → (⟨S4x1024x1, .f32⟩ : BufTy).Contents (Elt F)),
    unary main_call2_v8 main_call2_v9 ((Host.log) : (⟨S4x1024x1, .f32⟩ : BufTy).Contents (Elt F) → (⟨S4x1024x1, .f32⟩ : BufTy).Contents (Elt F)),
    unary main_call2_v9 main_call2_v10 ((broadcastInDim S4x1024x32000 ![0, 1, 2] bcast_S4x1024x1_S4x1024x32000_0_1_2) : (⟨S4x1024x1, .f32⟩ : BufTy).Contents (Elt F) → (⟨S4x1024x32000, .f32⟩ : BufTy).Contents (Elt F)),
    binary main_call2_v5 main_call2_v10 main_v10 ((subf) : (⟨S4x1024x32000, .f32⟩ : BufTy).Contents (Elt F) → (⟨S4x1024x32000, .f32⟩ : BufTy).Contents (Elt F) → (⟨S4x1024x32000, .f32⟩ : BufTy).Contents (Elt F)) ]

/-- The references opsB3 writes. -/
abbrev opsB3_W : List (Ref sig .tc) := [main_call2_v6, main_call2_cst_1, main_call2_v7, main_call2_v8, main_call2_v9, main_call2_v10, main_v10]
theorem opsB3_writes : (opsB3 : List (HloOp τ sig (Elt F))).Forall fun op =>
    op.writes ⊆ (opsB3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB3_val (W : Valuation τ sig (Elt F)) (x1 : (⟨S4x1024x2048, .f32⟩ : BufTy).Contents (Elt F)) (x3 : (⟨S32000x2048, .f32⟩ : BufTy).Contents (Elt F))
    (h_main_call2_v5 : W (Proc.devRef .tc main_call2_v5) = val_main_call2_v5 (F := F) x1 x3) :
    after opsB3 W (Proc.devRef .tc main_v10) = val_main_v10 (F := F) x1 x3 := by
  after_results_simp
  rw [h_main_call2_v5]
  simp only [val_main_call2_v6, val_main_call2_cst_1, val_main_call2_v7, val_main_call2_v8, val_main_call2_v9,
    val_main_call2_v10, val_main_v10]

/-- The token ids as gather indices: a negative id counted from the end of the vocabulary. -/
abbrev opsB4 : List (HloOp τ sig (Elt F)) :=
  [ unary main_arg6 main_v11 (broadcastInDim S4x1024x1 ![0, 1] bcast_S4x1024_S4x1024x1_0_1 : (⟨S4x1024, .i32⟩ : BufTy).Contents (Elt F) → (⟨S4x1024x1, .i32⟩ : BufTy).Contents (Elt F)),
    nullary main_call3_c (constantI S_ 32 0#32),
    unary main_call3_c main_call3_v0 ((broadcastInDim S4x1024x1 ![] bcast_S_S4x1024x1) : (⟨S_, .i32⟩ : BufTy).Contents (Elt F) → (⟨S4x1024x1, .i32⟩ : BufTy).Contents (Elt F)),
    binary main_v11 main_call3_v0 main_call3_v1 ((cmpi .slt) : (⟨S4x1024x1, .i32⟩ : BufTy).Contents (Elt F) → (⟨S4x1024x1, .i32⟩ : BufTy).Contents (Elt F) → (⟨S4x1024x1, .i1⟩ : BufTy).Contents (Elt F)),
    nullary main_call3_c_0 (constantI S_ 32 32000#32),
    unary main_call3_c_0 main_call3_v2 ((broadcastInDim S4x1024x1 ![] bcast_S_S4x1024x1) : (⟨S_, .i32⟩ : BufTy).Contents (Elt F) → (⟨S4x1024x1, .i32⟩ : BufTy).Contents (Elt F)),
    binary main_v11 main_call3_v2 main_call3_v3 ((addi) : (⟨S4x1024x1, .i32⟩ : BufTy).Contents (Elt F) → (⟨S4x1024x1, .i32⟩ : BufTy).Contents (Elt F) → (⟨S4x1024x1, .i32⟩ : BufTy).Contents (Elt F)),
    ternary main_call3_v1 main_call3_v3 main_v11 main_call3_v4 ((select) : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)),
    reshape main_call3_v4 main_call3_v5 rfl shapeCasts_S4x1024x1_S4x1024x1x1 ]

/-- The references opsB4 writes. -/
abbrev opsB4_W : List (Ref sig .tc) := [main_v11, main_call3_c, main_call3_v0, main_call3_v1, main_call3_c_0, main_call3_v2, main_call3_v3, main_call3_v4, main_call3_v5]
theorem opsB4_writes : (opsB4 : List (HloOp τ sig (Elt F))).Forall fun op =>
    op.writes ⊆ (opsB4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB4_val (W : Valuation τ sig (Elt F)) (x6 : (⟨S4x1024, .i32⟩ : BufTy).Contents (Elt F))
    (h_main_arg6 : W (Proc.devRef .tc main_arg6) = x6) :
    after opsB4 W (Proc.devRef .tc main_call3_v5) = val_main_call3_v5 (F := F) x6 := by
  after_results_simp
  rw [h_main_arg6]
  simp only [val_main_v11, val_main_call3_c, val_main_call3_v0, val_main_call3_v1, val_main_call3_c_0,
    val_main_call3_v2, val_main_call3_v3, val_main_call3_v4, val_main_call3_v5]
  rfl

/-- Which token ids lie in the vocabulary. -/
abbrev opsB5 : List (HloOp τ sig (Elt F)) :=
  [ nullary main_call3_c_1 (constantI S1 32 31999#32),
    nullary main_call3_c_2 (constantI S_ 32 0#32),
    unary main_call3_c_2 main_call3_v6 ((broadcastInDim S4x1024x1x1 ![] bcast_S_S4x1024x1x1) : (⟨S_, .i32⟩ : BufTy).Contents (Elt F) → (⟨S4x1024x1x1, .i32⟩ : BufTy).Contents (Elt F)),
    binary main_call3_v5 main_call3_v6 main_call3_v7 ((cmpi .sge) : (⟨S4x1024x1x1, .i32⟩ : BufTy).Contents (Elt F) → (⟨S4x1024x1x1, .i32⟩ : BufTy).Contents (Elt F) → (⟨S4x1024x1x1, .i1⟩ : BufTy).Contents (Elt F)),
    unary main_call3_c_1 main_call3_v8 ((broadcastInDim S1x1x1x1 ![3] bcast_S1_S1x1x1x1_3) : (⟨S1, .i32⟩ : BufTy).Contents (Elt F) → (⟨S1x1x1x1, .i32⟩ : BufTy).Contents (Elt F)),
    unary main_call3_v8 main_call3_v9 ((broadcastInDim S4x1024x1x1 ![0, 1, 2, 3] bcast_S1x1x1x1_S4x1024x1x1_0_1_2_3) : (⟨S1x1x1x1, .i32⟩ : BufTy).Contents (Elt F) → (⟨S4x1024x1x1, .i32⟩ : BufTy).Contents (Elt F)),
    binary main_call3_v5 main_call3_v9 main_call3_v10 ((cmpi .sle) : (⟨S4x1024x1x1, .i32⟩ : BufTy).Contents (Elt F) → (⟨S4x1024x1x1, .i32⟩ : BufTy).Contents (Elt F) → (⟨S4x1024x1x1, .i1⟩ : BufTy).Contents (Elt F)),
    binary main_call3_v7 main_call3_v10 main_call3_v11 ((andi) : (⟨S4x1024x1x1, .i1⟩ : BufTy).Contents (Elt F) → (⟨S4x1024x1x1, .i1⟩ : BufTy).Contents (Elt F) → (⟨S4x1024x1x1, .i1⟩ : BufTy).Contents (Elt F)),
    nullary main_call3_c_3 (constantI S_ 1 1#1),
    binary main_call3_v11 main_call3_c_3 main_call3_v12 ((fun x v => Host.reduce IntOp.andi x v reducesTo_S4x1024x1x1_S4x1024x1_d3 h_S_) : (⟨S4x1024x1x1, .i1⟩ : BufTy).Contents (Elt F) → (⟨S_, .i1⟩ : BufTy).Contents (Elt F) → (⟨S4x1024x1, .i1⟩ : BufTy).Contents (Elt F)) ]

/-- The references opsB5 writes. -/
abbrev opsB5_W : List (Ref sig .tc) := [main_call3_c_1, main_call3_c_2, main_call3_v6, main_call3_v7, main_call3_v8, main_call3_v9, main_call3_v10, main_call3_v11, main_call3_c_3, main_call3_v12]
theorem opsB5_writes : (opsB5 : List (HloOp τ sig (Elt F))).Forall fun op =>
    op.writes ⊆ (opsB5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB5_val (W : Valuation τ sig (Elt F)) (x6 : (⟨S4x1024, .i32⟩ : BufTy).Contents (Elt F))
    (h_main_call3_v5 : W (Proc.devRef .tc main_call3_v5) = val_main_call3_v5 (F := F) x6) :
    after opsB5 W (Proc.devRef .tc main_call3_v12) = val_main_call3_v12 (F := F) x6 := by
  after_results_simp
  rw [h_main_call3_v5]
  simp only [val_main_call3_c_1, val_main_call3_c_2, val_main_call3_v6, val_main_call3_v7, val_main_call3_v8,
    val_main_call3_v9, val_main_call3_v10, val_main_call3_v11, val_main_call3_c_3, val_main_call3_v12]

/-- The log-softmax gathered at the token ids (NaN where the id lies outside), as [4,1024]. -/
abbrev opsB6 : List (HloOp τ sig (Elt F)) :=
  [ binary main_v10 main_call3_v5 main_call3_v13 ((fun x i => Host.gather gather_S4x1024x32000_S4x1024x1x1_S4x1024x1_n_2_01_01_2_3_111 x i) : (⟨S4x1024x32000, .f32⟩ : BufTy).Contents (Elt F) → (⟨S4x1024x1x1, .i32⟩ : BufTy).Contents (Elt F) → (⟨S4x1024x1, .f32⟩ : BufTy).Contents (Elt F)),
    nullary main_call3_cst (constant S_ .f32 0x7FC00000#32),
    unary main_call3_cst main_call3_v14 ((broadcastInDim S4x1024x1 ![] bcast_S_S4x1024x1) : (⟨S_, .f32⟩ : BufTy).Contents (Elt F) → (⟨S4x1024x1, .f32⟩ : BufTy).Contents (Elt F)),
    ternary main_call3_v12 main_call3_v13 main_call3_v14 main_v12 ((select) : (⟨S4x1024x1, .i1⟩ : BufTy).Contents (Elt F) → (⟨S4x1024x1, .f32⟩ : BufTy).Contents (Elt F) → (⟨S4x1024x1, .f32⟩ : BufTy).Contents (Elt F) → (⟨S4x1024x1, .f32⟩ : BufTy).Contents (Elt F)),
    reshape main_v12 main_v13 rfl shapeCasts_S4x1024x1_S4x1024 ]

/-- The references opsB6 writes. -/
abbrev opsB6_W : List (Ref sig .tc) := [main_call3_v13, main_call3_cst, main_call3_v14, main_v12, main_v13]
theorem opsB6_writes : (opsB6 : List (HloOp τ sig (Elt F))).Forall fun op =>
    op.writes ⊆ (opsB6_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
attribute [local irreducible] Host.reduce Host.reduceAdd Host.gather in
theorem opsB6_val (W : Valuation τ sig (Elt F)) (x1 : (⟨S4x1024x2048, .f32⟩ : BufTy).Contents (Elt F)) (x3 : (⟨S32000x2048, .f32⟩ : BufTy).Contents (Elt F)) (x6 : (⟨S4x1024, .i32⟩ : BufTy).Contents (Elt F))
    (h_main_v10 : W (Proc.devRef .tc main_v10) = val_main_v10 (F := F) x1 x3)
    (h_main_call3_v5 : W (Proc.devRef .tc main_call3_v5) = val_main_call3_v5 (F := F) x6)
    (h_main_call3_v12 : W (Proc.devRef .tc main_call3_v12) = val_main_call3_v12 (F := F) x6) :
    after opsB6 W (Proc.devRef .tc main_v13) = val_main_v13 (F := F) x1 x3 x6 := by
  after_results_simp
  rw [h_main_v10, h_main_call3_v5, h_main_call3_v12]
  simp only [val_main_call3_v13, val_main_call3_cst, val_main_call3_v14, val_main_v12, val_main_v13]
  rfl

/-- The second stretch is its six parts in order. -/
theorem opsB_split : (opsB : List (HloOp τ sig (Elt F))) = opsB1 ++ (opsB2 ++ (opsB3 ++ (opsB4 ++ (opsB5 ++ opsB6)))) := rfl

/-- From any contents V, the second stretch leaves the log-probabilities of V's arguments in main_v13. -/
theorem opsB_val (V : Valuation τ sig (Elt F)) :
    after opsB V (Proc.devRef .tc main_v13)
      = val_main_v13 (F := F) (V (Proc.devRef .tc main_arg1)) (V (Proc.devRef .tc main_arg3)) (V (Proc.devRef .tc main_arg6)) := by
  rw [opsB_split, StableHlo.after_append, StableHlo.after_append, StableHlo.after_append, StableHlo.after_append, StableHlo.after_append]
  have e1 := opsB1_val V (V (Proc.devRef .tc main_arg1)) (V (Proc.devRef .tc main_arg3)) rfl rfl
  have e2 := opsB2_val (after opsB1 V) (V (Proc.devRef .tc main_arg1)) (V (Proc.devRef .tc main_arg3)) e1
  have e3 := opsB3_val (after opsB2 (after opsB1 V)) (V (Proc.devRef .tc main_arg1)) (V (Proc.devRef .tc main_arg3)) e2
  have a6 : (after opsB3 (after opsB2 (after opsB1 V))) (Proc.devRef .tc main_arg6) = V (Proc.devRef .tc main_arg6) := by
    rw [after_of_writes_sub opsB3 _ opsB3_writes (r := main_arg6) (by decide), after_of_writes_sub opsB2 _ opsB2_writes (r := main_arg6) (by decide), after_of_writes_sub opsB1 _ opsB1_writes (r := main_arg6) (by decide)]
  have e4 := opsB4_val (after opsB3 (after opsB2 (after opsB1 V))) (V (Proc.devRef .tc main_arg6)) a6
  have e5 := opsB5_val (after opsB4 (after opsB3 (after opsB2 (after opsB1 V)))) (V (Proc.devRef .tc main_arg6)) e4
  have e3' : (after opsB5 (after opsB4 (after opsB3 (after opsB2 (after opsB1 V))))) (Proc.devRef .tc main_v10) = val_main_v10 (F := F) (V (Proc.devRef .tc main_arg1)) (V (Proc.devRef .tc main_arg3)) := by
    rw [after_of_writes_sub opsB5 _ opsB5_writes (r := main_v10) (by decide), after_of_writes_sub opsB4 _ opsB4_writes (r := main_v10) (by decide)]; exact e3
  have e4' : (after opsB5 (after opsB4 (after opsB3 (after opsB2 (after opsB1 V))))) (Proc.devRef .tc main_call3_v5) = val_main_call3_v5 (F := F) (V (Proc.devRef .tc main_arg6)) := by
    rw [after_of_writes_sub opsB5 _ opsB5_writes (r := main_call3_v5) (by decide)]; exact e4
  exact opsB6_val (after opsB5 (after opsB4 (after opsB3 (after opsB2 (after opsB1 V))))) (V (Proc.devRef .tc main_arg1)) (V (Proc.devRef .tc main_arg3)) (V (Proc.devRef .tc main_arg6)) e3' e4' e5

/-- The last stretch: the combine shared with the kernel's program. -/
abbrev opsT : List (HloOp τ sig (Elt F)) :=
  [ binary main_v6 main_v6 main_v14 (subf : (⟨S4x1024, .f32⟩ : BufTy).Contents (Elt F) → (⟨S4x1024, .f32⟩ : BufTy).Contents (Elt F) → (⟨S4x1024, .f32⟩ : BufTy).Contents (Elt F)),
    unary main_v14 main_v15 (Host.exp : (⟨S4x1024, .f32⟩ : BufTy).Contents (Elt F) → (⟨S4x1024, .f32⟩ : BufTy).Contents (Elt F)),
    nullary main_cst_1 (constant S_ .f32 0x3F4CCCCD#32),
    nullary main_cst_2 (constant S_ .f32 0x3F99999A#32),
    unary main_cst_1 main_call4_v0 ((id) : (⟨S_, .f32⟩ : BufTy).Contents (Elt F) → (⟨S_, .f32⟩ : BufTy).Contents (Elt F)),
    unary main_call4_v0 main_call4_v1 ((broadcastInDim S4x1024 ![] bcast_S_S4x1024) : (⟨S_, .f32⟩ : BufTy).Contents (Elt F) → (⟨S4x1024, .f32⟩ : BufTy).Contents (Elt F)),
    binary main_call4_v1 main_v15 main_call4_v2 ((maximumf) : (⟨S4x1024, .f32⟩ : BufTy).Contents (Elt F) → (⟨S4x1024, .f32⟩ : BufTy).Contents (Elt F) → (⟨S4x1024, .f32⟩ : BufTy).Contents (Elt F)),
    unary main_cst_2 main_call4_v3 ((id) : (⟨S_, .f32⟩ : BufTy).Contents (Elt F) → (⟨S_, .f32⟩ : BufTy).Contents (Elt F)),
    unary main_call4_v3 main_call4_v4 ((broadcastInDim S4x1024 ![] bcast_S_S4x1024) : (⟨S_, .f32⟩ : BufTy).Contents (Elt F) → (⟨S4x1024, .f32⟩ : BufTy).Contents (Elt F)),
    binary main_call4_v4 main_call4_v2 main_v16 ((minimumf) : (⟨S4x1024, .f32⟩ : BufTy).Contents (Elt F) → (⟨S4x1024, .f32⟩ : BufTy).Contents (Elt F) → (⟨S4x1024, .f32⟩ : BufTy).Contents (Elt F)),
    unary main_arg4 main_v17 (broadcastInDim S4x1 ![0] bcast_S4_S4x1_0 : (⟨S4, .f32⟩ : BufTy).Contents (Elt F) → (⟨S4x1, .f32⟩ : BufTy).Contents (Elt F)),
    unary main_v17 main_v18 (broadcastInDim S4x1024 ![0, 1] bcast_S4x1_S4x1024_0_1 : (⟨S4x1, .f32⟩ : BufTy).Contents (Elt F) → (⟨S4x1024, .f32⟩ : BufTy).Contents (Elt F)),
    binary main_v15 main_v18 main_v19 (mulf : (⟨S4x1024, .f32⟩ : BufTy).Contents (Elt F) → (⟨S4x1024, .f32⟩ : BufTy).Contents (Elt F) → (⟨S4x1024, .f32⟩ : BufTy).Contents (Elt F)),
    unary main_v17 main_v20 (broadcastInDim S4x1024 ![0, 1] bcast_S4x1_S4x1024_0_1 : (⟨S4x1, .f32⟩ : BufTy).Contents (Elt F) → (⟨S4x1024, .f32⟩ : BufTy).Contents (Elt F)),
    binary main_v16 main_v20 main_v21 (mulf : (⟨S4x1024, .f32⟩ : BufTy).Contents (Elt F) → (⟨S4x1024, .f32⟩ : BufTy).Contents (Elt F) → (⟨S4x1024, .f32⟩ : BufTy).Contents (Elt F)),
    binary main_v19 main_v21 main_v22 (minimumf : (⟨S4x1024, .f32⟩ : BufTy).Contents (Elt F) → (⟨S4x1024, .f32⟩ : BufTy).Contents (Elt F) → (⟨S4x1024, .f32⟩ : BufTy).Contents (Elt F)),
    unary main_v22 main_v23 (Host.negf : (⟨S4x1024, .f32⟩ : BufTy).Contents (Elt F) → (⟨S4x1024, .f32⟩ : BufTy).Contents (Elt F)),
    binary main_v13 main_v6 main_v24 (subf : (⟨S4x1024, .f32⟩ : BufTy).Contents (Elt F) → (⟨S4x1024, .f32⟩ : BufTy).Contents (Elt F) → (⟨S4x1024, .f32⟩ : BufTy).Contents (Elt F)),
    unary main_v24 main_v25 (Host.exp : (⟨S4x1024, .f32⟩ : BufTy).Contents (Elt F) → (⟨S4x1024, .f32⟩ : BufTy).Contents (Elt F)),
    binary main_v25 main_v24 main_v26 (subf : (⟨S4x1024, .f32⟩ : BufTy).Contents (Elt F) → (⟨S4x1024, .f32⟩ : BufTy).Contents (Elt F) → (⟨S4x1024, .f32⟩ : BufTy).Contents (Elt F)),
    nullary main_cst_3 (constant S_ .f32 0x3F800000#32),
    unary main_cst_3 main_v27 (broadcastInDim S4x1024 ![] bcast_S_S4x1024 : (⟨S_, .f32⟩ : BufTy).Contents (Elt F) → (⟨S4x1024, .f32⟩ : BufTy).Contents (Elt F)),
    binary main_v26 main_v27 main_v28 (subf : (⟨S4x1024, .f32⟩ : BufTy).Contents (Elt F) → (⟨S4x1024, .f32⟩ : BufTy).Contents (Elt F) → (⟨S4x1024, .f32⟩ : BufTy).Contents (Elt F)),
    nullary main_cst_4 (constant S_ .f32 0x3DCCCCCD#32),
    unary main_cst_4 main_v29 (broadcastInDim S4x1024 ![] bcast_S_S4x1024 : (⟨S_, .f32⟩ : BufTy).Contents (Elt F) → (⟨S4x1024, .f32⟩ : BufTy).Contents (Elt F)),
    binary main_v29 main_v28 main_v30 (mulf : (⟨S4x1024, .f32⟩ : BufTy).Contents (Elt F) → (⟨S4x1024, .f32⟩ : BufTy).Contents (Elt F) → (⟨S4x1024, .f32⟩ : BufTy).Contents (Elt F)),
    binary main_v23 main_v30 main_v31 (addf : (⟨S4x1024, .f32⟩ : BufTy).Contents (Elt F) → (⟨S4x1024, .f32⟩ : BufTy).Contents (Elt F) → (⟨S4x1024, .f32⟩ : BufTy).Contents (Elt F)),
    nullary main_cst_5 (constant S_ .f32 0x00000000#32),
    binary main_arg5 main_cst_5 main_v32 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_6 (constant S_ .f32 0x3F800000#32),
    binary main_v32 main_cst_6 main_v33 (maximumf : (⟨S_, .f32⟩ : BufTy).Contents (Elt F) → (⟨S_, .f32⟩ : BufTy).Contents (Elt F) → (⟨S_, .f32⟩ : BufTy).Contents (Elt F)),
    binary main_v31 main_arg5 main_v34 (mulf : (⟨S4x1024, .f32⟩ : BufTy).Contents (Elt F) → (⟨S4x1024, .f32⟩ : BufTy).Contents (Elt F) → (⟨S4x1024, .f32⟩ : BufTy).Contents (Elt F)),
    nullary main_cst_7 (constant S_ .f32 0x00000000#32),
    binary main_v34 main_cst_7 main_v35 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    binary main_v35 main_v33 main_v36 (Host.divf : (⟨S_, .f32⟩ : BufTy).Contents (Elt F) → (⟨S_, .f32⟩ : BufTy).Contents (Elt F) → (⟨S_, .f32⟩ : BufTy).Contents (Elt F)),
    binary main_v28 main_arg5 main_v37 (mulf : (⟨S4x1024, .f32⟩ : BufTy).Contents (Elt F) → (⟨S4x1024, .f32⟩ : BufTy).Contents (Elt F) → (⟨S4x1024, .f32⟩ : BufTy).Contents (Elt F)),
    nullary main_cst_8 (constant S_ .f32 0x00000000#32),
    binary main_v37 main_cst_8 main_v38 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    binary main_v38 main_v33 main_v39 (Host.divf : (⟨S_, .f32⟩ : BufTy).Contents (Elt F) → (⟨S_, .f32⟩ : BufTy).Contents (Elt F) → (⟨S_, .f32⟩ : BufTy).Contents (Elt F)),
    nullary main_cst_9 (constant S_ .f32 0x3F4CCCCD#32),
    unary main_cst_9 main_v40 (broadcastInDim S4x1024 ![] bcast_S_S4x1024 : (⟨S_, .f32⟩ : BufTy).Contents (Elt F) → (⟨S4x1024, .f32⟩ : BufTy).Contents (Elt F)),
    binary main_v15 main_v40 main_v41 (cmpf .olt : (⟨S4x1024, .f32⟩ : BufTy).Contents (Elt F) → (⟨S4x1024, .f32⟩ : BufTy).Contents (Elt F) → (⟨S4x1024, .i1⟩ : BufTy).Contents (Elt F)),
    nullary main_cst_10 (constant S_ .f32 0x00000000#32),
    unary main_cst_10 main_v42 (broadcastInDim S4x1 ![] bcast_S_S4x1 : (⟨S_, .f32⟩ : BufTy).Contents (Elt F) → (⟨S4x1, .f32⟩ : BufTy).Contents (Elt F)),
    binary main_v17 main_v42 main_v43 (cmpf .olt : (⟨S4x1, .f32⟩ : BufTy).Contents (Elt F) → (⟨S4x1, .f32⟩ : BufTy).Contents (Elt F) → (⟨S4x1, .i1⟩ : BufTy).Contents (Elt F)),
    unary main_v43 main_v44 (broadcastInDim S4x1024 ![0, 1] bcast_S4x1_S4x1024_0_1 : (⟨S4x1, .i1⟩ : BufTy).Contents (Elt F) → (⟨S4x1024, .i1⟩ : BufTy).Contents (Elt F)),
    binary main_v41 main_v44 main_v45 (andi : (⟨S4x1024, .i1⟩ : BufTy).Contents (Elt F) → (⟨S4x1024, .i1⟩ : BufTy).Contents (Elt F) → (⟨S4x1024, .i1⟩ : BufTy).Contents (Elt F)),
    nullary main_cst_11 (constant S_ .f32 0x3F99999A#32),
    unary main_cst_11 main_v46 (broadcastInDim S4x1024 ![] bcast_S_S4x1024 : (⟨S_, .f32⟩ : BufTy).Contents (Elt F) → (⟨S4x1024, .f32⟩ : BufTy).Contents (Elt F)),
    binary main_v15 main_v46 main_v47 (cmpf .ogt : (⟨S4x1024, .f32⟩ : BufTy).Contents (Elt F) → (⟨S4x1024, .f32⟩ : BufTy).Contents (Elt F) → (⟨S4x1024, .i1⟩ : BufTy).Contents (Elt F)),
    nullary main_cst_12 (constant S_ .f32 0x00000000#32),
    unary main_cst_12 main_v48 (broadcastInDim S4x1 ![] bcast_S_S4x1 : (⟨S_, .f32⟩ : BufTy).Contents (Elt F) → (⟨S4x1, .f32⟩ : BufTy).Contents (Elt F)),
    binary main_v17 main_v48 main_v49 (cmpf .ogt : (⟨S4x1, .f32⟩ : BufTy).Contents (Elt F) → (⟨S4x1, .f32⟩ : BufTy).Contents (Elt F) → (⟨S4x1, .i1⟩ : BufTy).Contents (Elt F)),
    unary main_v49 main_v50 (broadcastInDim S4x1024 ![0, 1] bcast_S4x1_S4x1024_0_1 : (⟨S4x1, .i1⟩ : BufTy).Contents (Elt F) → (⟨S4x1024, .i1⟩ : BufTy).Contents (Elt F)),
    binary main_v47 main_v50 main_v51 (andi : (⟨S4x1024, .i1⟩ : BufTy).Contents (Elt F) → (⟨S4x1024, .i1⟩ : BufTy).Contents (Elt F) → (⟨S4x1024, .i1⟩ : BufTy).Contents (Elt F)),
    binary main_v45 main_v51 main_v52 (ori : (⟨S4x1024, .i1⟩ : BufTy).Contents (Elt F) → (⟨S4x1024, .i1⟩ : BufTy).Contents (Elt F) → (⟨S4x1024, .i1⟩ : BufTy).Contents (Elt F)),
    unary main_v52 main_v53 (uitofp .f32 : (⟨S4x1024, .i1⟩ : BufTy).Contents (Elt F) → (⟨S4x1024, .f32⟩ : BufTy).Contents (Elt F)),
    binary main_v53 main_arg5 main_v54 (mulf : (⟨S4x1024, .f32⟩ : BufTy).Contents (Elt F) → (⟨S4x1024, .f32⟩ : BufTy).Contents (Elt F) → (⟨S4x1024, .f32⟩ : BufTy).Contents (Elt F)),
    nullary main_cst_13 (constant S_ .f32 0x00000000#32),
    binary main_v54 main_cst_13 main_v55 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    binary main_v55 main_v33 main_v56 (Host.divf : (⟨S_, .f32⟩ : BufTy).Contents (Elt F) → (⟨S_, .f32⟩ : BufTy).Contents (Elt F) → (⟨S_, .f32⟩ : BufTy).Contents (Elt F)) ]

/-- From any contents W, the last stretch leaves the loss of W's two log-probability arrays, advantages and mask. -/
theorem opsT_v36 (W : Valuation τ sig (Elt F)) :
    after opsT W (Proc.devRef .tc main_v36)
      = Cert.Tail.loss Cert.ReferenceIdeal.RTail.rf (W (Proc.devRef .tc main_v6)) (W (Proc.devRef .tc main_v13))
          (W (Proc.devRef .tc main_arg4)) (W (Proc.devRef .tc main_arg5)) := by
  after_results_simp
  rfl

/-- Likewise the divergence metric. -/
theorem opsT_v39 (W : Valuation τ sig (Elt F)) :
    after opsT W (Proc.devRef .tc main_v39)
      = Cert.Tail.klMetric Cert.ReferenceIdeal.RTail.rf (W (Proc.devRef .tc main_v6)) (W (Proc.devRef .tc main_v13))
          (W (Proc.devRef .tc main_arg4)) (W (Proc.devRef .tc main_arg5)) := by
  after_results_simp
  rfl

/-- Likewise the fraction of clipped tokens. -/
theorem opsT_v56 (W : Valuation τ sig (Elt F)) :
    after opsT W (Proc.devRef .tc main_v56)
      = Cert.Tail.clipMetric Cert.ReferenceIdeal.RTail.rf (W (Proc.devRef .tc main_v6)) (W (Proc.devRef .tc main_v13))
          (W (Proc.devRef .tc main_arg4)) (W (Proc.devRef .tc main_arg5)) := by
  after_results_simp
  rfl

/-- The references opsA writes. -/
abbrev opsA_W : List (Ref sig .tc) :=
  [main_v0, main_cst, main_v1, main_v2, main_call0_cst, main_call0_v0, main_call0_cst_0, main_call0_v1,
   main_call0_v2, main_call0_v3, main_call0_v4, main_call0_v5, main_call0_v6, main_call0_cst_1, main_call0_v7,
   main_call0_v8, main_call0_v9, main_call0_v10, main_v3, main_v4, main_call1_c, main_call1_v0, main_call1_v1,
   main_call1_c_0, main_call1_v2, main_call1_v3, main_call1_v4, main_call1_v5, main_call1_c_1, main_call1_c_2,
   main_call1_v6, main_call1_v7, main_call1_v8, main_call1_v9, main_call1_v10, main_call1_v11, main_call1_c_3,
   main_call1_v12, main_call1_v13, main_call1_cst, main_call1_v14, main_v5, main_v6]
theorem opsA_writes : (opsA : List (HloOp τ sig (Elt F))).Forall fun op =>
    op.writes ⊆ (opsA_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem opsA_fresh : (opsA : List (HloOp τ sig (Elt F))).Forall fun op => op.fresh = ∅ := by
  simp only [List.Forall]; repeat' constructor

/-- The references opsB writes. -/
abbrev opsB_W : List (Ref sig .tc) :=
  [main_v7, main_cst_0, main_v8, main_v9, main_call2_cst, main_call2_v0, main_call2_cst_0, main_call2_v1,
   main_call2_v2, main_call2_v3, main_call2_v4, main_call2_v5, main_call2_v6, main_call2_cst_1, main_call2_v7,
   main_call2_v8, main_call2_v9, main_call2_v10, main_v10, main_v11, main_call3_c, main_call3_v0, main_call3_v1,
   main_call3_c_0, main_call3_v2, main_call3_v3, main_call3_v4, main_call3_v5, main_call3_c_1, main_call3_c_2,
   main_call3_v6, main_call3_v7, main_call3_v8, main_call3_v9, main_call3_v10, main_call3_v11, main_call3_c_3,
   main_call3_v12, main_call3_v13, main_call3_cst, main_call3_v14, main_v12, main_v13]
theorem opsB_writes : (opsB : List (HloOp τ sig (Elt F))).Forall fun op =>
    op.writes ⊆ (opsB_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem opsB_fresh : (opsB : List (HloOp τ sig (Elt F))).Forall fun op => op.fresh = ∅ := by
  simp only [List.Forall]; repeat' constructor

/-- The references opsT writes. -/
abbrev opsT_W : List (Ref sig .tc) :=
  [main_v14, main_v15, main_cst_1, main_cst_2, main_call4_v0, main_call4_v1, main_call4_v2, main_call4_v3,
   main_call4_v4, main_v16, main_v17, main_v18, main_v19, main_v20, main_v21, main_v22, main_v23, main_v24,
   main_v25, main_v26, main_cst_3, main_v27, main_v28, main_cst_4, main_v29, main_v30, main_v31, main_cst_5,
   main_v32, main_cst_6, main_v33, main_v34, main_cst_7, main_v35, main_v36, main_v37, main_cst_8, main_v38,
   main_v39, main_cst_9, main_v40, main_v41, main_cst_10, main_v42, main_v43, main_v44, main_v45, main_cst_11,
   main_v46, main_v47, main_cst_12, main_v48, main_v49, main_v50, main_v51, main_v52, main_v53, main_v54,
   main_cst_13, main_v55, main_v56]
theorem opsT_writes : (opsT : List (HloOp τ sig (Elt F))).Forall fun op =>
    op.writes ⊆ (opsT_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)
theorem opsT_fresh : (opsT : List (HloOp τ sig (Elt F))).Forall fun op => op.fresh = ∅ := by
  simp only [List.Forall]; repeat' constructor

/-- A stretch leaves every reference it does not write as it found it. -/
theorem afterA (V : Valuation τ sig (Elt F)) (r : Ref sig .tc) (h : r ∉ opsA_W) :
    after opsA V (Proc.devRef .tc r) = V (Proc.devRef .tc r) := after_of_writes_sub opsA V opsA_writes h
theorem afterB (V : Valuation τ sig (Elt F)) (r : Ref sig .tc) (h : r ∉ opsB_W) :
    after opsB V (Proc.devRef .tc r) = V (Proc.devRef .tc r) := after_of_writes_sub opsB V opsB_writes h
theorem afterT (V : Valuation τ sig (Elt F)) (r : Ref sig .tc) (h : r ∉ opsT_W) :
    after opsT V (Proc.devRef .tc r) = V (Proc.devRef .tc r) := after_of_writes_sub opsT V opsT_writes h

set_option maxRecDepth 8192 in
set_option maxHeartbeats 4000000 in
attribute [local irreducible] Host.reduce Host.reduceAdd Host.gather in
/-- The whole line is the three stretches in order: the program's list states a called function's operations over
    typed references, the stretches state every operation over plain ones; element by element they are the same
    operation. -/
theorem ops_split : (ops : List (HloOp τ sig (Elt F))) = opsA ++ (opsB ++ opsT) := by
  repeat' (apply congrArg₂ List.cons)
  all_goals rfl

/-- No operation of the line allocates. -/
theorem ops_fresh : ∀ op ∈ (ops : List (HloOp τ sig (Elt F))), op.fresh = ∅ := by
  rw [ops_split]
  intro op h
  rcases List.mem_append.mp h with h | h
  · exact List.forall_iff_forall_mem.mp opsA_fresh op h
  · rcases List.mem_append.mp h with h | h
    · exact List.forall_iff_forall_mem.mp opsB_fresh op h
    · exact List.forall_iff_forall_mem.mp opsT_fresh op h

/-- The line leaves every reference none of its stretches writes as it found it. -/
theorem ops_keep (V : Valuation τ sig (Elt F)) (r : Ref sig .tc) (hA : r ∉ opsA_W) (hB : r ∉ opsB_W) (hT : r ∉ opsT_W) :
    after ops V (Proc.devRef .tc r) = V (Proc.devRef .tc r) := by
  rw [ops_split, StableHlo.after_append, StableHlo.after_append, afterT _ r hT, afterB _ r hB, afterA _ r hA]

/-- From any contents V, the whole line leaves the three results at the shared tail of the two log-probability stages of
    V's arguments. -/
theorem ops_v36 (V : Valuation τ sig (Elt F)) :
    after ops V (Proc.devRef .tc main_v36)
      = Cert.Tail.loss Cert.ReferenceIdeal.RTail.rf
          (val_main_v6 (F := F) (V (Proc.devRef .tc main_arg0)) (V (Proc.devRef .tc main_arg2)) (V (Proc.devRef .tc main_arg6)))
          (val_main_v13 (F := F) (V (Proc.devRef .tc main_arg1)) (V (Proc.devRef .tc main_arg3)) (V (Proc.devRef .tc main_arg6)))
          (V (Proc.devRef .tc main_arg4)) (V (Proc.devRef .tc main_arg5)) := by
  rw [ops_split, StableHlo.after_append, StableHlo.after_append, opsT_v36,
    afterB (after opsA V) main_v6 (by decide), opsA_val, opsB_val,
    afterA V main_arg1 (by decide), afterA V main_arg3 (by decide), afterA V main_arg6 (by decide),
    afterB (after opsA V) main_arg4 (by decide), afterA V main_arg4 (by decide),
    afterB (after opsA V) main_arg5 (by decide), afterA V main_arg5 (by decide)]

theorem ops_v39 (V : Valuation τ sig (Elt F)) :
    after ops V (Proc.devRef .tc main_v39)
      = Cert.Tail.klMetric Cert.ReferenceIdeal.RTail.rf
          (val_main_v6 (F := F) (V (Proc.devRef .tc main_arg0)) (V (Proc.devRef .tc main_arg2)) (V (Proc.devRef .tc main_arg6)))
          (val_main_v13 (F := F) (V (Proc.devRef .tc main_arg1)) (V (Proc.devRef .tc main_arg3)) (V (Proc.devRef .tc main_arg6)))
          (V (Proc.devRef .tc main_arg4)) (V (Proc.devRef .tc main_arg5)) := by
  rw [ops_split, StableHlo.after_append, StableHlo.after_append, opsT_v39,
    afterB (after opsA V) main_v6 (by decide), opsA_val, opsB_val,
    afterA V main_arg1 (by decide), afterA V main_arg3 (by decide), afterA V main_arg6 (by decide),
    afterB (after opsA V) main_arg4 (by decide), afterA V main_arg4 (by decide),
    afterB (after opsA V) main_arg5 (by decide), afterA V main_arg5 (by decide)]

theorem ops_v56 (V : Valuation τ sig (Elt F)) :
    after ops V (Proc.devRef .tc main_v56)
      = Cert.Tail.clipMetric Cert.ReferenceIdeal.RTail.rf
          (val_main_v6 (F := F) (V (Proc.devRef .tc main_arg0)) (V (Proc.devRef .tc main_arg2)) (V (Proc.devRef .tc main_arg6)))
          (val_main_v13 (F := F) (V (Proc.devRef .tc main_arg1)) (V (Proc.devRef .tc main_arg3)) (V (Proc.devRef .tc main_arg6)))
          (V (Proc.devRef .tc main_arg4)) (V (Proc.devRef .tc main_arg5)) := by
  rw [ops_split, StableHlo.after_append, StableHlo.after_append, opsT_v56,
    afterB (after opsA V) main_v6 (by decide), opsA_val, opsB_val,
    afterA V main_arg1 (by decide), afterA V main_arg3 (by decide), afterA V main_arg6 (by decide),
    afterB (after opsA V) main_arg4 (by decide), afterA V main_arg4 (by decide),
    afterB (after opsA V) main_arg5 (by decide), afterA V main_arg5 (by decide)]

/-- Every weakly fair execution of the reference terminates with its three results at the shared tail of the two
    log-probability stages, the advantages and the mask, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = Cert.Tail.loss Cert.ReferenceIdeal.RTail.rf
            (val_main_v6 (F := F) (m ((c.tc : Thread nD τ).loc main_arg0)) (m ((c.tc : Thread nD τ).loc main_arg2)) (m ((c.tc : Thread nD τ).loc main_arg6)))
            (val_main_v13 (F := F) (m ((c.tc : Thread nD τ).loc main_arg1)) (m ((c.tc : Thread nD τ).loc main_arg3)) (m ((c.tc : Thread nD τ).loc main_arg6)))
            (m ((c.tc : Thread nD τ).loc main_arg4)) (m ((c.tc : Thread nD τ).loc main_arg5))
      ∧ r.2.mem ((c.tc : Thread nD τ).loc main_v39)
        = Cert.Tail.klMetric Cert.ReferenceIdeal.RTail.rf
            (val_main_v6 (F := F) (m ((c.tc : Thread nD τ).loc main_arg0)) (m ((c.tc : Thread nD τ).loc main_arg2)) (m ((c.tc : Thread nD τ).loc main_arg6)))
            (val_main_v13 (F := F) (m ((c.tc : Thread nD τ).loc main_arg1)) (m ((c.tc : Thread nD τ).loc main_arg3)) (m ((c.tc : Thread nD τ).loc main_arg6)))
            (m ((c.tc : Thread nD τ).loc main_arg4)) (m ((c.tc : Thread nD τ).loc main_arg5))
      ∧ r.2.mem ((c.tc : Thread nD τ).loc main_v56)
        = Cert.Tail.clipMetric Cert.ReferenceIdeal.RTail.rf
            (val_main_v6 (F := F) (m ((c.tc : Thread nD τ).loc main_arg0)) (m ((c.tc : Thread nD τ).loc main_arg2)) (m ((c.tc : Thread nD τ).loc main_arg6)))
            (val_main_v13 (F := F) (m ((c.tc : Thread nD τ).loc main_arg1)) (m ((c.tc : Thread nD τ).loc main_arg3)) (m ((c.tc : Thread nD τ).loc main_arg6)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v36).trans (ops_v36 _), (h c main_v39).trans (ops_v39 _),
      (h c main_v56).trans (ops_v56 _),
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  The certificate: the fused vocabulary-projection kernel with streaming log-sum-exp against the jnp reference
  (two [4096,2048] x [32000,2048]^T logit matrices, log-softmax along the vocabulary, the selected token's entry, then
  the policy-loss combine), equal over the extended reals for finite inputs and token ids inside the vocabulary.

  Frames: the kernel's two frames are the frame certificates of its word-level and idealized programs; the reference's
  is its run with the results dropped. The ideal pass rewrote nothing, so the idealization's claim is trivial.
  Equality of results: the kernel keeps, per token and per model, a running maximum M, a running sum L of
  exp (z - M) and the selected logit S over blocks of 640 vocabulary columns, rescaling L by exp (M - M') when the
  maximum moves; after the 50 blocks these are the maximum, the shifted sum of exponentials and the selected logit of
  the token's whole line of 32000 logits (an induction over the grid points, the rescaling being a law of the real
  numbers, which the finiteness of the inputs gives), and S - (M + log L) = (z_id - M) - log L is the reference's
  log-softmax at the selected column (the reference's gather reads column id once 0 <= id < 32000, which the
  precondition states; the kernel's clamp of the id is then the identity). Both programs then apply the same host
  operations to the two arrays of log-probabilities, the advantages and the mask: one function, never opened.
-/
import proofs.«407823_j13554916786396_3_alg».proof.Defs
import proofs.«407823_j13554916786396_3_alg».proof.Proof.Gen.Kernel
import proofs.«407823_j13554916786396_3_alg».proof.Proof.Gen.KernelIdeal
import proofs.«407823_j13554916786396_3_alg».proof.Proof.Gen.ReferenceIdeal
import proofs.«407823_j13554916786396_3_alg».proof.Proof.Gen.Pre_finite_inputs
import proofs.«407823_j13554916786396_3_alg».proof.Proof.PatchK.Frame
import proofs.«407823_j13554916786396_3_alg».proof.Proof.PatchKI.Frame
import proofs.«407823_j13554916786396_3_alg».proof.Proof.PreDecode
import proofs.«407823_j13554916786396_3_alg».proof.Proof.KRun
import proofs.«407823_j13554916786396_3_alg».proof.Proof.Bridge
import proofs.«407823_j13554916786396_3_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- What the precondition gives on every core, in the form the kernel's run asks for. -/
theorem hyp_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.KernelIdeal.Inv.A0 m c i = (r : EReal)) ∧ (∀ i, ∃ r : ℝ, Cert.KernelIdeal.Inv.A1 m c i = (r : EReal))
    ∧ (∀ i, ∃ r : ℝ, Cert.KernelIdeal.Inv.A2 m c i = (r : EReal)) ∧ (∀ i, ∃ r : ℝ, Cert.KernelIdeal.Inv.A3 m c i = (r : EReal))
    ∧ (∀ i, ∃ n : ℕ, n < 32000 ∧ Cert.KernelIdeal.Inv.A6 m c i = BitVec.ofNat 32 n) :=
  Cert.PreDecode.decode _ _ _ _ _ _ _ (hpre c)

set_option maxHeartbeats 4000000 in
/-- The two idealized programs, from memories agreeing on the arguments, end with equal results. -/
theorem algebraic : Cert.algebraic_KernelIdeal_ReferenceIdeal := by
  intro m ρ m' ρ' hpre hagree
  have hyp := hyp_of_pre m hpre
  refine ⟨fun c => Cert.KernelIdeal.KRun.R0 m c, fun c => Cert.KernelIdeal.KRun.R1 m c, fun c => Cert.KernelIdeal.KRun.R2 m c,
    Cert.KernelIdeal.KRun.run m ρ hyp, ?_⟩
  refine (θ_run Cert.ReferenceIdeal.defs _ _).mono
    (fun _ h c => ⟨(h c).1.trans ?_, (h c).2.1.trans ?_, (h c).2.2.1.trans ?_, (h c).2.2.2⟩)
    (Cert.ReferenceIdeal.RefRun.run (F := Ideal) m' ρ')
  · obtain ⟨e0, e1, e2, e3, e4, e5, e6⟩ := hagree c
    rw [e0, e1, e2, e3, e4, e5, e6]
    delta Cert.KernelIdeal.KRun.R0 Cert.KernelIdeal.KRun.Pk Cert.KernelIdeal.KRun.Qk
    beta_reduce
    rw [Cert.Bridge.P_eq m c (hyp c).2.2.2.2 Cert.KernelIdeal.Gen.shapeCasts_S4096x1_S4x1024,
      Cert.Bridge.Q_eq m c (hyp c).2.2.2.2 Cert.KernelIdeal.Gen.shapeCasts_S4096x1_S4x1024]
  · obtain ⟨e0, e1, e2, e3, e4, e5, e6⟩ := hagree c
    rw [e0, e1, e2, e3, e4, e5, e6]
    delta Cert.KernelIdeal.KRun.R1 Cert.KernelIdeal.KRun.Pk Cert.KernelIdeal.KRun.Qk
    beta_reduce
    rw [Cert.Bridge.P_eq m c (hyp c).2.2.2.2 Cert.KernelIdeal.Gen.shapeCasts_S4096x1_S4x1024,
      Cert.Bridge.Q_eq m c (hyp c).2.2.2.2 Cert.KernelIdeal.Gen.shapeCasts_S4096x1_S4x1024]
  · obtain ⟨e0, e1, e2, e3, e4, e5, e6⟩ := hagree c
    rw [e0, e1, e2, e3, e4, e5, e6]
    delta Cert.KernelIdeal.KRun.R2 Cert.KernelIdeal.KRun.Pk Cert.KernelIdeal.KRun.Qk
    beta_reduce
    rw [Cert.Bridge.P_eq m c (hyp c).2.2.2.2 Cert.KernelIdeal.Gen.shapeCasts_S4096x1_S4x1024,
      Cert.Bridge.Q_eq m c (hyp c).2.2.2.2 Cert.KernelIdeal.Gen.shapeCasts_S4096x1_S4x1024]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2.2)
      (Cert.ReferenceIdeal.RefRun.run (F := Ideal) m ρ),
    trivial,
    algebraic⟩

end Cert.Proof

end
